-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x600000 : Shape := ⟨2, ![2, 600000]⟩
abbrev S600000x128 : Shape := ⟨2, ![600000, 128]⟩
abbrev S1024x128 : Shape := ⟨2, ![1024, 128]⟩
abbrev S500000 : Shape := ⟨1, ![500000]⟩
abbrev S128x384 : Shape := ⟨2, ![128, 384]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S1024x128 : S_.BroadcastsInDim S1024x128 (![] : Fin 0 → Fin S1024x128.rank)
  reducesTo_S1024x128_S_d0_1 : S1024x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_arg1 : IVec S2x600000 32) (main_arg6 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x600000 32 := (extractStridedSlice S1x600000 ![0, 0] · slices_S2x600000_S1x600000_0_0) main_arg1
  let main_v25 : IVec S600000 32 := shapeCast S600000 main_v24 shapeCasts_S1x600000_S600000
  let main_c_8 : IVec S_ 32 := constantI S_ 32 0#32
  let main_v26 : IVec S600000 32 := broadcastInDim S600000 ![] bcast_S_S600000 main_c_8
  let main_v27 : IVec S600000 1 := cmpi .sge main_v25 main_v26
  let main_v28 : IVec S1x600000 32 := (extractStridedSlice S1x600000 ![0, 0] · slices_S2x600000_S1x600000_0_0) main_arg1
  let main_v29 : IVec S600000 32 := shapeCast S600000 main_v28 shapeCasts_S1x600000_S600000
  let main_c_9 : IVec S_ 32 := constantI S_ 32 500000#32
  let main_v30 : IVec S600000 32 := broadcastInDim S600000 ![] bcast_S_S600000 main_c_9
  let main_v31 : IVec S600000 1 := cmpi .slt main_v29 main_v30
  let main_v32 : IVec S600000 1 := andi main_v27 main_v31
  let main_c_10 : IVec S_ 1 := constantI S_ 1 1#1
  let main_v33 : IVec S_ 1 := (fun x v => Host.reduce IntOp.andi x v reducesTo_S600000_S_d0 h_S_) main_v32 main_c_10
  let main_v34 : IVec S_ 1 := andi main_v23 main_v33
  main_v34

def fn {F : FTy → Type} [FloatOps F] (main_arg0 : FVec F S500000x128 .f32) (main_arg1 : IVec S2x600000 32) (main_arg2 : FVec F S600000x128 .f32) (main_arg3 : FVec F S1024x128 .f32) (main_arg4 : IVec S500000 32) (main_arg5 : FVec F S128x384 .f32) (main_arg6 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S1024x128 .f32 := Host.absf main_arg3
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S128x384 .f32 := Host.absf main_arg5
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg1 main_arg6 main_v13 main_v16
-- ==== Kernel.lean ====
abbrev S500000x128 : Shape := ⟨2, ![500000, 128]⟩
abbrev S2x600000 : Shape := ⟨2, ![2, 600000]⟩
abbrev S600000x128 : Shape := ⟨2, ![600000, 128]⟩
abbrev S1024x128 : Shape := ⟨2, ![1024, 128]⟩
abbrev S500000 : Shape := ⟨1, ![500000]⟩
abbrev S128x384 : Shape := ⟨2, ![128, 384]⟩
abbrev S128 : Shape := ⟨1, ![128]⟩
abbrev S500000x1 : Shape := ⟨2, ![500000, 1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S2x1024x128 : Shape := ⟨3, ![2, 1024, 128]⟩
abbrev S10000x128 : Shape := ⟨2, ![10000, 128]⟩
abbrev S10000x1 : Shape := ⟨2, ![10000, 1]⟩
abbrev S1x1024x128 : Shape := ⟨3, ![1, 1024, 128]⟩
abbrev S1x1024 : Shape := ⟨2, ![1, 1024]⟩
abbrev S2000x128 : Shape := ⟨2, ![2000, 128]⟩
abbrev S2000x1 : Shape := ⟨2, ![2000, 1]⟩
abbrev S2000x1024 : Shape := ⟨2, ![2000, 1024]⟩
abbrev S128x128 : Shape := ⟨2, ![128, 128]⟩
abbrev S1x128 : Shape := ⟨2, ![1, 128]⟩

abbrev nBuf : Space → Nat
  | .hbm => 40
  | .vmem => 22
  | .smem => 0
  | _ => 0

abbrev bufTy : (tb : Table) → Fin (tcTables nBuf tb) → BufTy
  | .hbm, ⟨0, _⟩ => ⟨S500000x128, .f32⟩
  | .hbm, ⟨1, _⟩ => ⟨S2x600000, .i32⟩
  | .hbm, ⟨2, _⟩ => ⟨S600000x128, .f32⟩
  | .hbm, ⟨3, _⟩ => ⟨S1024x128, .f32⟩
  | .hbm, ⟨4, _⟩ => ⟨S500000, .i32⟩
  | .hbm, ⟨5, _⟩ => ⟨S128x384, .f32⟩
  | .hbm, ⟨6, _⟩ => ⟨S128, .f32⟩
  | .hbm, ⟨7, _⟩ => ⟨S500000x1, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S1, .i32⟩
  | .hbm, ⟨19, _⟩ => ⟨S_, .i32⟩
  | .hbm, ⟨20, _⟩ => ⟨S600000x1, .i32⟩
  | .hbm, ⟨21, _⟩ => ⟨S600000x1, .i1⟩
  | .hbm, ⟨22, _⟩ => ⟨S1x1, .i32⟩
  | .hbm, ⟨23, _⟩ => ⟨S600000x1, .i32⟩
  | .hbm, ⟨24, _⟩ => ⟨S600000x1, .i1⟩
  | .hbm, ⟨25, _⟩ => ⟨S600000x1, .i1⟩
  | .hbm, ⟨26, _⟩ => ⟨S_, .i1⟩
  | .hbm, ⟨27, _⟩ => ⟨S600000, .i1⟩
  | .hbm, ⟨28, _⟩ => ⟨S600000, .i32⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S2x1024x128, .f32⟩
  | .hbm, ⟨34, _⟩ => ⟨S2x1024x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1024x128, .f32⟩
  | .local _ .vmem, ⟨0, _⟩ => ⟨S10000x128, .f32⟩
  | .local _ .vmem, ⟨1, _⟩ => ⟨S10000x128, .f32⟩
  | .local _ .vmem, ⟨2, _⟩ => ⟨S10000x1, .i32⟩
  | .local _ .vmem, ⟨3, _⟩ => ⟨S10000x1, .i32⟩
  | .local _ .vmem, ⟨4, _⟩ => ⟨S1x1024x128, .f32⟩
  | .local _ .vmem, ⟨5, _⟩ => ⟨S1x1024x128, .f32⟩
  | .local _ .vmem, ⟨6, _⟩ => ⟨S1024x128, .f32⟩
  | .local _ .vmem, ⟨7, _⟩ => ⟨S10000x128, .f32⟩
  | .local _ .vmem, ⟨8, _⟩ => ⟨S10000x128, .f32⟩
  | .local _ .vmem, ⟨9, _⟩ => ⟨S10000x1, .i32⟩
  | .local _ .vmem, ⟨10, _⟩ => ⟨S10000x1, .i32⟩
  | .local _ .vmem, ⟨11, _⟩ => ⟨S1x1024x128, .f32⟩
  | .local _ .vmem, ⟨12, _⟩ => ⟨S1x1024x128, .f32⟩
  | .local _ .vmem, ⟨13, _⟩ => ⟨S1024x128, .f32⟩
  | .local _ .vmem, ⟨14, _⟩ => ⟨S2x1024x128, .f32⟩
  | .local _ .vmem, ⟨15, _⟩ => ⟨S2x1024x128, .f32⟩
  | .local _ .vmem, ⟨16, _⟩ => ⟨S1024x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S1024x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_c_4 : Ref sig .tc := ⟨.hbm, 29, rfl⟩
abbrev main_call0_v14 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19

abbrev nD : Nat := 1
abbrev τ : Topo := Topo.v7x

variable {F : FTy → Type} [FloatOps F]

abbrev grid0 : Pipeline.Grid := ⟨2, ![2, 25], ![false, false]⟩

@[reducible] def k0_t1_loop : Scf.Loop 32 :=
  let c0_i32_1 : BitVec 32 := 0#32
  let c5_i32 : BitVec 32 := 5#32
  let v4 : BitVec 32 := Scalar.addi c0_i32_1 c5_i32
  let c1_i32 : BitVec 32 := 1#32
  ⟨c0_i32_1, v4, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v8 : BitVec 32 := Scalar.muli arg6 c1_i32_4
  let v9 : BitVec 32 := Scalar.addi c0_i32_5 v8
  let c2000_i32 : BitVec 32 := 2000#32
  let v10 : BitVec 32 := Scalar.muli v9 c2000_i32
  v10
def k0_off1 (k0_t1 : Fin k0_t1_loop.trips) : Fin 2 → Nat :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v8 : BitVec 32 := Scalar.muli arg6 c1_i32_4
  let v9 : BitVec 32 := Scalar.addi c0_i32_5 v8
  let c2000_i32 : BitVec 32 := 2000#32
  let v10 : BitVec 32 := Scalar.muli v9 c2000_i32
  let v11 : BitVec 32 := v10
  let v12 : Index := Scalar.indexCast v11
  let c0 : Index := 0#32
  ![v12.toNat, 0]
def k0_off2 (k0_t1 : Fin k0_t1_loop.trips) : Fin 2 → Nat :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v8 : BitVec 32 := Scalar.muli arg6 c1_i32_4
  let v9 : BitVec 32 := Scalar.addi c0_i32_5 v8
  let c2000_i32 : BitVec 32 := 2000#32
  let v10 : BitVec 32 := Scalar.muli v9 c2000_i32
  let v11 : BitVec 32 := v10
  let v15 : Index := Scalar.indexCast v11
  let c0_6 : Index := 0#32
  ![v15.toNat, 0]
def k0_cond2 (i : grid0.Coords) : BitVec 1 :=
  let arg1 : BitVec 32 := BitVec.ofNat 32 (i 1).val
  let c24_i32 : BitVec 32 := 24#32
  let v5 : BitVec 1 := Scalar.cmpi .eq arg1 c24_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 30], ![false, false]⟩

@[reducible] def k1_t1_loop : Scf.Loop 32 :=
  let c0_i32_1 : BitVec 32 := 0#32
  let c5_i32 : BitVec 32 := 5#32
  let v4 : BitVec 32 := Scalar.addi c0_i32_1 c5_i32
  let c1_i32 : BitVec 32 := 1#32
  ⟨c0_i32_1, v4, c1_i32⟩
def k1_mult1 (k1_t1 : Fin k1_t1_loop.trips) : BitVec 32 :=
  let c0_i32_5 : BitVec 32 := 0#32
  let c0_i32_1 : BitVec 32 := 0#32
  let c1_i32 : BitVec 32 := 1#32
  let arg6 : BitVec 32 := Scf.iv c0_i32_1 c1_i32 k1_t1
  let c1_i32_4 : BitVec 32 := 1#32
  let v8 : BitVec 32 := Scalar.muli arg6 c1_i32_4
  let v9 : BitVec 32 := Scalar.addi c0_i32_5 v8
  let c2000_i32 : BitVec 32 := 2000#32
  let v10 : BitVec 32 := Scalar.muli v9 c2000_i32
  v10
def k1_off1 (k1_t1 : Fin k1_t1_loop.trips) : Fin 2 → Nat :=
  let c0_i32_5 : BitVec 32 := 0#32
  let c0_i32_1 : BitVec 32 := 0#32
  let c1_i32 : BitVec 32 := 1#32
  let arg6 : BitVec 32 := Scf.iv c0_i32_1 c1_i32 k1_t1
  let c1_i32_4 : BitVec 32 := 1#32
  let v8 : BitVec 32 := Scalar.muli arg6 c1_i32_4
  let v9 : BitVec 32 := Scalar.addi c0_i32_5 v8
  let c2000_i32 : BitVec 32 := 2000#32
  let v10 : BitVec 32 := Scalar.muli v9 c2000_i32
  let v11 : BitVec 32 := v10
  let v12 : Index := Scalar.indexCast v11
  let c0 : Index := 0#32
  ![v12.toNat, 0]
def k1_off2 (k1_t1 : Fin k1_t1_loop.trips) : Fin 2 → Nat :=
  let c0_i32_5 : BitVec 32 := 0#32
  let c0_i32_1 : BitVec 32 := 0#32
  let c1_i32 : BitVec 32 := 1#32
  let arg6 : BitVec 32 := Scf.iv c0_i32_1 c1_i32 k1_t1
  let c1_i32_4 : BitVec 32 := 1#32
  let v8 : BitVec 32 := Scalar.muli arg6 c1_i32_4
  let v9 : BitVec 32 := Scalar.addi c0_i32_5 v8
  let c2000_i32 : BitVec 32 := 2000#32
  let v10 : BitVec 32 := Scalar.muli v9 c2000_i32
  let v11 : BitVec 32 := v10
  let v15 : Index := Scalar.indexCast v11
  let c0_6 : Index := 0#32
  ![v15.toNat, 0]
def k1_cond2 (i : grid1.Coords) : BitVec 1 :=
  let arg1 : BitVec 32 := BitVec.ofNat 32 (i 1).val
  let c29_i32 : BitVec 32 := 29#32
  let v5 : BitVec 1 := Scalar.cmpi .eq arg1 c29_i32
  let v6 : BitVec 32 := Scalar.extui v5
  let c0_i32_3 : BitVec 32 := 0#32
  let v7 : BitVec 1 := Scalar.cmpi .ne v6 c0_i32_3
  v7

def cc1_transform_0 (i : grid1.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S10000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2x1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2x1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  shapeCasts_S500000_S500000x1 : S500000.ShapeCasts S500000x1
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  shapeCasts_S600000_S600000x1 : S600000.ShapeCasts S600000x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1x1024_d1_w32 : S1x1024.Iotas .tc 32 [1]
  h_S2000x128 : 0 < S2000x128.numel
  bitsLt_bf16_f32 : FTy.bits .bf16 < FTy.bits .f32
  h_S2000x1 : 0 < S2000x1.numel
  shapeCasts_S2000x1_S2000x1 : S2000x1.ShapeCasts S2000x1
  broadcasts_S2000x1_S2000x1024 : S2000x1.Broadcasts S2000x1024
  broadcasts_S1x1024_S2000x1024 : S1x1024.Broadcasts S2000x1024
  natLt_1_32 : 1 < 32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S128x384_S128x128_0_0 : S128x384.Slices ![0, 0] S128x128
  slices_S128x384_S128x128_0_128 : S128x384.Slices ![0, 128] S128x128
  slices_S128x384_S128x128_0_256 : S128x384.Slices ![0, 256] S128x128
  shapeCasts_S128_S1x128 : S128.ShapeCasts S1x128
  inb_S2x1024x128_S1x1024x128_0_0_0 : ∀ a, (![0, 0, 0] : Fin 3 → Nat) a + S1x1024x128.size a ≤ S2x1024x128.size a
  inb_S2x1024x128_S1x1024x128_1_0_0 : ∀ a, (![1, 0, 0] : Fin 3 → Nat) a + S1x1024x128.size a ≤ S2x1024x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  gather_S500000_S600000x1_S600000_n_0_n_n_0_1_1_wf : GatherDims.WF S500000 S600000x1 S600000 [] [0] [] [0] [] 1 ![1]
  dot_S2000x1024_S2000x128_S1024x128_0_0_1_1_n_n_wf : DotDims.WF S2000x1024 S2000x128 S1024x128 [0] [0] [1] [1] [] []
  dot_S1024x128_S128x128_S1024x128_1_1_0_0_n_n_wf : DotDims.WF S1024x128 S128x128 S1024x128 [1] [1] [0] [0] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S2000x128.size a ≤ S10000x128.size a
  k0_off2_inb : ∀ k0_t1 : Fin k0_t1_loop.trips, ∀ a, (k0_off2 k0_t1) a + S2000x1.size a ≤ S10000x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .i32 = 32 ∨ (Rect.block (s := S500000x1) S10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x1024x128.size a
  hwx0_2 : ∀ i : grid0.Coords, EltTy.bits .f32 = 32 ∨ (Rect.block (s := S2x1024x128) S1x1024x128.size (cc0_transform_2 i) (hinb0_2 i)).WholeWords (EltTy.packing .f32)
  hrank1 : 0 < grid1.rank
  k1_t1_ok : k1_t1_loop.OK
  k1_mult1_dvd : ∀ k1_t1 : Fin k1_t1_loop.trips, 2000 ∣ (k1_mult1 k1_t1).toNat
  k1_off1_inb : ∀ k1_t1 : Fin k1_t1_loop.trips, ∀ a, (k1_off1 k1_t1) a + S2000x128.size a ≤ S10000x128.size a
  k1_off2_inb : ∀ k1_t1 : Fin k1_t1_loop.trips, ∀ a, (k1_off2 k1_t1) a + S2000x1.size a ≤ S10000x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S600000x128.size a
  hwx1_0 : ∀ i : grid1.Coords, EltTy.bits .f32 = 32 ∨ (Rect.block (s := S600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S600000x1.size a
  hwx1_1 : ∀ i : grid1.Coords, EltTy.bits .i32 = 32 ∨ (Rect.block (s := S600000x1) S10000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S2x1024x128.size a
  hwx1_2 : ∀ i : grid1.Coords, EltTy.bits .f32 = 32 ∨ (Rect.block (s := S2x1024x128) S1x1024x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2x1024x128.size a ≤ S2x1024x128.size a
  hwx2_0 : ∀ i : grid2.Coords, EltTy.bits .f32 = 32 ∨ (Rect.block (s := S2x1024x128) S2x1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x1024x128.size a ≤ S2x1024x128.size a
  hwx2_1 : ∀ i : grid2.Coords, EltTy.bits .f32 = 32 ∨ (Rect.block (s := S2x1024x128) S2x1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S1024x128.size a
  hwx2_2 : ∀ i : grid2.Coords, EltTy.bits .f32 = 32 ∨ (Rect.block (s := S1024x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S1024x128.size a
  hwx2_7 : ∀ i : grid2.Coords, EltTy.bits .f32 = 32 ∨ (Rect.block (s := S1024x128) S1024x128.size (cc2_transform_7 i) (hinb2_7 i)).WholeWords (EltTy.packing .f32)

variable [Facts₀]

def gather_S500000_S600000x1_S600000_n_0_n_n_0_1_1 : GatherDims S500000 S600000x1 S600000 where
  offsetDims := []
  collapsedSliceDims := [0]
  operandBatchingDims := []
  startIndicesBatchingDims := []
  startIndexMap := [0]
  indexVectorDim := 1
  sliceSizes := ![1]
  wf := gather_S500000_S600000x1_S600000_n_0_n_n_0_1_1_wf
def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v5) S2x1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v6) S2x1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S1024x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S1024x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S500000x128 : Shape := ⟨2, ![500000, 128]⟩
abbrev S2x600000 : Shape := ⟨2, ![2, 600000]⟩
abbrev S600000x128 : Shape := ⟨2, ![600000, 128]⟩
abbrev S1024x128 : Shape := ⟨2, ![1024, 128]⟩
abbrev S500000 : Shape := ⟨1, ![500000]⟩
abbrev S128x384 : Shape := ⟨2, ![128, 384]⟩
abbrev S128 : Shape := ⟨1, ![128]⟩
abbrev S_ : Shape := ⟨0, ![]⟩
abbrev S500000x1 : Shape := ⟨2, ![500000, 1]⟩
abbrev S1x600000 : Shape := ⟨2, ![1, 600000]⟩
abbrev S600000 : Shape := ⟨1, ![600000]⟩
abbrev S600000x1 : Shape := ⟨2, ![600000, 1]⟩
abbrev S1024x384 : Shape := ⟨2, ![1024, 384]⟩
abbrev S384x128 : Shape := ⟨2, ![384, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x600000, .i32⟩
  | .hbm, ⟨2, _⟩ => ⟨S600000x128, .f32⟩
  | .hbm, ⟨3, _⟩ => ⟨S1024x128, .f32⟩
  | .hbm, ⟨4, _⟩ => ⟨S500000, .i32⟩
  | .hbm, ⟨5, _⟩ => ⟨S128x384, .f32⟩
  | .hbm, ⟨6, _⟩ => ⟨S128, .f32⟩
  | .hbm, ⟨7, _⟩ => ⟨S_, .f32⟩
  | .hbm, ⟨8, _⟩ => ⟨S1024x128, .f32⟩
  | .hbm, ⟨9, _⟩ => ⟨S500000x1, .i32⟩
  | .hbm, ⟨10, _⟩ => ⟨S1024x128, .f32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000, .i32⟩
  | .hbm, ⟨22, _⟩ => ⟨S_, .f32⟩
  | .hbm, ⟨23, _⟩ => ⟨S1024x128, .f32⟩
  | .hbm, ⟨24, _⟩ => ⟨S600000x1, .i32⟩
  | .hbm, ⟨25, _⟩ => ⟨S1024x128, .f32⟩
  | .hbm, ⟨26, _⟩ => ⟨S1024x384, .f32⟩
  | .hbm, ⟨27, _⟩ => ⟨S384x128, .f32⟩
  | .hbm, ⟨28, _⟩ => ⟨S1024x128, .f32⟩
  | .hbm, ⟨29, _⟩ => ⟨S1x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S500000_S500000x1_0 : S500000.BroadcastsInDim S500000x1 (![0] : Fin 1 → Fin S500000x1.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  concatenates_S1024x128_S1024x128_S1024x128_S1024x384_d1 : Shape.Concatenates [S1024x128, S1024x128, S1024x128] S1024x384 1
  transposes_S128x384_S384x128_1_0 : S128x384.Transposes [1, 0] S384x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1024x128_S500000x1_S500000x128_1_0_0_1_wf : ScatterDims.WF S1024x128 S500000x1 S500000x128 [1] [0] [0] 1
  gather_S500000_S600000x1_S600000_n_0_n_n_0_1_1_wf : GatherDims.WF S500000 S600000x1 S600000 [] [0] [] [0] [] 1 ![1]
  scatter_S1024x128_S600000x1_S600000x128_1_0_0_1_wf : ScatterDims.WF S1024x128 S600000x1 S600000x128 [1] [0] [0] 1
  dot_S1024x384_S384x128_S1024x128_1_0_0_1_n_n_wf : DotDims.WF S1024x384 S384x128 S1024x128 [1] [0] [0] [1] [] []

variable [Facts₀]

def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def gather_S500000_S600000x1_S600000_n_0_n_n_0_1_1 : GatherDims S500000 S600000x1 S600000 where
  offsetDims := []
  collapsedSliceDims := [0]
  operandBatchingDims := []
  startIndicesBatchingDims := []
  startIndexMap := [0]
  indexVectorDim := 1
  sliceSizes := ![1]
  wf := gather_S500000_S600000x1_S600000_n_0_n_n_0_1_1_wf
def scatter_S1024x128_S600000x1_S600000x128_1_0_0_1 : ScatterDims S1024x128 S600000x1 S600000x128 where
  updateWindowDims := [1]
  insertedWindowDims := [0]
  scatterDimsToOperandDims := [0]
  indexVectorDim := 1
  wf := scatter_S1024x128_S600000x1_S600000x128_1_0_0_1_wf
def dot_S1024x384_S384x128_S1024x128_1_0_0_1_n_n : DotDims S1024x384 S384x128 S1024x128 where
  lhsContracting := [1]
  rhsContracting := [0]
  lhsNonContracting := [0]
  rhsNonContracting := [1]
  lhsBatch := []
  rhsBatch := []
  wf := dot_S1024x384_S384x128_S1024x128_1_0_0_1_n_n_wf

class Facts : Prop extends Facts₀ where

variable [Facts]
-- ==== Proof.K.Seg0Runs.lean ====
/- Region 0 (the node segment sum): the kernel body run once per control case.  A grid point is a pair
   (core, step) with 25 steps per core.  At step 0 the body zeroes the accumulator scratch, at every step it adds, five
   chunks of 2000 rows at a time, the one-hot-matrix product of the chunk's segment ids with the chunk's rows, and at
   step 24 it copies the accumulator into the output block.  Three cases are met: step 0 (reset, no copy), steps 1 to 23
   (neither), step 24 (copy, no reset).  Each run states what the four memrefs hold before and after as lists of stored
   pieces; the loop is crossed by its invariant. -/
import proofs.«428993_j12077448036507_2_alg».proof.Proof.Gen.Kernel.Launch
import proofs.«428993_j12077448036507_2_alg».proof.Proof.Gen.Kernel.Skeleton
import proofs.«428993_j12077448036507_2_alg».proof.Proof.Gen.Kernel.Points
import proofs.«428993_j12077448036507_2_alg».proof.Proof.Gen.Kernel.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset condition: the step coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- The copy-out condition: the step coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the pipeline calls the body with -/

abbrev VO0_2 : View sig .tc .vmem S1x1024x128 .f32 := (Memref.whole cc0_stg2_0 : Memref sig .tc .vmem S1x1024x128 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
/-- The accumulator scratch. -/
abbrev scM0_0 : Memref sig .tc .vmem S1024x128 .f32 := Memref.whole cc0_scratch0
abbrev VS0_0 : View sig .tc .vmem S1024x128 .f32 := scM0_0.view

/-- The other scoped buffers of the core (the other two regions' staging buffers and scratch), each whole at some contents:
    they ride through this region untouched. -/
abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f))

/-- The class invariant with the accumulator scratch named. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA; rw [scopedRest0_eq]; simp only [scM0_0, owns_whole]; try rfl

/-! ## The body's run, case by case -/

set_option maxHeartbeats 4000000 in
/-- Step 0: the accumulator, whatever it held, is zeroed and then takes the five chunk products; the output block is
    handed back untouched. -/
noncomputable def kernelRun0_A (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S10000x128 .f32) (x1 : Vec F S10000x1 .i32) :
    { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Steps 1 to 23: the accumulator takes the five chunk products over what the step before left; the output block is
    handed back untouched. -/
noncomputable def kernelRun0_B (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S10000x128 .f32) (x1 : Vec F S10000x1 .i32) (xs0 : Vec F S1024x128 .f32) :
    { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 24: the accumulator takes the five chunk products over what the step before left and is then copied into the
    output block, whatever that held. -/
noncomputable def kernelRun0_C (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.K.Seg0Dat.lean ====
/- Region 0 (the node segment sum): what the accumulator scratch and the output block hold after every grid point, by
   recursion on the point; the pipeline's proof data over it; and the body obligation.  A core's 25 steps form one chain:
   step 0 starts the accumulator from zero, each later step continues from what the step before left, step 24 copies the
   accumulator into the output block, which is written back to the core's slab of the result only there.  Everything is
   stated at a parameter `V`, the buffer contents when the region is entered. -/
import proofs.«428993_j12077448036507_2_alg».proof.Proof.K.Seg0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves -/

/-- At a point that does not copy out, the output block's buffer is not consulted: a placeholder. -/
def out0_idle : Vec F S1x1024x128 .f32 := VO0_2.read (Elt F) (VO0_2.writes (Elt F) VO0_2.junk [])

theorem scover0_A_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S10000x128 .f32) (x1 : Vec F S10000x1 .i32) (y : S1024x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024x128.size (by sl_kernel_rfl) y
/-- What step 0 leaves in the accumulator. -/
def sout0_A_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S10000x128 .f32) (x1 : Vec F S10000x1 .i32) : Vec F S1024x128 .f32 :=
  VS0_0.read (Elt F) (VS0_0.writes (Elt F) VS0_0.junk (kernelRun0_A c i arg2 harg2 arg3 harg3 arg4 harg4 arg5 harg5 hc0 hc1 x0 x1).1)

theorem scover0_B_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S10000x128 .f32) (x1 : Vec F S10000x1 .i32) (xs0 : Vec F S1024x128 .f32) (y : S1024x128.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x128.size (by sl_kernel_rfl) y
/-- What a middle step leaves in the accumulator, over what it found there. -/
def sout0_B_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S10000x128 .f32) (x1 : Vec F S10000x1 .i32) (xs0 : Vec F S1024x128 .f32) : Vec F S1024x128 .f32 :=
  VS0_0.read (Elt F) (VS0_0.writes (Elt F) VS0_0.junk (kernelRun0_B c i arg2 harg2 arg3 harg3 arg4 harg4 arg5 harg5 hc0 hc1 x0 x1 xs0).1)

theorem cover0_C_2 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) (y : S1x1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024x128.size (by sl_kernel_rfl) y
/-- What step 24 leaves in the output block. -/
def out0_C_2 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) : Vec F S1x1024x128 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y
/-- What step 24 leaves in the accumulator. -/
def sout0_C_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) : Vec F S1024x128 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-! ## Point by point -/

/-- What the output block's buffer and the accumulator hold after the body at position `n`: the case the step
    coordinate selects, a non-resetting step run over what position `n - 1` left in the accumulator. -/
def outsAt0 (c : Dev nD) : (n : ℕ) → n < cfg0.N → Vec F S1x1024x128 .f32 × Vec F S1024x128 .f32
  | 0, hn => (out0_idle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 25 = 0 then
      if h1 : (n + 1) % 25 = 24 then
        False.elim (by omega)
      else
        (out0_idle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 25 = 24 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_idle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 25 = 0) (h1 : ¬t.val % 25 = 24) :
    outsAt0 V c t.val t.isLt = (out0_idle, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_idle, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 25 = 0
  · have h1 : ¬t.val % 25 = 24 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro hz; apply h0; rw [hz]
    by_cases h1 : t.val % 25 = 24
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- After the last point the invariant gives the class's back: the accumulator's contents are forgotten. -/
theorem hout0 (c : Dev nD) : (dat0 V c).Φ (Fin.last cfg0.N) ⊢ Pipeline.ΦA spec0 c :=
  Phi_out0 V c _ (by rw [Fin.val_last]; have : cfg0.N = 50 := N_0; omega)

end

end Cert.Kernel.Gen

end
-- ==== Proof.K.Seg1Runs.lean ====
/- Region 1 (the edge segment sum): the kernel body run once per control case.  A grid point is a pair
   (core, step) with 30 steps per core.  At step 0 the body zeroes the accumulator scratch, at every step it adds, five
   chunks of 2000 rows at a time, the one-hot-matrix product of the chunk's segment ids with the chunk's rows, and at
   step 29 it copies the accumulator into the output block.  Three cases are met: step 0 (reset, no copy), steps 1 to 28
   (neither), step 29 (copy, no reset).  Each run states what the four memrefs hold before and after as lists of stored
   pieces; the loop is crossed by its invariant. -/
import proofs.«428993_j12077448036507_2_alg».proof.Proof.Gen.Kernel.Launch
import proofs.«428993_j12077448036507_2_alg».proof.Proof.Gen.Kernel.Skeleton
import proofs.«428993_j12077448036507_2_alg».proof.Proof.Gen.Kernel.Points
import proofs.«428993_j12077448036507_2_alg».proof.Proof.Gen.Kernel.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset condition: the step coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 30 = 0 :=
  (by decide +kernel : ∀ t : Fin grid1.N, cond1_0 (grid1.coords t) ↔ t.val % 30 = 0)

/-- The copy-out condition: the step coordinate is 29. -/
abbrev cond1_1 (i : grid1.Coords) : Prop := k1_cond2 i = 1#1
theorem hcond1_1 : ∀ t : Fin cfg1.N, cond1_1 (grid1.coords t) ↔ t.val % 30 = 29 :=
  (by decide +kernel : ∀ t : Fin grid1.N, cond1_1 (grid1.coords t) ↔ t.val % 30 = 29)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the pipeline calls the body with -/

abbrev VO1_2 : View sig .tc .vmem S1x1024x128 .f32 := (Memref.whole cc1_stg2_0 : Memref sig .tc .vmem S1x1024x128 .f32).view
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .f32 := win1_2.stage (cfg1.slots t 2)
abbrev hs1_2 (t : Fin cfg1.N) : (ms1_2 t).IsWhole := hstage1_2 ((cfg1.slots t 2).cast nbuf1_2)
/-- The accumulator scratch. -/
abbrev scM1_0 : Memref sig .tc .vmem S1024x128 .f32 := Memref.whole cc1_scratch0
abbrev VS1_0 : View sig .tc .vmem S1024x128 .f32 := scM1_0.view

/-- The other scoped buffers of the core (the other two regions' staging buffers and scratch), each whole at some contents:
    they ride through this region untouched. -/
abbrev restS1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f))

/-- The class invariant with the accumulator scratch named. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ restS1 c) ∗ (∃ r, prngReg c r)) := by
  unfold Pipeline.ΦA; rw [scopedRest1_eq]; simp only [scM1_0, owns_whole]; try rfl

/-! ## The body's run, case by case -/

set_option maxHeartbeats 4000000 in
/-- Step 0: the accumulator, whatever it held, is zeroed and then takes the five chunk products; the output block is
    handed back untouched. -/
noncomputable def kernelRun1_A (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond1_0 i) (hc1 : ¬cond1_1 i)
    (x0 : Vec F S10000x128 .f32) (x1 : Vec F S10000x1 .i32) :
    { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__segsum_kernel i arg2 harg2 arg3 harg3 arg4 harg4 arg5 harg5) K } := by
  refine ⟨?_, fun xi2 E K => ?run⟩
  case run =>
    simp only [cc1__segsum_kernel_eq_skeleton]; unfold cc1__segsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Steps 1 to 28: the accumulator takes the five chunk products over what the step before left; the output block is
    handed back untouched. -/
noncomputable def kernelRun1_B (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : ¬cond1_1 i)
    (x0 : Vec F S10000x128 .f32) (x1 : Vec F S10000x1 .i32) (xs0 : Vec F S1024x128 .f32) :
    { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__segsum_kernel i arg2 harg2 arg3 harg3 arg4 harg4 arg5 harg5) K } := by
  refine ⟨?_, fun xi2 E K => ?run⟩
  case run =>
    simp only [cc1__segsum_kernel_eq_skeleton]; unfold cc1__segsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 29: the accumulator takes the five chunk products over what the step before left and is then copied into the
    output block, whatever that held. -/
noncomputable def kernelRun1_C (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__segsum_kernel i arg2 harg2 arg3 harg3 arg4 harg4 arg5 harg5) K } := by
  refine ⟨?_, ?_, fun E K => ?run⟩
  case run =>
    simp only [cc1__segsum_kernel_eq_skeleton]; unfold cc1__segsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.K.Seg1Dat.lean ====
/- Region 1 (the edge segment sum): what the accumulator scratch and the output block hold after every grid point, by
   recursion on the point; the pipeline's proof data over it; and the body obligation.  A core's 30 steps form one chain:
   step 0 starts the accumulator from zero, each later step continues from what the step before left, step 29 copies the
   accumulator into the output block, which is written back to the core's slab of the result only there.  Everything is
   stated at a parameter `V`, the buffer contents when the region is entered. -/
import proofs.«428993_j12077448036507_2_alg».proof.Proof.K.Seg1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves -/

/-- At a point that does not copy out, the output block's buffer is not consulted: a placeholder. -/
def out1_idle : Vec F S1x1024x128 .f32 := VO1_2.read (Elt F) (VO1_2.writes (Elt F) VO1_2.junk [])

theorem scover1_A_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond1_0 i) (hc1 : ¬cond1_1 i)
    (x0 : Vec F S10000x128 .f32) (x1 : Vec F S10000x1 .i32) (y : S1024x128.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x128.size (by sl_kernel_rfl) y
/-- What step 0 leaves in the accumulator. -/
def sout1_A_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond1_0 i) (hc1 : ¬cond1_1 i)
    (x0 : Vec F S10000x128 .f32) (x1 : Vec F S10000x1 .i32) : Vec F S1024x128 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : ¬cond1_1 i)
    (x0 : Vec F S10000x128 .f32) (x1 : Vec F S10000x1 .i32) (xs0 : Vec F S1024x128 .f32) (y : S1024x128.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x128.size (by sl_kernel_rfl) y
/-- What a middle step leaves in the accumulator, over what it found there. -/
def sout1_B_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : ¬cond1_1 i)
    (x0 : Vec F S10000x128 .f32) (x1 : Vec F S10000x1 .i32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).1)

theorem cover1_C_2 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) (y : S1x1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1024x128.size (by sl_kernel_rfl) y
/-- What step 29 leaves in the output block. -/
def out1_C_2 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) : Vec F S1x1024x128 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y
/-- What step 29 leaves in the accumulator. -/
def sout1_C_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

section
variable (V : (c : Dev nD) → (b : Ref sig .tc) → Buf (Elt F) ((c : Thread nD τ).loc b))

/-! ## Point by point -/

/-- What the output block's buffer and the accumulator hold after the body at position `n`: the case the step
    coordinate selects, a non-resetting step run over what position `n - 1` left in the accumulator. -/
def outsAt1 (c : Dev nD) : (n : ℕ) → n < cfg1.N → Vec F S1x1024x128 .f32 × Vec F S1024x128 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 30 = 0 then
      if h1 : (n + 1) % 30 = 29 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 30 = 29 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 30 = 0) (h1 : ¬t.val % 30 = 29) :
    outsAt1 V c t.val t.isLt = (out1_idle, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 30 = 0) (h1 : ¬t.val % 30 = 29) :
    outsAt1 V c t.val t.isLt = (out1_idle, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 30 = 0) (h1 : t.val % 30 = 29) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2) ∗ restS1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 60 := lt_of_lt_of_eq t.isLt (show cfg1.N = 60 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 30 = 0
  · have h1 : ¬t.val % 30 = 29 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨A1, A2, A3, A4, A5, A6, A7, HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [A1 A2 A3 A4 A5 A6 A7 HS0 Hg Hrest]
      · isplitl [A1 A2 A3 A4 A5 A6 A7 HS0 Hrest]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨A1, A2, A3, A4, A5, A6, A7, HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [A1 A2 A3 A4 A5 A6 A7 HS0 Hg Hrest]
      · isplitl [A1 A2 A3 A4 A5 A6 A7 HS0 Hrest]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro hz; apply h0; rw [hz]
    by_cases h1 : t.val % 30 = 29
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨A1, A2, A3, A4, A5, A6, A7, HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [A1 A2 A3 A4 A5 A6 A7 HS0 Hg Hrest]
      · isplitl [A1 A2 A3 A4 A5 A6 A7 HS0 Hrest]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]
          · unfold owns; iexists _; isplitr
            swap; · iexact HS0
            ipureintro; exact View.read_writes_of_cover _ _ _ _ _ (scover1_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨A1, A2, A3, A4, A5, A6, A7, HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [A1 A2 A3 A4 A5 A6 A7 HS0 Hg Hrest]
      · isplitl [A1 A2 A3 A4 A5 A6 A7 HS0 Hrest]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨A1, A2, A3, A4, A5, A6, A7, HS0, Hrest⟩, Hg⟩
  isplitl [A1 A2 A3 A4 A5 A6 A7 HS0 Hrest]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [HS0]
    · iexists _; iexact HS0
    iexact Hrest
  iexact Hg

/-- After the last point the invariant gives the class's back: the accumulator's contents are forgotten. -/
theorem hout1 (c : Dev nD) : (dat1 V c).Φ (Fin.last cfg1.N) ⊢ Pipeline.ΦA spec1 c :=
  Phi_out1 V c _ (by rw [Fin.val_last]; have : cfg1.N = 60 := N_1; omega)

end

end Cert.Kernel.Gen

end
-- ==== Proof.K.Fin2.lean ====
/- Region 2 (the final kernel), the frame half.  The region has one grid point and eight windows: the two per-core
   partial node sums and the two per-core partial edge sums (each a [2,1024,128] array fetched whole), the global
   features [1024,128], the three [128,128] column blocks of the weight matrix, the bias row [1,128], and the output
   [1024,128].  The body reads every input block once, through whole-block rectangles and, for the partial sums,
   through the two unit-thick slabs along the leading axis, and makes one store that fills the whole output block
   with the maximum of zero and the sum of the three products and the bias.  Everything is stated at an arbitrary
   contents V of the core's buffers at the moment the region is entered and is generic in the float family: the
   blocks the windows hold, the contents the body leaves in the output block as the canonical contents of its one
   store, the proof data of the pipeline, and the body obligation at every point. -/
import proofs.«428993_j12077448036507_2_alg».proof.Proof.Gen.Kernel.Launch
import proofs.«428993_j12077448036507_2_alg».proof.Proof.Gen.Kernel.Skeleton
import proofs.«428993_j12077448036507_2_alg».proof.Proof.Gen.Kernel.Points
import proofs.«428993_j12077448036507_2_alg».proof.Proof.Gen.Kernel.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not, for any proof data whose
    array is the entry contents and whose body leaves the block in place: the window is an input, never idle and
    uncut, so an unfetched point has the block index of the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not, for any proof data whose
    array is the entry contents and whose body leaves the block in place: the window is an input, never idle and
    uncut, so an unfetched point has the block index of the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not, for any proof data whose
    array is the entry contents and whose body leaves the block in place: the window is an input, never idle and
    uncut, so an unfetched point has the block index of the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not, for any proof data whose
    array is the entry contents and whose body leaves the block in place: the window is an input, never idle and
    uncut, so an unfetched point has the block index of the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not, for any proof data whose
    array is the entry contents and whose body leaves the block in place: the window is an input, never idle and
    uncut, so an unfetched point has the block index of the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not, for any proof data whose
    array is the entry contents and whose body leaves the block in place: the window is an input, never idle and
    uncut, so an unfetched point has the block index of the point before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, fetched there or not, for any proof data whose
    array is the entry contents and whose body leaves the block in place: the window is an input, never idle and
    uncut, so an unfetched point has the block index of the point before. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The two unit-thick slabs of a [2,1024,128] block along its leading axis, -/
abbrev r2_0 : Rect S2x1024x128 := Rect.unit (s := S2x1024x128) ![0, 0, 0] S1x1024x128.size inb_S2x1024x128_S1x1024x128_0_0_0
abbrev r2_1 : Rect S2x1024x128 := Rect.unit (s := S2x1024x128) ![1, 0, 0] S1x1024x128.size inb_S2x1024x128_S1x1024x128_1_0_0
/-- and the whole of a [1024,128], a [128,128] and a [1,128] block. -/
abbrev r2_2 : Rect S1024x128 := Rect.unit (s := S1024x128) ![0, 0] S1024x128.size inb_S1024x128_S1024x128_0_0
abbrev r2_3 : Rect S128x128 := Rect.unit (s := S128x128) ![0, 0] S128x128.size inb_S128x128_S128x128_0_0
abbrev r2_4 : Rect S1x128 := Rect.unit (s := S1x128) ![0, 0] S1x128.size inb_S1x128_S1x128_0_0

/-! ## What the body leaves in the output window's buffer -/

/-- The output block after the body, from the input windows' blocks: its one store, over the whole block, of the
    maximum of zero and the value computed from the two slabs of each partial-sum block, the global features, the three
    weight blocks and the bias row. -/
def out2_7 (x0 x1 : Vec F S2x1024x128 .f32) (x2 : Vec F S1024x128 .f32) (x3 x4 x5 : Vec F S128x128 .f32) (x6 : Vec F S1x128 .f32) : Vec F S1024x128 .f32 :=
  View.canon [⟨r2_2, k2_pay1 (k2_pay2 (View.ld x0 r2_0) (View.ld x0 r2_1) (View.ld x1 r2_0) (View.ld x1 r2_1) (View.ld x2 r2_2) (View.ld x3 r2_3) (View.ld x4 r2_3) (View.ld x5 r2_3) (View.ld x6 r2_4)) (k2_pay3 (F := F))⟩]

/-- The one store is over the whole block, so it covers it. -/
theorem cover2_7 (p0 : Vec F S1024x128 .f32) (y : S1024x128.Idx) :
    ∃ pc ∈ ([⟨r2_2, p0⟩] : List (View.Piece (Elt F) S1024x128 .f32)), y ∈ pc.1.set :=
  View.cover_of_tiled [⟨r2_2, p0⟩] S1024x128.size (by rfl) y

/-! ## The body's triple -/

set_option maxHeartbeats 1000000 in
/-- The body on whole staging memrefs, the inputs' at read contents `xW` and the output's at anything, runs to the
    continuation holding the inputs' as they were and the output's at `out2_7` of the inputs': the printed function and
    its part are their skeletons of memory operations over payloads, which are run one operation at a time. -/
theorem sound_kernel2 (c : Dev nD) (E : Set ℕ) (i : grid2.Coords) (arg1 : Memref sig .tc .vmem S2x1024x128 .f32) (harg1 : arg1.IsWhole) (arg2 : Memref sig .tc .vmem S2x1024x128 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole)
    (x0 x1 : Vec F S2x1024x128 .f32) (x2 : Vec F S1024x128 .f32) (x3 x4 x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__final_kernel i arg1 harg1 arg2 harg2 arg3 harg3 arg4 harg4 arg5 harg5 arg6 harg6 arg7 harg7 arg8 harg8) K := by
  simp only [cc2__final_kernel_eq_skeleton]; unfold cc2__final_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of the pipeline on core `c`: the arrays as the region finds them; after the body at point `t` each
    input's buffer at its block and the output's at `out2_7` of the input blocks; the invariant keeps the scoped rest
    and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Gen

end
-- ==== Proof.K.Run.lean ====
/- The run of the whole program.  @main is seven segments in order: three stretches of host operations (the
   reshape of the segment ids and the slice of the first row of the edge index; the lookup of each edge's segment id
   through its source node, with its wrap of negative indices, its range mask and its fill value; a reshape), the
   node segment sum, the edge segment sum, a stretch of host operations (the three column blocks of the weight
   matrix and the bias row) and the final kernel.  The contents of a core's buffers at every boundary between two
   segments are a fold from the launch memory: a stretch rewrites the buffers its operations write, a kernel region
   leaves its windows' arrays at what its write-backs make of them and every other buffer alone.  Over that fold each
   stretch and each region is a segment with the thread state "every unscoped buffer at the boundary's contents,
   the generator register at some state, nothing owed"; the segments chain, the launch runs them, and every final
   memory holds every unscoped buffer at the last boundary's contents.  Each argument array, read back through the
   fold, holds its launch contents; the result array holds what the final kernel's write-back leaves.  Generic in
   the float family. -/
import proofs.«428993_j12077448036507_2_alg».proof.Proof.K.Seg0Dat
import proofs.«428993_j12077448036507_2_alg».proof.Proof.K.Seg1Dat
import proofs.«428993_j12077448036507_2_alg».proof.Proof.K.Fin2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- The references the operations of `hostOps0` write, in order. -/
abbrev hostOps0_wl : List (Ref sig .tc) := [main_v0, main_v1, main_v2]
/-- Every operation of `hostOps0` writes one of them. -/
theorem hostOps0_wr : (hostOps0 : List (HloOp τ sig (Elt F))).Forall fun op => op.writes ⊆ (hostOps0_wl.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0` allocates a buffer. -/
theorem hostOps0_fresh : (hostOps0 : List (HloOp τ sig (Elt F))).Forall fun op => op.fresh = ∅ := by
  simp only [List.Forall]; repeat' constructor

/-- The references the operations of `hostOps0_1` write, in order. -/
abbrev hostOps0_1_wl : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v3]
/-- Every operation of `hostOps0_1` writes one of them. -/
theorem hostOps0_1_wr : (hostOps0_1 : List (HloOp τ sig (Elt F))).Forall fun op => op.writes ⊆ (hostOps0_1_wl.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_1` allocates a buffer. -/
theorem hostOps0_1_fresh : (hostOps0_1 : List (HloOp τ sig (Elt F))).Forall fun op => op.fresh = ∅ := by
  simp only [List.Forall]; repeat' constructor

/-- The references the operations of `hostOps0_2` write, in order. -/
abbrev hostOps0_2_wl : List (Ref sig .tc) := [main_v4]
/-- Every operation of `hostOps0_2` writes one of them. -/
theorem hostOps0_2_wr : (hostOps0_2 : List (HloOp τ sig (Elt F))).Forall fun op => op.writes ⊆ (hostOps0_2_wl.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- No operation of `hostOps0_2` allocates a buffer. -/
theorem hostOps0_2_fresh : (hostOps0_2 : List (HloOp τ sig (Elt F))).Forall fun op => op.fresh = ∅ := by
  simp only [List.Forall]; repeat' constructor

/-- The references the operations of `hostOps2` write, in order. -/
abbrev hostOps2_wl : List (Ref sig .tc) := [main_v7, main_v8, main_v9, main_v10]
/-- Every operation of `hostOps2` writes one of them. -/
theorem hostOps2_wr : (hostOps2 : List (HloOp τ sig (Elt F))).Forall fun op => op.writes ⊆ (hostOps2_wl.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps2` allocates a buffer. -/
theorem hostOps2_fresh : (hostOps2 : List (HloOp τ sig (Elt F))).Forall fun op => op.fresh = ∅ := by
  simp only [List.Forall]; repeat' constructor

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the lookup of the edges' segment ids. -/
abbrev W2 : Dev nD → Valuation τ sig (Elt F) := fun c => StableHlo.after hostOps0_1 (W1 m ρ c)
/-- After the third host stretch (the node segment sum's entry). -/
abbrev W3 : Dev nD → Valuation τ sig (Elt F) := fun c => StableHlo.after hostOps0_2 (W2 m ρ c)
/-- The same read at the core's references (what the node segment sum's proof data take). -/
abbrev V3 : (c : Dev nD) → (b : Ref sig .tc) → Buf (Elt F) ((c : Thread nD τ).loc b) := fun c b => W3 m ρ c b
/-- At the node segment sum's exit: its arrays at what the pipeline leaves (the inputs as entered, the output's
    write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the core's references (the edge segment sum's entry contents). -/
abbrev V4 : (c : Dev nD) → (b : Ref sig .tc) → Buf (Elt F) ((c : Thread nD τ).loc b) := fun c b => W4 m ρ c b
/-- At the node segment sum's exit each of its arrays holds what the pipeline leaves and every other buffer what it
    held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At the edge segment sum's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the core's references (the edge segment sum's exit contents). -/
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the fourth host stretch (the final kernel's entry). -/
abbrev W6 : Dev nD → Valuation τ sig (Elt F) := fun c => StableHlo.after hostOps2 (W5 m ρ c)
/-- The same read at the core's references (what the final kernel's proof data take). -/
abbrev V6 : (c : Dev nD) → (b : Ref sig .tc) → Buf (Elt F) ((c : Thread nD τ).loc b) := fun c b => W6 m ρ c b
/-- At the final kernel's exit: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the core's references (the final kernel's exit contents). -/
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ### A host stretch leaves alone every buffer none of its operations writes -/

theorem W1_of (c : Dev nD) (r : Ref sig .tc) (h : r ∉ hostOps0_wl) :
    W1 m ρ c (Proc.devRef .tc r) = W0 m ρ c (Proc.devRef .tc r) :=
  StableHlo.after_of_writes_sub hostOps0 _ hostOps0_wr h
theorem W2_of (c : Dev nD) (r : Ref sig .tc) (h : r ∉ hostOps0_1_wl) :
    W2 m ρ c (Proc.devRef .tc r) = W1 m ρ c (Proc.devRef .tc r) :=
  StableHlo.after_of_writes_sub hostOps0_1 _ hostOps0_1_wr h
theorem W3_of (c : Dev nD) (r : Ref sig .tc) (h : r ∉ hostOps0_2_wl) :
    W3 m ρ c (Proc.devRef .tc r) = W2 m ρ c (Proc.devRef .tc r) :=
  StableHlo.after_of_writes_sub hostOps0_2 _ hostOps0_2_wr h
theorem W6_of (c : Dev nD) (r : Ref sig .tc) (h : r ∉ hostOps2_wl) :
    W6 m ρ c (Proc.devRef .tc r) = W5 m ρ c (Proc.devRef .tc r) :=
  StableHlo.after_of_writes_sub hostOps2 _ hostOps2_wr h

/-! ### The arguments end as launched: no host operation writes one, and a region reads it through an input window
    or bypasses it, so the fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := (W5_arr m ρ c 0).trans (((dat1 (V4 m ρ) c).arrAt_in 0 rfl _).trans (A_eq1 (V4 m ρ) c 0))
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := (W7_arr m ρ c 2).trans (((dat2 (V6 m ρ) c).arrAt_in 2 rfl _).trans (A_eq2 (V6 m ρ) c 2))
    _ = W5 m ρ c (Proc.devRef .tc main_arg3) := W6_of m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl

/-! ### The regions' results -/

/-- The node segment sum's result array at its exit. -/
theorem W4_main_v5 (c : Dev nD) : W4 m ρ c (Proc.devRef .tc main_v5) = (dat0 (V3 m ρ) c).arrAt 2 cfg0.N :=
  W4_arr m ρ c 2
/-- The edge segment sum's result array at its exit. -/
theorem W5_main_v6 (c : Dev nD) : W5 m ρ c (Proc.devRef .tc main_v6) = (dat1 (V4 m ρ) c).arrAt 2 cfg1.N :=
  W5_arr m ρ c 2
/-- The program's result array at the end. -/
theorem W7_main_v11 (c : Dev nD) : W7 m ρ c (Proc.devRef .tc main_v11) = (dat2 (V6 m ρ) c).arrAt 7 cfg2.N :=
  W7_arr m ρ c 7

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents the stretch's operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

-- the library's entry and exit lemmas are stated over the pinned configuration of a pipeline; they unify with the
-- printed one only when unification may unfold plain definitions in a metavariable's type
set_option backward.isDefEq.respectTransparency.types false in
/-- The node segment sum over the thread state: entered from every unscoped buffer at `W3`, left at `W4`.  Its arrays are
    split out of the unscoped buffers and put back at the exit contents; the generator register goes into the
    region's invariant and comes back (the invariant before the first point is the class's, and after the last point
    it gives the class's back, forgetting the accumulator); nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V3 m ρ) c)
    unfold Pipeline.ΦA
    iintro ⟨Hp, -, Hr⟩
    isplitl [Hr]; · iexact Hr
    iexact Hp
  hout c := by
    rw [Pipeline.ownSems0_none]
    refine (hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline; they unify with the
-- printed one only when unification may unfold plain definitions in a metavariable's type
set_option backward.isDefEq.respectTransparency.types false in
/-- The edge segment sum over the thread state: entered from every unscoped buffer at `W4`, left at `W5`, as for the node
    segment sum. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V4 m ρ) c)
    unfold Pipeline.ΦA
    iintro ⟨Hp, -, Hr⟩
    isplitl [Hr]; · iexact Hr
    iexact Hp
  hout c := by
    rw [Pipeline.ownSems0_none]
    refine (hout1 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline; they unify with the
-- printed one only when unification may unfold plain definitions in a metavariable's type
set_option backward.isDefEq.respectTransparency.types false in
/-- The final kernel over the thread state: entered from every unscoped buffer at `W6`, left at `W7`, which the launch
    reads at the end.  Its invariant is the class's at every point. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ) ]
/-- @main is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run: at the compiled mesh, from any memory with zero counters, every weakly fair execution of @main terminates,
    nothing faulting, and every final memory holds every unscoped buffer of every core at the last boundary's
    contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- info: 'Cert.Kernel.Gen.run_all' depends on axioms: [propext, Classical.choice, Quot.sound] -/
#guard_msgs in #print axioms run_all

end Cert.Kernel.Gen

end
-- ==== Proof.KI.Seg0Runs.lean ====
/- Region 0 (the node segment sum): the kernel body run once per control case.  A grid point is a pair
   (core, step) with 25 steps per core.  At step 0 the body zeroes the accumulator scratch, at every step it adds, five
   chunks of 2000 rows at a time, the one-hot-matrix product of the chunk's segment ids with the chunk's rows, and at
   step 24 it copies the accumulator into the output block.  Three cases are met: step 0 (reset, no copy), steps 1 to 23
   (neither), step 24 (copy, no reset).  Each run states what the four memrefs hold before and after as lists of stored
   pieces; the loop is crossed by its invariant. -/
import proofs.«428993_j12077448036507_2_alg».proof.Proof.Gen.KernelIdeal.Launch
import proofs.«428993_j12077448036507_2_alg».proof.Proof.Gen.KernelIdeal.Skeleton
import proofs.«428993_j12077448036507_2_alg».proof.Proof.Gen.KernelIdeal.Points
import proofs.«428993_j12077448036507_2_alg».proof.Proof.Gen.KernelIdeal.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset condition: the step coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- The copy-out condition: the step coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the pipeline calls the body with -/

abbrev VO0_2 : View sig .tc .vmem S1x1024x128 .f32 := (Memref.whole cc0_stg2_0 : Memref sig .tc .vmem S1x1024x128 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
/-- The accumulator scratch. -/
abbrev scM0_0 : Memref sig .tc .vmem S1024x128 .f32 := Memref.whole cc0_scratch0
abbrev VS0_0 : View sig .tc .vmem S1024x128 .f32 := scM0_0.view

/-- The other scoped buffers of the core (the other two regions' staging buffers and scratch), each whole at some contents:
    they ride through this region untouched. -/
abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f))

/-- The class invariant with the accumulator scratch named. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA; rw [scopedRest0_eq]; simp only [scM0_0, owns_whole]; try rfl

/-! ## The body's run, case by case -/

set_option maxHeartbeats 4000000 in
/-- Step 0: the accumulator, whatever it held, is zeroed and then takes the five chunk products; the output block is
    handed back untouched. -/
noncomputable def kernelRun0_A (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S10000x128 .f32) (x1 : Vec F S10000x1 .i32) :
    { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Steps 1 to 23: the accumulator takes the five chunk products over what the step before left; the output block is
    handed back untouched. -/
noncomputable def kernelRun0_B (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S10000x128 .f32) (x1 : Vec F S10000x1 .i32) (xs0 : Vec F S1024x128 .f32) :
    { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 24: the accumulator takes the five chunk products over what the step before left and is then copied into the
    output block, whatever that held. -/
noncomputable def kernelRun0_C (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.Seg0Dat.lean ====
/- Region 0 (the node segment sum): what the accumulator scratch and the output block hold after every grid point, by
   recursion on the point; the pipeline's proof data over it; and the body obligation.  A core's 25 steps form one chain:
   step 0 starts the accumulator from zero, each later step continues from what the step before left, step 24 copies the
   accumulator into the output block, which is written back to the core's slab of the result only there.  Everything is
   stated at a parameter `V`, the buffer contents when the region is entered. -/
import proofs.«428993_j12077448036507_2_alg».proof.Proof.KI.Seg0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves -/

/-- At a point that does not copy out, the output block's buffer is not consulted: a placeholder. -/
def out0_idle : Vec F S1x1024x128 .f32 := VO0_2.read (Elt F) (VO0_2.writes (Elt F) VO0_2.junk [])

theorem scover0_A_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S10000x128 .f32) (x1 : Vec F S10000x1 .i32) (y : S1024x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024x128.size (by sl_kernel_rfl) y
/-- What step 0 leaves in the accumulator. -/
def sout0_A_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S10000x128 .f32) (x1 : Vec F S10000x1 .i32) : Vec F S1024x128 .f32 :=
  VS0_0.read (Elt F) (VS0_0.writes (Elt F) VS0_0.junk (kernelRun0_A c i arg2 harg2 arg3 harg3 arg4 harg4 arg5 harg5 hc0 hc1 x0 x1).1)

theorem scover0_B_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S10000x128 .f32) (x1 : Vec F S10000x1 .i32) (xs0 : Vec F S1024x128 .f32) (y : S1024x128.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x128.size (by sl_kernel_rfl) y
/-- What a middle step leaves in the accumulator, over what it found there. -/
def sout0_B_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S10000x128 .f32) (x1 : Vec F S10000x1 .i32) (xs0 : Vec F S1024x128 .f32) : Vec F S1024x128 .f32 :=
  VS0_0.read (Elt F) (VS0_0.writes (Elt F) VS0_0.junk (kernelRun0_B c i arg2 harg2 arg3 harg3 arg4 harg4 arg5 harg5 hc0 hc1 x0 x1 xs0).1)

theorem cover0_C_2 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) (y : S1x1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024x128.size (by sl_kernel_rfl) y
/-- What step 24 leaves in the output block. -/
def out0_C_2 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) : Vec F S1x1024x128 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y
/-- What step 24 leaves in the accumulator. -/
def sout0_C_0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) : Vec F S1024x128 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-! ## Point by point -/

/-- What the output block's buffer and the accumulator hold after the body at position `n`: the case the step
    coordinate selects, a non-resetting step run over what position `n - 1` left in the accumulator. -/
def outsAt0 (c : Dev nD) : (n : ℕ) → n < cfg0.N → Vec F S1x1024x128 .f32 × Vec F S1024x128 .f32
  | 0, hn => (out0_idle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 25 = 0 then
      if h1 : (n + 1) % 25 = 24 then
        False.elim (by omega)
      else
        (out0_idle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 25 = 24 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_idle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 25 = 0) (h1 : ¬t.val % 25 = 24) :
    outsAt0 V c t.val t.isLt = (out0_idle, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_idle, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 25 = 0
  · have h1 : ¬t.val % 25 = 24 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro hz; apply h0; rw [hz]
    by_cases h1 : t.val % 25 = 24
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- After the last point the invariant gives the class's back: the accumulator's contents are forgotten. -/
theorem hout0 (c : Dev nD) : (dat0 V c).Φ (Fin.last cfg0.N) ⊢ Pipeline.ΦA spec0 c :=
  Phi_out0 V c _ (by rw [Fin.val_last]; have : cfg0.N = 50 := N_0; omega)

end

end Cert.KernelIdeal.Gen

end
-- ==== Proof.KI.Seg1Runs.lean ====
/- Region 1 (the edge segment sum): the kernel body run once per control case.  A grid point is a pair
   (core, step) with 30 steps per core.  At step 0 the body zeroes the accumulator scratch, at every step it adds, five
   chunks of 2000 rows at a time, the one-hot-matrix product of the chunk's segment ids with the chunk's rows, and at
   step 29 it copies the accumulator into the output block.  Three cases are met: step 0 (reset, no copy), steps 1 to 28
   (neither), step 29 (copy, no reset).  Each run states what the four memrefs hold before and after as lists of stored
   pieces; the loop is crossed by its invariant. -/
import proofs.«428993_j12077448036507_2_alg».proof.Proof.Gen.KernelIdeal.Launch
import proofs.«428993_j12077448036507_2_alg».proof.Proof.Gen.KernelIdeal.Skeleton
import proofs.«428993_j12077448036507_2_alg».proof.Proof.Gen.KernelIdeal.Points
import proofs.«428993_j12077448036507_2_alg».proof.Proof.Gen.KernelIdeal.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset condition: the step coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 30 = 0 :=
  (by decide +kernel : ∀ t : Fin grid1.N, cond1_0 (grid1.coords t) ↔ t.val % 30 = 0)

/-- The copy-out condition: the step coordinate is 29. -/
abbrev cond1_1 (i : grid1.Coords) : Prop := k1_cond2 i = 1#1
theorem hcond1_1 : ∀ t : Fin cfg1.N, cond1_1 (grid1.coords t) ↔ t.val % 30 = 29 :=
  (by decide +kernel : ∀ t : Fin grid1.N, cond1_1 (grid1.coords t) ↔ t.val % 30 = 29)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the pipeline calls the body with -/

abbrev VO1_2 : View sig .tc .vmem S1x1024x128 .f32 := (Memref.whole cc1_stg2_0 : Memref sig .tc .vmem S1x1024x128 .f32).view
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .f32 := win1_2.stage (cfg1.slots t 2)
abbrev hs1_2 (t : Fin cfg1.N) : (ms1_2 t).IsWhole := hstage1_2 ((cfg1.slots t 2).cast nbuf1_2)
/-- The accumulator scratch. -/
abbrev scM1_0 : Memref sig .tc .vmem S1024x128 .f32 := Memref.whole cc1_scratch0
abbrev VS1_0 : View sig .tc .vmem S1024x128 .f32 := scM1_0.view

/-- The other scoped buffers of the core (the other two regions' staging buffers and scratch), each whole at some contents:
    they ride through this region untouched. -/
abbrev restS1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f))

/-- The class invariant with the accumulator scratch named. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ restS1 c) ∗ (∃ r, prngReg c r)) := by
  unfold Pipeline.ΦA; rw [scopedRest1_eq]; simp only [scM1_0, owns_whole]; try rfl

/-! ## The body's run, case by case -/

set_option maxHeartbeats 4000000 in
/-- Step 0: the accumulator, whatever it held, is zeroed and then takes the five chunk products; the output block is
    handed back untouched. -/
noncomputable def kernelRun1_A (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond1_0 i) (hc1 : ¬cond1_1 i)
    (x0 : Vec F S10000x128 .f32) (x1 : Vec F S10000x1 .i32) :
    { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__segsum_kernel i arg2 harg2 arg3 harg3 arg4 harg4 arg5 harg5) K } := by
  refine ⟨?_, fun xi2 E K => ?run⟩
  case run =>
    simp only [cc1__segsum_kernel_eq_skeleton]; unfold cc1__segsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Steps 1 to 28: the accumulator takes the five chunk products over what the step before left; the output block is
    handed back untouched. -/
noncomputable def kernelRun1_B (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : ¬cond1_1 i)
    (x0 : Vec F S10000x128 .f32) (x1 : Vec F S10000x1 .i32) (xs0 : Vec F S1024x128 .f32) :
    { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__segsum_kernel i arg2 harg2 arg3 harg3 arg4 harg4 arg5 harg5) K } := by
  refine ⟨?_, fun xi2 E K => ?run⟩
  case run =>
    simp only [cc1__segsum_kernel_eq_skeleton]; unfold cc1__segsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 29: the accumulator takes the five chunk products over what the step before left and is then copied into the
    output block, whatever that held. -/
noncomputable def kernelRun1_C (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__segsum_kernel i arg2 harg2 arg3 harg3 arg4 harg4 arg5 harg5) K } := by
  refine ⟨?_, ?_, fun E K => ?run⟩
  case run =>
    simp only [cc1__segsum_kernel_eq_skeleton]; unfold cc1__segsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.Seg1Dat.lean ====
/- Region 1 (the edge segment sum): what the accumulator scratch and the output block hold after every grid point, by
   recursion on the point; the pipeline's proof data over it; and the body obligation.  A core's 30 steps form one chain:
   step 0 starts the accumulator from zero, each later step continues from what the step before left, step 29 copies the
   accumulator into the output block, which is written back to the core's slab of the result only there.  Everything is
   stated at a parameter `V`, the buffer contents when the region is entered. -/
import proofs.«428993_j12077448036507_2_alg».proof.Proof.KI.Seg1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves -/

/-- At a point that does not copy out, the output block's buffer is not consulted: a placeholder. -/
def out1_idle : Vec F S1x1024x128 .f32 := VO1_2.read (Elt F) (VO1_2.writes (Elt F) VO1_2.junk [])

theorem scover1_A_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond1_0 i) (hc1 : ¬cond1_1 i)
    (x0 : Vec F S10000x128 .f32) (x1 : Vec F S10000x1 .i32) (y : S1024x128.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x128.size (by sl_kernel_rfl) y
/-- What step 0 leaves in the accumulator. -/
def sout1_A_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond1_0 i) (hc1 : ¬cond1_1 i)
    (x0 : Vec F S10000x128 .f32) (x1 : Vec F S10000x1 .i32) : Vec F S1024x128 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : ¬cond1_1 i)
    (x0 : Vec F S10000x128 .f32) (x1 : Vec F S10000x1 .i32) (xs0 : Vec F S1024x128 .f32) (y : S1024x128.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x128.size (by sl_kernel_rfl) y
/-- What a middle step leaves in the accumulator, over what it found there. -/
def sout1_B_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : ¬cond1_1 i)
    (x0 : Vec F S10000x128 .f32) (x1 : Vec F S10000x1 .i32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).1)

theorem cover1_C_2 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) (y : S1x1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1024x128.size (by sl_kernel_rfl) y
/-- What step 29 leaves in the output block. -/
def out1_C_2 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) : Vec F S1x1024x128 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y
/-- What step 29 leaves in the accumulator. -/
def sout1_C_0 (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

section
variable (V : (c : Dev nD) → (b : Ref sig .tc) → Buf (Elt F) ((c : Thread nD τ).loc b))

/-! ## Point by point -/

/-- What the output block's buffer and the accumulator hold after the body at position `n`: the case the step
    coordinate selects, a non-resetting step run over what position `n - 1` left in the accumulator. -/
def outsAt1 (c : Dev nD) : (n : ℕ) → n < cfg1.N → Vec F S1x1024x128 .f32 × Vec F S1024x128 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 30 = 0 then
      if h1 : (n + 1) % 30 = 29 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 30 = 29 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 30 = 0) (h1 : ¬t.val % 30 = 29) :
    outsAt1 V c t.val t.isLt = (out1_idle, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 30 = 0) (h1 : ¬t.val % 30 = 29) :
    outsAt1 V c t.val t.isLt = (out1_idle, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 30 = 0) (h1 : t.val % 30 = 29) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2) ∗ restS1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 60 := lt_of_lt_of_eq t.isLt (show cfg1.N = 60 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 30 = 0
  · have h1 : ¬t.val % 30 = 29 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨A1, A2, A3, A4, A5, A6, A7, HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [A1 A2 A3 A4 A5 A6 A7 HS0 Hg Hrest]
      · isplitl [A1 A2 A3 A4 A5 A6 A7 HS0 Hrest]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨A1, A2, A3, A4, A5, A6, A7, HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [A1 A2 A3 A4 A5 A6 A7 HS0 Hg Hrest]
      · isplitl [A1 A2 A3 A4 A5 A6 A7 HS0 Hrest]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro hz; apply h0; rw [hz]
    by_cases h1 : t.val % 30 = 29
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨A1, A2, A3, A4, A5, A6, A7, HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [A1 A2 A3 A4 A5 A6 A7 HS0 Hg Hrest]
      · isplitl [A1 A2 A3 A4 A5 A6 A7 HS0 Hrest]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]
          · unfold owns; iexists _; isplitr
            swap; · iexact HS0
            ipureintro; exact View.read_writes_of_cover _ _ _ _ _ (scover1_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨A1, A2, A3, A4, A5, A6, A7, HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [A1 A2 A3 A4 A5 A6 A7 HS0 Hg Hrest]
      · isplitl [A1 A2 A3 A4 A5 A6 A7 HS0 Hrest]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨A1, A2, A3, A4, A5, A6, A7, HS0, Hrest⟩, Hg⟩
  isplitl [A1 A2 A3 A4 A5 A6 A7 HS0 Hrest]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [HS0]
    · iexists _; iexact HS0
    iexact Hrest
  iexact Hg

/-- After the last point the invariant gives the class's back: the accumulator's contents are forgotten. -/
theorem hout1 (c : Dev nD) : (dat1 V c).Φ (Fin.last cfg1.N) ⊢ Pipeline.ΦA spec1 c :=
  Phi_out1 V c _ (by rw [Fin.val_last]; have : cfg1.N = 60 := N_1; omega)

end

end Cert.KernelIdeal.Gen

end
-- ==== Proof.KI.Fin2.lean ====
/- Region 2 (the final kernel), the frame half.  The region has one grid point and eight windows: the two per-core
   partial node sums and the two per-core partial edge sums (each a [2,1024,128] array fetched whole), the global
   features [1024,128], the three [128,128] column blocks of the weight matrix, the bias row [1,128], and the output
   [1024,128].  The body reads every input block once, through whole-block rectangles and, for the partial sums,
   through the two unit-thick slabs along the leading axis, and makes one store that fills the whole output block
   with the maximum of zero and the sum of the three products and the bias.  Everything is stated at an arbitrary
   contents V of the core's buffers at the moment the region is entered and is generic in the float family: the
   blocks the windows hold, the contents the body leaves in the output block as the canonical contents of its one
   store, the proof data of the pipeline, and the body obligation at every point. -/
import proofs.«428993_j12077448036507_2_alg».proof.Proof.Gen.KernelIdeal.Launch
import proofs.«428993_j12077448036507_2_alg».proof.Proof.Gen.KernelIdeal.Skeleton
import proofs.«428993_j12077448036507_2_alg».proof.Proof.Gen.KernelIdeal.Points
import proofs.«428993_j12077448036507_2_alg».proof.Proof.Gen.KernelIdeal.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not, for any proof data whose
    array is the entry contents and whose body leaves the block in place: the window is an input, never idle and
    uncut, so an unfetched point has the block index of the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not, for any proof data whose
    array is the entry contents and whose body leaves the block in place: the window is an input, never idle and
    uncut, so an unfetched point has the block index of the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not, for any proof data whose
    array is the entry contents and whose body leaves the block in place: the window is an input, never idle and
    uncut, so an unfetched point has the block index of the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not, for any proof data whose
    array is the entry contents and whose body leaves the block in place: the window is an input, never idle and
    uncut, so an unfetched point has the block index of the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not, for any proof data whose
    array is the entry contents and whose body leaves the block in place: the window is an input, never idle and
    uncut, so an unfetched point has the block index of the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not, for any proof data whose
    array is the entry contents and whose body leaves the block in place: the window is an input, never idle and
    uncut, so an unfetched point has the block index of the point before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, fetched there or not, for any proof data whose
    array is the entry contents and whose body leaves the block in place: the window is an input, never idle and
    uncut, so an unfetched point has the block index of the point before. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The two unit-thick slabs of a [2,1024,128] block along its leading axis, -/
abbrev r2_0 : Rect S2x1024x128 := Rect.unit (s := S2x1024x128) ![0, 0, 0] S1x1024x128.size inb_S2x1024x128_S1x1024x128_0_0_0
abbrev r2_1 : Rect S2x1024x128 := Rect.unit (s := S2x1024x128) ![1, 0, 0] S1x1024x128.size inb_S2x1024x128_S1x1024x128_1_0_0
/-- and the whole of a [1024,128], a [128,128] and a [1,128] block. -/
abbrev r2_2 : Rect S1024x128 := Rect.unit (s := S1024x128) ![0, 0] S1024x128.size inb_S1024x128_S1024x128_0_0
abbrev r2_3 : Rect S128x128 := Rect.unit (s := S128x128) ![0, 0] S128x128.size inb_S128x128_S128x128_0_0
abbrev r2_4 : Rect S1x128 := Rect.unit (s := S1x128) ![0, 0] S1x128.size inb_S1x128_S1x128_0_0

/-! ## What the body leaves in the output window's buffer -/

/-- The output block after the body, from the input windows' blocks: its one store, over the whole block, of the
    maximum of zero and the value computed from the two slabs of each partial-sum block, the global features, the three
    weight blocks and the bias row. -/
def out2_7 (x0 x1 : Vec F S2x1024x128 .f32) (x2 : Vec F S1024x128 .f32) (x3 x4 x5 : Vec F S128x128 .f32) (x6 : Vec F S1x128 .f32) : Vec F S1024x128 .f32 :=
  View.canon [⟨r2_2, k2_pay1 (k2_pay2 (View.ld x0 r2_0) (View.ld x0 r2_1) (View.ld x1 r2_0) (View.ld x1 r2_1) (View.ld x2 r2_2) (View.ld x3 r2_3) (View.ld x4 r2_3) (View.ld x5 r2_3) (View.ld x6 r2_4)) (k2_pay3 (F := F))⟩]

/-- The one store is over the whole block, so it covers it. -/
theorem cover2_7 (p0 : Vec F S1024x128 .f32) (y : S1024x128.Idx) :
    ∃ pc ∈ ([⟨r2_2, p0⟩] : List (View.Piece (Elt F) S1024x128 .f32)), y ∈ pc.1.set :=
  View.cover_of_tiled [⟨r2_2, p0⟩] S1024x128.size (by rfl) y

/-! ## The body's triple -/

set_option maxHeartbeats 1000000 in
/-- The body on whole staging memrefs, the inputs' at read contents `xW` and the output's at anything, runs to the
    continuation holding the inputs' as they were and the output's at `out2_7` of the inputs': the printed function and
    its part are their skeletons of memory operations over payloads, which are run one operation at a time. -/
theorem sound_kernel2 (c : Dev nD) (E : Set ℕ) (i : grid2.Coords) (arg1 : Memref sig .tc .vmem S2x1024x128 .f32) (harg1 : arg1.IsWhole) (arg2 : Memref sig .tc .vmem S2x1024x128 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole)
    (x0 x1 : Vec F S2x1024x128 .f32) (x2 : Vec F S1024x128 .f32) (x3 x4 x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__final_kernel i arg1 harg1 arg2 harg2 arg3 harg3 arg4 harg4 arg5 harg5 arg6 harg6 arg7 harg7 arg8 harg8) K := by
  simp only [cc2__final_kernel_eq_skeleton]; unfold cc2__final_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of the pipeline on core `c`: the arrays as the region finds them; after the body at point `t` each
    input's buffer at its block and the output's at `out2_7` of the input blocks; the invariant keeps the scoped rest
    and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Gen

end
-- ==== Proof.KI.Run.lean ====
/- The run of the whole program.  @main is seven segments in order: three stretches of host operations (the
   reshape of the segment ids and the slice of the first row of the edge index; the lookup of each edge's segment id
   through its source node, with its wrap of negative indices, its range mask and its fill value; a reshape), the
   node segment sum, the edge segment sum, a stretch of host operations (the three column blocks of the weight
   matrix and the bias row) and the final kernel.  The contents of a core's buffers at every boundary between two
   segments are a fold from the launch memory: a stretch rewrites the buffers its operations write, a kernel region
   leaves its windows' arrays at what its write-backs make of them and every other buffer alone.  Over that fold each
   stretch and each region is a segment with the thread state "every unscoped buffer at the boundary's contents,
   the generator register at some state, nothing owed"; the segments chain, the launch runs them, and every final
   memory holds every unscoped buffer at the last boundary's contents.  Each argument array, read back through the
   fold, holds its launch contents; the result array holds what the final kernel's write-back leaves.  Generic in
   the float family. -/
import proofs.«428993_j12077448036507_2_alg».proof.Proof.KI.Seg0Dat
import proofs.«428993_j12077448036507_2_alg».proof.Proof.KI.Seg1Dat
import proofs.«428993_j12077448036507_2_alg».proof.Proof.KI.Fin2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- The references the operations of `hostOps0` write, in order. -/
abbrev hostOps0_wl : List (Ref sig .tc) := [main_v0, main_v1, main_v2]
/-- Every operation of `hostOps0` writes one of them. -/
theorem hostOps0_wr : (hostOps0 : List (HloOp τ sig (Elt F))).Forall fun op => op.writes ⊆ (hostOps0_wl.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0` allocates a buffer. -/
theorem hostOps0_fresh : (hostOps0 : List (HloOp τ sig (Elt F))).Forall fun op => op.fresh = ∅ := by
  simp only [List.Forall]; repeat' constructor

/-- The references the operations of `hostOps0_1` write, in order. -/
abbrev hostOps0_1_wl : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v3]
/-- Every operation of `hostOps0_1` writes one of them. -/
theorem hostOps0_1_wr : (hostOps0_1 : List (HloOp τ sig (Elt F))).Forall fun op => op.writes ⊆ (hostOps0_1_wl.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_1` allocates a buffer. -/
theorem hostOps0_1_fresh : (hostOps0_1 : List (HloOp τ sig (Elt F))).Forall fun op => op.fresh = ∅ := by
  simp only [List.Forall]; repeat' constructor

/-- The references the operations of `hostOps0_2` write, in order. -/
abbrev hostOps0_2_wl : List (Ref sig .tc) := [main_v4]
/-- Every operation of `hostOps0_2` writes one of them. -/
theorem hostOps0_2_wr : (hostOps0_2 : List (HloOp τ sig (Elt F))).Forall fun op => op.writes ⊆ (hostOps0_2_wl.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- No operation of `hostOps0_2` allocates a buffer. -/
theorem hostOps0_2_fresh : (hostOps0_2 : List (HloOp τ sig (Elt F))).Forall fun op => op.fresh = ∅ := by
  simp only [List.Forall]; repeat' constructor

/-- The references the operations of `hostOps2` write, in order. -/
abbrev hostOps2_wl : List (Ref sig .tc) := [main_v7, main_v8, main_v9, main_v10]
/-- Every operation of `hostOps2` writes one of them. -/
theorem hostOps2_wr : (hostOps2 : List (HloOp τ sig (Elt F))).Forall fun op => op.writes ⊆ (hostOps2_wl.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps2` allocates a buffer. -/
theorem hostOps2_fresh : (hostOps2 : List (HloOp τ sig (Elt F))).Forall fun op => op.fresh = ∅ := by
  simp only [List.Forall]; repeat' constructor

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the lookup of the edges' segment ids. -/
abbrev W2 : Dev nD → Valuation τ sig (Elt F) := fun c => StableHlo.after hostOps0_1 (W1 m ρ c)
/-- After the third host stretch (the node segment sum's entry). -/
abbrev W3 : Dev nD → Valuation τ sig (Elt F) := fun c => StableHlo.after hostOps0_2 (W2 m ρ c)
/-- The same read at the core's references (what the node segment sum's proof data take). -/
abbrev V3 : (c : Dev nD) → (b : Ref sig .tc) → Buf (Elt F) ((c : Thread nD τ).loc b) := fun c b => W3 m ρ c b
/-- At the node segment sum's exit: its arrays at what the pipeline leaves (the inputs as entered, the output's
    write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the core's references (the edge segment sum's entry contents). -/
abbrev V4 : (c : Dev nD) → (b : Ref sig .tc) → Buf (Elt F) ((c : Thread nD τ).loc b) := fun c b => W4 m ρ c b
/-- At the node segment sum's exit each of its arrays holds what the pipeline leaves and every other buffer what it
    held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At the edge segment sum's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the core's references (the edge segment sum's exit contents). -/
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the fourth host stretch (the final kernel's entry). -/
abbrev W6 : Dev nD → Valuation τ sig (Elt F) := fun c => StableHlo.after hostOps2 (W5 m ρ c)
/-- The same read at the core's references (what the final kernel's proof data take). -/
abbrev V6 : (c : Dev nD) → (b : Ref sig .tc) → Buf (Elt F) ((c : Thread nD τ).loc b) := fun c b => W6 m ρ c b
/-- At the final kernel's exit: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the core's references (the final kernel's exit contents). -/
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ### A host stretch leaves alone every buffer none of its operations writes -/

theorem W1_of (c : Dev nD) (r : Ref sig .tc) (h : r ∉ hostOps0_wl) :
    W1 m ρ c (Proc.devRef .tc r) = W0 m ρ c (Proc.devRef .tc r) :=
  StableHlo.after_of_writes_sub hostOps0 _ hostOps0_wr h
theorem W2_of (c : Dev nD) (r : Ref sig .tc) (h : r ∉ hostOps0_1_wl) :
    W2 m ρ c (Proc.devRef .tc r) = W1 m ρ c (Proc.devRef .tc r) :=
  StableHlo.after_of_writes_sub hostOps0_1 _ hostOps0_1_wr h
theorem W3_of (c : Dev nD) (r : Ref sig .tc) (h : r ∉ hostOps0_2_wl) :
    W3 m ρ c (Proc.devRef .tc r) = W2 m ρ c (Proc.devRef .tc r) :=
  StableHlo.after_of_writes_sub hostOps0_2 _ hostOps0_2_wr h
theorem W6_of (c : Dev nD) (r : Ref sig .tc) (h : r ∉ hostOps2_wl) :
    W6 m ρ c (Proc.devRef .tc r) = W5 m ρ c (Proc.devRef .tc r) :=
  StableHlo.after_of_writes_sub hostOps2 _ hostOps2_wr h

/-! ### The arguments end as launched: no host operation writes one, and a region reads it through an input window
    or bypasses it, so the fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := (W5_arr m ρ c 0).trans (((dat1 (V4 m ρ) c).arrAt_in 0 rfl _).trans (A_eq1 (V4 m ρ) c 0))
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := (W7_arr m ρ c 2).trans (((dat2 (V6 m ρ) c).arrAt_in 2 rfl _).trans (A_eq2 (V6 m ρ) c 2))
    _ = W5 m ρ c (Proc.devRef .tc main_arg3) := W6_of m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl

/-! ### The regions' results -/

/-- The node segment sum's result array at its exit. -/
theorem W4_main_v5 (c : Dev nD) : W4 m ρ c (Proc.devRef .tc main_v5) = (dat0 (V3 m ρ) c).arrAt 2 cfg0.N :=
  W4_arr m ρ c 2
/-- The edge segment sum's result array at its exit. -/
theorem W5_main_v6 (c : Dev nD) : W5 m ρ c (Proc.devRef .tc main_v6) = (dat1 (V4 m ρ) c).arrAt 2 cfg1.N :=
  W5_arr m ρ c 2
/-- The program's result array at the end. -/
theorem W7_main_v11 (c : Dev nD) : W7 m ρ c (Proc.devRef .tc main_v11) = (dat2 (V6 m ρ) c).arrAt 7 cfg2.N :=
  W7_arr m ρ c 7

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents the stretch's operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

-- the library's entry and exit lemmas are stated over the pinned configuration of a pipeline; they unify with the
-- printed one only when unification may unfold plain definitions in a metavariable's type
set_option backward.isDefEq.respectTransparency.types false in
/-- The node segment sum over the thread state: entered from every unscoped buffer at `W3`, left at `W4`.  Its arrays are
    split out of the unscoped buffers and put back at the exit contents; the generator register goes into the
    region's invariant and comes back (the invariant before the first point is the class's, and after the last point
    it gives the class's back, forgetting the accumulator); nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V3 m ρ) c)
    unfold Pipeline.ΦA
    iintro ⟨Hp, -, Hr⟩
    isplitl [Hr]; · iexact Hr
    iexact Hp
  hout c := by
    rw [Pipeline.ownSems0_none]
    refine (hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline; they unify with the
-- printed one only when unification may unfold plain definitions in a metavariable's type
set_option backward.isDefEq.respectTransparency.types false in
/-- The edge segment sum over the thread state: entered from every unscoped buffer at `W4`, left at `W5`, as for the node
    segment sum. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V4 m ρ) c)
    unfold Pipeline.ΦA
    iintro ⟨Hp, -, Hr⟩
    isplitl [Hr]; · iexact Hr
    iexact Hp
  hout c := by
    rw [Pipeline.ownSems0_none]
    refine (hout1 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline; they unify with the
-- printed one only when unification may unfold plain definitions in a metavariable's type
set_option backward.isDefEq.respectTransparency.types false in
/-- The final kernel over the thread state: entered from every unscoped buffer at `W6`, left at `W7`, which the launch
    reads at the end.  Its invariant is the class's at every point. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ) ]
/-- @main is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run: at the compiled mesh, from any memory with zero counters, every weakly fair execution of @main terminates,
    nothing faulting, and every final memory holds every unscoped buffer of every core at the last boundary's
    contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- info: 'Cert.KernelIdeal.Gen.run_all' depends on axioms: [propext, Classical.choice, Quot.sound] -/
#guard_msgs in #print axioms run_all

end Cert.KernelIdeal.Gen

end
-- ==== Proof.RefImports.lean ====
/- The reference program's run and its stages read at an index, gathered under one name. -/
import proofs.«428993_j12077448036507_2_alg».proof.Proof.Gen.ReferenceIdeal.Run
import proofs.«428993_j12077448036507_2_alg».proof.Proof.Gen.ReferenceIdeal.Read
-- ==== Proof.KI.HostVals.lean ====
/- What the kernel program's host stretches compute, read at an index, and the precondition's index range decoded.
   Before the two segment sums the host reshapes the batch vector into a column (the nodes' segment ids), cuts row 0 out
   of the edge index (each edge's source node) and takes the batch vector at it (the edges' segment ids): the take wraps a
   negative index by the table's length, gathers at the start index clamped into the table, and keeps the gathered word
   only where the start index lies in [0, 499999], filling the least 32-bit integer elsewhere.  Under the precondition
   every source node lies in [0, 500000), so the wrap does nothing, the mask is set, the clamp does nothing, and the take
   is the batch vector at the source node.  Before the final product the host cuts the weight matrix into its three
   [128, 128] column blocks and lays the bias out as a row. -/
import proofs.«428993_j12077448036507_2_alg».proof.Proof.Gen.KernelIdeal.Launch
import proofs.«428993_j12077448036507_2_alg».proof.Proof.Gen.Pre_finite_inputs
import proofs.«428993_j12077448036507_2_alg».proof.Defs
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.ReduceAll
import Idealize.ShloMosaic.Lib.Affine

set_option maxRecDepth 16384

noncomputable section

namespace Cert.KernelIdeal.HostVals

open Cert.KernelIdeal Cert.KernelIdeal.Gen
open Idealize.ShloMosaic Idealize.ShloMosaic.TcCoe Idealize.SL.Sem
open Idealize.ShloMosaic.ValueIdx

abbrev Val := Valuation τ sig (Elt Ideal)

/-! ## Indices and reshapes, over variables -/

section Shapes
variable {α : Type}

/-- The rank-1 index at a coordinate, in its two spellings. -/
theorem ofFin_eq_ix1 {n : Nat} (k : Fin n) : Shape.Idx.ofFin k = ix1 k := by
  funext a
  match a with
  | ⟨0, _⟩ => exact Fin.ext rfl

/-- Row p of an [n, 1] column, in its two spellings. -/
theorem ixP_eq_ix2 {n : Nat} (p : Fin n) : StableHlo.Predicate.ixP p = ix2 p (0 : Fin 1) := by
  funext a
  match a with
  | ⟨0, _⟩ => rfl
  | ⟨1, _⟩ => rfl

/-- A vector of length n kept as an [n, 1] column reads, at (r, 0), the vector at r. -/
theorem cast_col_apply {n : Nat} (x : (⟨1, ![n]⟩ : Shape).Idx → α)
    (h : (⟨1, ![n]⟩ : Shape).ShapeCasts ⟨2, ![n, 1]⟩) (r : Fin n) (z : Fin 1) :
    shapeCast ⟨2, ![n, 1]⟩ x h (ix2 r z) = x (ix1 r) :=
  shapeCast_apply x h _ _ (by
    have hz : z.val = 0 := by omega
    rw [Shape.rowMajor_val_two, Shape.rowMajor_val_one]
    show r.val = r.val * 1 + z.val
    omega)

/-- Row 0 of a [2, n] array, sliced out and flattened, reads at e the array at (0, e). -/
theorem row0_apply {n : Nat} (X : (⟨2, ![2, n]⟩ : Shape).Idx → α)
    (h₁ : (⟨2, ![2, n]⟩ : Shape).Slices ![0, 0] ⟨2, ![1, n]⟩)
    (h₂ : (⟨2, ![1, n]⟩ : Shape).ShapeCasts ⟨1, ![n]⟩) (e : Fin n) :
    shapeCast ⟨1, ![n]⟩ (extractStridedSlice ⟨2, ![1, n]⟩ ![0, 0] X h₁) h₂ (ix1 e) = X (ix2 (0 : Fin 2) e) := by
  rw [shapeCast_1a_a_apply]
  exact slice2_axis0_apply 0 X h₁ (0 : Fin 1) e (0 : Fin 2) rfl

end Shapes

/-! ## Words: a signed reading in [0, 500000) -/

section Words

theorem slt_zero_of_nonneg (w : BitVec 32) (h0 : 0 ≤ w.toInt) : IntOp.cmpi .slt w 0#32 = 0#1 := by
  refine eq_zero_of_ne_one fun h => ?_
  have h' := IntOp.cmpi_slt.1 h
  have z : (0#32 : BitVec 32).toInt = 0 := by decide
  omega

theorem sge_zero_of_nonneg (w : BitVec 32) (h0 : 0 ≤ w.toInt) : IntOp.cmpi .sge w 0#32 = 1#1 :=
  IntOp.cmpi_sge.2 (by
    have z : (0#32 : BitVec 32).toInt = 0 := by decide
    omega)

theorem sle_last_of_lt (w : BitVec 32) (h1 : w.toInt < 500000) : IntOp.cmpi .sle w 499999#32 = 1#1 :=
  IntOp.cmpi_sle.2 (by
    have z := StableHlo.Predicate.toInt_ofNat_small 499999 (by decide)
    omega)

/-- A left fold by and over one-bit words, started at 1 and meeting only 1s, is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩)
      (fun n hn => hl n (List.mem_cons_of_mem _ hn))

/-- A reduction by and is 1 at j when it starts at 1 and every operand entry that reduces into j is 1. -/
theorem reduce_andi_eq_one_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_foldl]
  refine foldl_andi_one x _ _ hinit fun n hn => hx n ?_
  have h' := (List.mem_filter.1 hn).2
  simpa using h'

end Words

/-! ## The take, as one function of the index row and the table -/

/-- The index row as the take reads it: a negative index is wrapped by the table's length. -/
def wrapIdx (x : IVec S600000 32) : IVec S600000 32 :=
  select (cmpi .slt x (broadcastInDim S600000 ![] bcast_S_S600000 (constantI S_ 32 0#32)))
    (addi x (broadcastInDim S600000 ![] bcast_S_S600000 (constantI S_ 32 500000#32))) x

/-- The wrapped indices as a column of start indices. -/
def startCol (x : IVec S600000 32) : IVec S600000x1 32 :=
  broadcastInDim S600000x1 ![0] bcast_S600000_S600000x1_0 (wrapIdx x)

/-- The in-bounds mask of the take: the start index within [0, 499999]. -/
def inBounds (x : IVec S600000 32) : IVec S600000 1 :=
  Host.reduce IntOp.andi
    (andi (cmpi .sge (startCol x) (broadcastInDim S600000x1 ![] bcast_S_S600000x1 (constantI S_ 32 0#32)))
      (cmpi .sle (startCol x) (broadcastInDim S600000x1 ![0, 1] bcast_S1x1_S600000x1_0_1
        (broadcastInDim S1x1 ![1] bcast_S1_S1x1_1 (constantI S1 32 499999#32)))))
    (constantI S_ 1 1#1) reducesTo_S600000x1_S600000_d1 h_S_

/-- The take: the table gathered at the start indices where in bounds, the fill word elsewhere. -/
def takeFn (x : IVec S600000 32) (b : IVec S500000 32) : IVec S600000 32 :=
  select (inBounds x) (Host.gather gather_S500000_S600000x1_S600000_n_0_n_n_0_1_1 b (startCol x))
    (broadcastInDim S600000 ![] bcast_S_S600000 (constantI S_ 32 2147483648#32))

/-- An index that is not negative is kept by the wrap. -/
theorem wrapIdx_apply (x : IVec S600000 32) (e : Fin 600000) (h0 : 0 ≤ (x (ix1 e)).toInt) :
    wrapIdx x (ix1 e) = x (ix1 e) := by
  show Scalar.select (IntOp.cmpi .slt (x (ix1 e)) 0#32) (IntOp.addi (x (ix1 e)) 500000#32) (x (ix1 e)) = _
  rw [slt_zero_of_nonneg _ h0, select_zero]

/-- The column of start indices at row e is the wrapped index e. -/
theorem startCol_apply (x : IVec S600000 32) (e : Fin 600000) (z : Fin 1) :
    startCol x (ix2 e z) = wrapIdx x (ix1 e) := by
  obtain rfl : z = 0 := Subsingleton.elim _ _
  rw [← ixP_eq_ix2, ← ofFin_eq_ix1]
  exact StableHlo.Predicate.bcast_col1 bcast_S600000_S600000x1_0 (wrapIdx x) e

/-- An index in [0, 500000) is in bounds. -/
theorem inBounds_apply (x : IVec S600000 32) (e : Fin 600000) (h0 : 0 ≤ (x (ix1 e)).toInt)
    (h1 : (x (ix1 e)).toInt < 500000) : inBounds x (ix1 e) = 1#1 := by
  unfold inBounds
  refine reduce_andi_eq_one_of_all _ _ _ _ _ rfl fun i hi => ?_
  obtain ⟨a, z, rfl⟩ : ∃ (a : Fin 600000) (z : Fin 1), i = ix2 a z := ⟨i 0, i 1, eq_ix2 i⟩
  have hv : ((reducesTo_S600000x1_S600000_d1.drop (ix2 a z) (0 : Fin 1) : Fin 600000) : Nat) = a.val :=
    Shape.ReducesTo.drop_apply_val reducesTo_S600000x1_S600000_d1 (ix2 a z) 0
  obtain rfl : a = e := Fin.ext (by rw [← hv, hi])
  show IntOp.andi (IntOp.cmpi .sge (startCol x (ix2 a z)) 0#32)
    (IntOp.cmpi .sle (startCol x (ix2 a z)) 499999#32) = 1#1
  rw [startCol_apply, wrapIdx_apply x a h0]
  exact IntOp.andi_eq_one.2 ⟨sge_zero_of_nonneg _ h0, sle_last_of_lt _ h1⟩

/-- THE TAKE AT AN IN-RANGE INDEX: the table at it. -/
theorem takeFn_apply (x : IVec S600000 32) (b : IVec S500000 32) (e : Fin 600000) (k : Fin 500000)
    (hk : (x (ix1 e)).toInt = (k.val : ℤ)) : takeFn x b (ix1 e) = b (ix1 k) := by
  have h0 : 0 ≤ (x (ix1 e)).toInt := by omega
  have h1 : (x (ix1 e)).toInt < 500000 := by have := k.isLt; omega
  unfold takeFn
  rw [select_apply, inBounds_apply x e h0 h1, select_one, ← ofFin_eq_ix1 e,
    StableHlo.Predicate.gather_take gather_S500000_S600000x1_S600000_n_0_n_n_0_1_1 rfl rfl rfl rfl b (startCol x) e
      (by decide),
    ofFin_eq_ix1]
  refine congrArg b (congrArg ix1 (Fin.ext ?_))
  show min ((startCol x (StableHlo.Predicate.ixP e)).toInt.toNat) (500000 - 1) = k.val
  rw [ixP_eq_ix2, startCol_apply, wrapIdx_apply x e h0, hk]
  have := k.isLt
  omega

/-! ## The host stretches, read at an index -/

/-- The segment ids as a column: the reshape of the batch vector. -/
theorem v0_apply (W₀ : Val) (r : Fin 500000) :
    (StableHlo.after (hostOps0 (F := Ideal)) W₀ (Proc.devRef .tc main_v0) : S500000x1.Idx → BitVec 32) (ix2 r (0 : Fin 1))
      = (W₀ (Proc.devRef .tc main_arg4) : S500000.Idx → BitVec 32) (ix1 r) := by
  have e : (StableHlo.after (hostOps0 (F := Ideal)) W₀ (Proc.devRef .tc main_v0) : S500000x1.Idx → BitVec 32)
      = shapeCast S500000x1 (W₀ (Proc.devRef .tc main_arg4) : S500000.Idx → BitVec 32) shapeCasts_S500000_S500000x1 := by
    dsimp only [hostOps0]; after_results; rfl
  rw [e]
  exact cast_col_apply _ _ r 0

/-- The first stretch leaves at the source-node row: row 0 of the edge index, flattened. -/
theorem v2_eq (W₀ : Val) :
    (StableHlo.after (hostOps0 (F := Ideal)) W₀ (Proc.devRef .tc main_v2) : S600000.Idx → BitVec 32)
      = shapeCast S600000 (extractStridedSlice S1x600000 ![0, 0]
          (W₀ (Proc.devRef .tc main_arg1) : S2x600000.Idx → BitVec 32) slices_S2x600000_S1x600000_0_0)
          shapeCasts_S1x600000_S600000 := by
  dsimp only [hostOps0]; after_results; rfl

/-- The first stretch does not write the batch vector. -/
theorem arg4_keep (W₀ : Val) :
    StableHlo.after (hostOps0 (F := Ideal)) W₀ (Proc.devRef .tc main_arg4) = W₀ (Proc.devRef .tc main_arg4) := by
  dsimp only [hostOps0]; after_results

/-- The take's stretch computes the take of the batch vector at the source-node row, from any contents. -/
theorem v3_eq (V : Val) :
    (StableHlo.after (hostOps0_1 (F := Ideal)) V (Proc.devRef .tc main_v3) : S600000.Idx → BitVec 32)
      = takeFn (V (Proc.devRef .tc main_v2) : S600000.Idx → BitVec 32)
          (V (Proc.devRef .tc main_arg4) : S500000.Idx → BitVec 32) := by
  dsimp only [hostOps0_1]; after_results_simp
  dsimp only [StableHlo.TRef.ofBuf, StableHlo.TRef.toBuf, cast_eq]
  rfl

/-- The last stretch before the regions keeps the take's result as a column. -/
theorem v4_eq (V : Val) :
    (StableHlo.after (hostOps0_2 (F := Ideal)) V (Proc.devRef .tc main_v4) : S600000x1.Idx → BitVec 32)
      = shapeCast S600000x1 (V (Proc.devRef .tc main_v3) : S600000.Idx → BitVec 32) shapeCasts_S600000_S600000x1 := by
  dsimp only [hostOps0_2]; after_results; rfl

/-- THE EDGES' SEGMENT IDS: where every source node is a node, the column the three stretches leave reads, at edge e,
    the batch vector at e's source node (the index is not negative, so the wrap keeps it; it is within the table, so the
    mask is set and the gathered word is kept; the gather at an in-range index is the table at it). -/
theorem v4_apply (W₀ : Val) (ei0 : Fin 600000 → Fin 500000)
    (hei : ∀ e, ((W₀ (Proc.devRef .tc main_arg1) : S2x600000.Idx → BitVec 32) (ix2 (0 : Fin 2) e)).toInt = ((ei0 e).val : ℤ))
    (e : Fin 600000) :
    (StableHlo.after (hostOps0_2 (F := Ideal)) (StableHlo.after (hostOps0_1 (F := Ideal)) (StableHlo.after (hostOps0 (F := Ideal)) W₀))
        (Proc.devRef .tc main_v4) : S600000x1.Idx → BitVec 32) (ix2 e (0 : Fin 1))
      = (W₀ (Proc.devRef .tc main_arg4) : S500000.Idx → BitVec 32) (ix1 (ei0 e)) := by
  rw [v4_eq, cast_col_apply, v3_eq, v2_eq, arg4_keep]
  refine takeFn_apply _ _ e (ei0 e) ?_
  rw [row0_apply]
  exact hei e

/-- The three column blocks of the weight matrix. -/
theorem v7_apply (W₁ : Val) (j k : Fin 128) :
    (StableHlo.after (hostOps2 (F := Ideal)) W₁ (Proc.devRef .tc main_v7) : S128x128.Idx → EReal) (ix2 j k)
      = (W₁ (Proc.devRef .tc main_arg5) : S128x384.Idx → EReal) (ix2 j ⟨0 + k.val, by omega⟩) := by
  have e : (StableHlo.after (hostOps2 (F := Ideal)) W₁ (Proc.devRef .tc main_v7) : S128x128.Idx → EReal)
      = extractStridedSlice S128x128 ![0, 0] (W₁ (Proc.devRef .tc main_arg5) : S128x384.Idx → EReal) slices_S128x384_S128x128_0_0 := by
    dsimp only [hostOps2]; after_results
  rw [e]
  exact slice2_axis1_apply 0 _ _ j k _ rfl

theorem v8_apply (W₁ : Val) (j k : Fin 128) :
    (StableHlo.after (hostOps2 (F := Ideal)) W₁ (Proc.devRef .tc main_v8) : S128x128.Idx → EReal) (ix2 j k)
      = (W₁ (Proc.devRef .tc main_arg5) : S128x384.Idx → EReal) (ix2 j ⟨128 + k.val, by omega⟩) := by
  have e : (StableHlo.after (hostOps2 (F := Ideal)) W₁ (Proc.devRef .tc main_v8) : S128x128.Idx → EReal)
      = extractStridedSlice S128x128 ![0, 128] (W₁ (Proc.devRef .tc main_arg5) : S128x384.Idx → EReal) slices_S128x384_S128x128_0_128 := by
    dsimp only [hostOps2]; after_results
  rw [e]
  exact slice2_axis1_apply 128 _ _ j k _ rfl

theorem v9_apply (W₁ : Val) (j k : Fin 128) :
    (StableHlo.after (hostOps2 (F := Ideal)) W₁ (Proc.devRef .tc main_v9) : S128x128.Idx → EReal) (ix2 j k)
      = (W₁ (Proc.devRef .tc main_arg5) : S128x384.Idx → EReal) (ix2 j ⟨256 + k.val, by omega⟩) := by
  have e : (StableHlo.after (hostOps2 (F := Ideal)) W₁ (Proc.devRef .tc main_v9) : S128x128.Idx → EReal)
      = extractStridedSlice S128x128 ![0, 256] (W₁ (Proc.devRef .tc main_arg5) : S128x384.Idx → EReal) slices_S128x384_S128x128_0_256 := by
    dsimp only [hostOps2]; after_results
  rw [e]
  exact slice2_axis1_apply 256 _ _ j k _ rfl

/-- The bias as a row. -/
theorem v10_apply (W₁ : Val) (j : Fin 128) :
    (StableHlo.after (hostOps2 (F := Ideal)) W₁ (Proc.devRef .tc main_v10) : S1x128.Idx → EReal) (ix2 (0 : Fin 1) j)
      = (W₁ (Proc.devRef .tc main_arg6) : S128.Idx → EReal) (ix1 j) := by
  have e : (StableHlo.after (hostOps2 (F := Ideal)) W₁ (Proc.devRef .tc main_v10) : S1x128.Idx → EReal)
      = shapeCast S1x128 (W₁ (Proc.devRef .tc main_arg6) : S128.Idx → EReal) shapeCasts_S128_S1x128 := by
    dsimp only [hostOps2]; after_results; rfl
  rw [e]
  exact shapeCast_a_1a_apply _ _ 0 j

/-! ## The precondition decoded: every source node is a node -/

instance : Subsingleton Cert.Pre_finite_inputs.S_.Idx := ⟨fun a b => funext fun d => d.elim0⟩

/-- The precondition's last conjunct, read at edge e: the source node's index is in [0, 500000), signed. -/
theorem ei_of_pre (m : (ℓ : Loc nD τ sig) → Buf (Elt Ideal) ℓ) (h : Cert.Pre_KernelIdeal m) (c : Dev nD) (e : Fin 600000) :
    0 ≤ ((m ((c.tc : Thread nD τ).loc main_arg1) : S2x600000.Idx → BitVec 32) (ix2 (0 : Fin 2) e)).toInt
      ∧ ((m ((c.tc : Thread nD τ).loc main_arg1) : S2x600000.Idx → BitVec 32) (ix2 (0 : Fin 2) e)).toInt < 500000 := by
  have h0 := congrFun (h c) ix0
  dsimp only [Cert.Pre_finite_inputs.fn, Cert.Pre_finite_inputs.fn_part1] at h0
  have h1 := (IntOp.andi_eq_one.1 h0).2
  have h2 := IntOp.andi_eq_one.1 (Host.reduce_andi_all _ _ _ _ _ h1 (ix1 e))
  have hge := IntOp.cmpi_sge.1 h2.1
  have hlt := IntOp.cmpi_slt.1 h2.2
  rw [row0_apply] at hge hlt
  have z0 : (0#32 : BitVec 32).toInt = 0 := by decide
  have z1 := StableHlo.Predicate.toInt_ofNat_small 500000 (by decide)
  exact ⟨by
    have hge' : (0#32 : BitVec 32).toInt ≤ _ := hge
    omega, by
    have hlt' : _ < (500000#32 : BitVec 32).toInt := hlt
    omega⟩

/-- Edge e's source node, as a node. -/
def ei0 (m : (ℓ : Loc nD τ sig) → Buf (Elt Ideal) ℓ) (h : Cert.Pre_KernelIdeal m) (c : Dev nD) (e : Fin 600000) : Fin 500000 :=
  ⟨((m ((c.tc : Thread nD τ).loc main_arg1) : S2x600000.Idx → BitVec 32) (ix2 (0 : Fin 2) e)).toInt.toNat, by
    have := ei_of_pre m h c e
    omega⟩

/-- The edge index's row 0 at e, read signed, is that node. -/
theorem ei0_spec (m : (ℓ : Loc nD τ sig) → Buf (Elt Ideal) ℓ) (h : Cert.Pre_KernelIdeal m) (c : Dev nD) (e : Fin 600000) :
    ((m ((c.tc : Thread nD τ).loc main_arg1) : S2x600000.Idx → BitVec 32) (ix2 (0 : Fin 2) e)).toInt
      = ((ei0 m h c e).val : ℤ) := by
  have := ei_of_pre m h c e
  show _ = ((Int.toNat _ : ℕ) : ℤ)
  omega

end Cert.KernelIdeal.HostVals

end
-- ==== Proof.KI.Fin2Value.lean ====
/- Region 2 (the final kernel), the value half.  The region's one grid point moves whole arrays: every window's block
   index is zero on every axis, so each input block is its whole array and the one block the output window writes back
   is the whole output array.  Hence the output array after the region is the body's result on the input arrays as the
   region finds them, at any contents and for any float family.  At the ideal values that result, read at row g and
   column j, is the maximum of zero and
     sum_k (n0[g,k] + n1[g,k]) * wn[j,k] + sum_k (e0[g,k] + e1[g,k]) * we[j,k] + sum_k u[g,k] * wu[j,k] + b[j],
   the additions associated to the left in this order: the narrowing to the short float type is the identity there,
   each product contracts axis 1 of both operands, and the two slabs of a partial-sum block are its two leading
   coordinates. -/
import proofs.«428993_j12077448036507_2_alg».proof.Proof.KI.Fin2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section
-- the core's buffer contents when the region is entered
variable (V : (c : Dev nD) → (b : Ref sig .tc) → Buf (Elt F) ((c : Thread nD τ).loc b))

/-! ## Every block is its whole array -/

/-- At the one grid point every window's block index is zero on every axis (decided over the grid). -/
theorem idx_zero2 : ∀ t : Fin cfg2.N,
    win2_0.index t (0 : Fin 3) = 0
    ∧ win2_0.index t (1 : Fin 3) = 0
    ∧ win2_0.index t (2 : Fin 3) = 0
    ∧ win2_1.index t (0 : Fin 3) = 0
    ∧ win2_1.index t (1 : Fin 3) = 0
    ∧ win2_1.index t (2 : Fin 3) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

/-- Window 0's block is its whole array: the block sits at offset zero and has the array's extents. -/
theorem iblk2_0_eq (c : Dev nD) (t : Fin cfg2.N) : iblk2 V c 0 t = V c main_v5 := by
  obtain ⟨z0_0, z0_1, z0_2, z1_0, z1_1, z1_2, z2_0, z2_1, z3_0, z3_1, z4_0, z4_1, z5_0, z5_1, z6_0, z6_1, z7_0, z7_1⟩ := idx_zero2 t
  funext y
  show V c main_v5 (((cfg2.win 0).blk t).view.emb y) = V c main_v5 y
  refine congrArg _ (funext fun a => Fin.ext ?_)
  match a with
  | ⟨0, _⟩ => show win2_0.index t (0 : Fin 3) * 2 + 1 * (y 0).val = (y 0).val; omega
  | ⟨1, _⟩ => show win2_0.index t (1 : Fin 3) * 1024 + 1 * (y 1).val = (y 1).val; omega
  | ⟨2, _⟩ => show win2_0.index t (2 : Fin 3) * 128 + 1 * (y 2).val = (y 2).val; omega

/-- Window 1's block is its whole array: the block sits at offset zero and has the array's extents. -/
theorem iblk2_1_eq (c : Dev nD) (t : Fin cfg2.N) : iblk2 V c 1 t = V c main_v6 := by
  obtain ⟨z0_0, z0_1, z0_2, z1_0, z1_1, z1_2, z2_0, z2_1, z3_0, z3_1, z4_0, z4_1, z5_0, z5_1, z6_0, z6_1, z7_0, z7_1⟩ := idx_zero2 t
  funext y
  show V c main_v6 (((cfg2.win 1).blk t).view.emb y) = V c main_v6 y
  refine congrArg _ (funext fun a => Fin.ext ?_)
  match a with
  | ⟨0, _⟩ => show win2_1.index t (0 : Fin 3) * 2 + 1 * (y 0).val = (y 0).val; omega
  | ⟨1, _⟩ => show win2_1.index t (1 : Fin 3) * 1024 + 1 * (y 1).val = (y 1).val; omega
  | ⟨2, _⟩ => show win2_1.index t (2 : Fin 3) * 128 + 1 * (y 2).val = (y 2).val; omega

/-- Window 2's block is its whole array: the block sits at offset zero and has the array's extents. -/
theorem iblk2_2_eq (c : Dev nD) (t : Fin cfg2.N) : iblk2 V c 2 t = V c main_arg3 := by
  obtain ⟨z0_0, z0_1, z0_2, z1_0, z1_1, z1_2, z2_0, z2_1, z3_0, z3_1, z4_0, z4_1, z5_0, z5_1, z6_0, z6_1, z7_0, z7_1⟩ := idx_zero2 t
  funext y
  show V c main_arg3 (((cfg2.win 2).blk t).view.emb y) = V c main_arg3 y
  refine congrArg _ (funext fun a => Fin.ext ?_)
  match a with
  | ⟨0, _⟩ => show win2_2.index t (0 : Fin 2) * 1024 + 1 * (y 0).val = (y 0).val; omega
  | ⟨1, _⟩ => show win2_2.index t (1 : Fin 2) * 128 + 1 * (y 1).val = (y 1).val; omega

/-- Window 3's block is its whole array: the block sits at offset zero and has the array's extents. -/
theorem iblk2_3_eq (c : Dev nD) (t : Fin cfg2.N) : iblk2 V c 3 t = V c main_v7 := by
  obtain ⟨z0_0, z0_1, z0_2, z1_0, z1_1, z1_2, z2_0, z2_1, z3_0, z3_1, z4_0, z4_1, z5_0, z5_1, z6_0, z6_1, z7_0, z7_1⟩ := idx_zero2 t
  funext y
  show V c main_v7 (((cfg2.win 3).blk t).view.emb y) = V c main_v7 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block is its whole array: the block sits at offset zero and has the array's extents. -/
theorem iblk2_4_eq (c : Dev nD) (t : Fin cfg2.N) : iblk2 V c 4 t = V c main_v8 := by
  obtain ⟨z0_0, z0_1, z0_2, z1_0, z1_1, z1_2, z2_0, z2_1, z3_0, z3_1, z4_0, z4_1, z5_0, z5_1, z6_0, z6_1, z7_0, z7_1⟩ := idx_zero2 t
  funext y
  show V c main_v8 (((cfg2.win 4).blk t).view.emb y) = V c main_v8 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block is its whole array: the block sits at offset zero and has the array's extents. -/
theorem iblk2_5_eq (c : Dev nD) (t : Fin cfg2.N) : iblk2 V c 5 t = V c main_v9 := by
  obtain ⟨z0_0, z0_1, z0_2, z1_0, z1_1, z1_2, z2_0, z2_1, z3_0, z3_1, z4_0, z4_1, z5_0, z5_1, z6_0, z6_1, z7_0, z7_1⟩ := idx_zero2 t
  funext y
  show V c main_v9 (((cfg2.win 5).blk t).view.emb y) = V c main_v9 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block is its whole array: the block sits at offset zero and has the array's extents. -/
theorem iblk2_6_eq (c : Dev nD) (t : Fin cfg2.N) : iblk2 V c 6 t = V c main_v10 := by
  obtain ⟨z0_0, z0_1, z0_2, z1_0, z1_1, z1_2, z2_0, z2_1, z3_0, z3_1, z4_0, z4_1, z5_0, z5_1, z6_0, z6_1, z7_0, z7_1⟩ := idx_zero2 t
  funext y
  show V c main_v10 (((cfg2.win 6).blk t).view.emb y) = V c main_v10 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-! ## What the one grid point writes back, and the array after the region -/

/-- The output window moves whole blocks and its block is the whole array: writing back contents `G` of the staging
    buffer and reading the array's block of `G` are the same. -/
theorem cut_eq_read2_7 (t : Fin cfg2.N) (G : Vec F S1024x128 .f32) :
    (cfg2.win 7).cut (grid2.coords t) G = ((cfg2.win 7).blk t).view.read (Elt F) G := by
  obtain ⟨z0_0, z0_1, z0_2, z1_0, z1_1, z1_2, z2_0, z2_1, z3_0, z3_1, z4_0, z4_1, z5_0, z5_1, z6_0, z6_1, z7_0, z7_1⟩ := idx_zero2 t
  funext y
  show G y = G (((cfg2.win 7).blk t).view.emb y)
  refine congrArg _ (funext fun a => Fin.ext ?_)
  match a with
  | ⟨0, _⟩ => show (y 0).val = win2_7.index t (0 : Fin 2) * 1024 + 1 * (y 0).val; omega
  | ⟨1, _⟩ => show (y 1).val = win2_7.index t (1 : Fin 2) * 128 + 1 * (y 1).val; omega

/-- What point `t` writes back to the output array is the block at `t` of the body's result on the whole input arrays. -/
theorem flushed2_7_eq (c : Dev nD) (t : Fin cfg2.N) :
    (dat2 V c).flushed 7 t = ((cfg2.win 7).blk t).view.read (Elt F) (out2_7 (V c main_v5) (V c main_v6) (V c main_arg3) (V c main_v7) (V c main_v8) (V c main_v9) (V c main_v10)) := by
  show (cfg2.win 7).cut (grid2.coords t) ((dat2 V c).after 7 t) = _
  rw [after2_7, iblk2_0_eq, iblk2_1_eq, iblk2_2_eq, iblk2_3_eq, iblk2_4_eq, iblk2_5_eq, iblk2_6_eq]
  exact cut_eq_read2_7 t _

/-- An index of the output array is in point `t`'s block iff each coordinate is in the block's range on its axis. -/
theorem mem_blk2_7 (t : Fin cfg2.N) (i : S1024x128.Idx) :
    i ∈ ((cfg2.win 7).blk t).view.set ↔ ∀ a : Fin 2, win2_7.index t a * S1024x128.size a ≤ (i a).val ∧ (i a).val < win2_7.index t a * S1024x128.size a + S1024x128.size a := by
  show i ∈ ((View.whole main_v11).slice (win2_7.rect t)).set ↔ _
  rw [View.set_slice_whole, Rect.mem_set_unit]
  exact Iff.rfl

/-- The one point's block is the whole output array, so every index is covered. -/
theorem covered2_7 (i : S1024x128.Idx) : ∃ t : Fin cfg2.N, (cfg2.win 7).flush t = true ∧ i ∈ ((cfg2.win 7).blk t).view.set := by
  refine ⟨t2_0, flush2_7 t2_0, ?_⟩
  rw [mem_blk2_7]
  obtain ⟨z0_0, z0_1, z0_2, z1_0, z1_1, z1_2, z2_0, z2_1, z3_0, z3_1, z4_0, z4_1, z5_0, z5_1, z6_0, z6_1, z7_0, z7_1⟩ := idx_zero2 t2_0
  intro a
  match a with
  | ⟨0, _⟩ => show win2_7.index t2_0 (0 : Fin 2) * 1024 ≤ (i 0).val ∧ (i 0).val < win2_7.index t2_0 (0 : Fin 2) * 1024 + 1024; have hi : (i 0).val < 1024 := (i 0).isLt; omega
  | ⟨1, _⟩ => show win2_7.index t2_0 (1 : Fin 2) * 128 ≤ (i 1).val ∧ (i 1).val < win2_7.index t2_0 (1 : Fin 2) * 128 + 128; have hi : (i 1).val < 128 := (i 1).isLt; omega

/-- The output array after the region: the body's result on the whole input arrays as the region finds them. -/
theorem arr2_7 (c : Dev nD) : (dat2 V c).arrAt 7 cfg2.N = (out2_7 (V c main_v5) (V c main_v6) (V c main_arg3) (V c main_v7) (V c main_v8) (V c main_v9) (V c main_v10) : Vec F S1024x128 .f32) :=
  (dat2 V c).arrAt_eq_of_cover 7 _ (fun t _ => flushed2_7_eq V c t) covered2_7

end

/-! ## The body's result at an index, at the ideal values -/

theorem zero_off2 : (![0, 0] : Fin 2 → Nat) = fun _ => 0 := funext fun a => by fin_cases a <;> rfl

/-- A load through the first unit-thick slab of a [2,1024,128] block reads the block at leading coordinate 0, -/
theorem ld_slab0 (X : Vec F S2x1024x128 .f32) (g : Fin 1024) (k : Fin 128) :
    View.ld X r2_0 (ix3 (0 : Fin 1) g k) = X (ix3 (0 : Fin 2) g k) :=
  congrArg X (funext fun a => Fin.ext (by
    match a with
    | ⟨0, _⟩ => rfl
    | ⟨1, _⟩ => show 0 + 1 * g.val = g.val; omega
    | ⟨2, _⟩ => show 0 + 1 * k.val = k.val; omega))

/-- and through the second at leading coordinate 1. -/
theorem ld_slab1 (X : Vec F S2x1024x128 .f32) (g : Fin 1024) (k : Fin 128) :
    View.ld X r2_1 (ix3 (0 : Fin 1) g k) = X (ix3 (1 : Fin 2) g k) :=
  congrArg X (funext fun a => Fin.ext (by
    match a with
    | ⟨0, _⟩ => rfl
    | ⟨1, _⟩ => show 0 + 1 * g.val = g.val; omega
    | ⟨2, _⟩ => show 0 + 1 * k.val = k.val; omega))

/-! The product's operand indices: it contracts axis 1 of both operands, so at output index (g, j) and contraction
    position k the left operand is read at (g, k) and the right at (j, k). -/

theorem lhs_dot2_0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
theorem lhs_dot2_1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
theorem rhs_dot2_0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
theorem rhs_dot2_1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- At the ideal values the product into the zero accumulator, read at (g, j), is the sum over k of the left operand
    at (g, k) times the right operand at (j, k). -/
theorem matmul2_apply (a : FVec Ideal S1024x128 .bf16) (b : FVec Ideal S128x128 .bf16) (g : Fin 1024) (j : Fin 128) :
    FloatOps.matmul dot_S1024x128_S128x128_S1024x128_1_1_0_0_n_n none a b (constant (F := Ideal) S1024x128 .f32 0x00000000#32) (ix2 g j)
      = ∑ k : Fin 128, a (ix2 g k) * b (ix2 j k) := by
  rw [Ideal.matmul_constant_zero_apply, ← Equiv.sum_comp (contrEquiv1 dot_S1024x128_S128x128_S1024x128_1_1_0_0_n_n 128 rfl rfl).symm]
  refine Finset.sum_congr rfl fun k _ => ?_
  have hk := contrEquiv1_symm_val dot_S1024x128_S128x128_S1024x128_1_1_0_0_n_n 128 rfl rfl k
  have el : dot_S1024x128_S128x128_S1024x128_1_1_0_0_n_n.lhsIdx (ix2 g j) ((contrEquiv1 dot_S1024x128_S128x128_S1024x128_1_1_0_0_n_n 128 rfl rfl).symm k) = ix2 g k := funext fun a => Fin.ext (by
    match a with
    | ⟨0, _⟩ => exact lhs_dot2_0 _ _
    | ⟨1, _⟩ => exact (lhs_dot2_1 _ _).trans hk)
  have er : dot_S1024x128_S128x128_S1024x128_1_1_0_0_n_n.rhsIdx (ix2 g j) ((contrEquiv1 dot_S1024x128_S128x128_S1024x128_1_1_0_0_n_n 128 rfl rfl).symm k) = ix2 j k := funext fun a => Fin.ext (by
    match a with
    | ⟨0, _⟩ => exact rhs_dot2_0 _ _
    | ⟨1, _⟩ => exact (rhs_dot2_1 _ _).trans hk)
  rw [el, er]

/-- The output block at (g, j), at the ideal values: the maximum of zero and the sum of the three products — the summed
    partial node sums with the first weight block, the summed partial edge sums with the second, the global features
    with the third — and the bias at j. -/
theorem out2_7_apply (x0 x1 : Vec Ideal S2x1024x128 .f32) (x2 : Vec Ideal S1024x128 .f32) (x3 x4 x5 : Vec Ideal S128x128 .f32) (x6 : Vec Ideal S1x128 .f32) (g : Fin 1024) (j : Fin 128) :
    out2_7 (F := Ideal) x0 x1 x2 x3 x4 x5 x6 (ix2 g j)
      = max (((∑ k : Fin 128, (x0 (ix3 (0 : Fin 2) g k) + x0 (ix3 (1 : Fin 2) g k)) * x3 (ix2 j k)
            + ∑ k : Fin 128, (x1 (ix3 (0 : Fin 2) g k) + x1 (ix3 (1 : Fin 2) g k)) * x4 (ix2 j k))
            + ∑ k : Fin 128, x2 (ix2 g k) * x5 (ix2 j k)) + x6 (ix2 (0 : Fin 1) j)) 0 := by
  unfold out2_7
  rw [View.canon_unit_zero zero_off2]
  simp only [View.ld_unit_zero (S := S1024x128) zero_off2, View.ld_unit_zero (S := S128x128) zero_off2, View.ld_unit_zero (S := S1x128) zero_off2]
  unfold k2_pay1 k2_pay2 k2_pay3
  simp only [matmul, maximumf_apply, addf_apply, broadcast_apply, matmul2_apply, truncf_apply, shapeCast_self,
    shapeCast_1ab_ab_apply, broadcastTo_1b_ab_apply, ld_slab0, ld_slab1]
  rw [show (FloatOps.ofBits FTy.f32 0#32 : Ideal .f32) = 0 from Ideal.ofBits_zero_f32]
  refine congrArg (max · 0) (congrArg (· + x6 (ix2 (0 : Fin 1) j)) (congrArg₂ (· + ·) (congrArg₂ (· + ·) (Finset.sum_congr rfl fun k _ => ?_) (Finset.sum_congr rfl fun k _ => ?_)) rfl))
  · rw [ld_slab0, ld_slab1]
  · rw [ld_slab0, ld_slab1]

end Cert.KernelIdeal.Gen

end
-- ==== Proof.KI.Seg0Value.lean ====
/- Region 0 (the node segment sum): the accumulator scratch and the output block after each control case, in closed
   form over the blocks the case was handed.  One step adds, chunk after chunk, the chunk's one-hot product to the
   accumulator: `loopAcc0 x0 x1 a k` is the accumulator after the first `k` chunks of the row block `x0` and the
   segment-word block `x1`, started from `a`.  A resetting step starts from the zero fill, any other step from what
   it found, and the copying step leaves the accumulator's final contents in the output block too. -/
import proofs.«428993_j12077448036507_2_alg».proof.Proof.KI.Seg0Dat
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Chunk `k` of a row block: its 2000 rows from row `2000 * k` on. -/
abbrev xchunk0 (x0 : Vec F S10000x128 .f32) (k : Fin k0_t1_loop.trips) : Vec F S2000x128 .f32 :=
  View.ld x0 (Rect.unit (s := S10000x128) (k0_off1 k) S2000x128.size (k0_off1_inb k))
/-- Chunk `k` of a segment-word block. -/
abbrev schunk0 (x1 : Vec F S10000x1 .i32) (k : Fin k0_t1_loop.trips) : Vec F S2000x1 .i32 :=
  View.ld x1 (Rect.unit (s := S10000x1) (k0_off2 k) S2000x1.size (k0_off2_inb k))

/-- The accumulator after the first `k` chunks, started from `a`. -/
def loopAcc0 (x0 : Vec F S10000x128 .f32) (x1 : Vec F S10000x1 .i32) (a : Vec F S1024x128 .f32) : ℕ → Vec F S1024x128 .f32
  | 0 => a
  | k + 1 => if h : k < k0_t1_loop.trips then k0_pay2 (xchunk0 x0 ⟨k, h⟩) (schunk0 x1 ⟨k, h⟩) (loopAcc0 x0 x1 a k) else loopAcc0 x0 x1 a k

theorem loopAcc0_succ (x0 : Vec F S10000x128 .f32) (x1 : Vec F S10000x1 .i32) (a : Vec F S1024x128 .f32) (k : ℕ) (h : k < k0_t1_loop.trips) :
    loopAcc0 x0 x1 a (k + 1) = k0_pay2 (xchunk0 x0 ⟨k, h⟩) (schunk0 x1 ⟨k, h⟩) (loopAcc0 x0 x1 a k) := by
  rw [loopAcc0]; exact dif_pos h

theorem hzS0 : (![0, 0] : Fin S1024x128.rank → ℕ) = fun _ => 0 := by
  funext a; match a with | ⟨0, _⟩ => rfl | ⟨1, _⟩ => rfl
theorem hzO0 : (![0, 0, 0] : Fin S1x1024x128.rank → ℕ) = fun _ => 0 := by
  funext a; match a with | ⟨0, _⟩ => rfl | ⟨1, _⟩ => rfl | ⟨2, _⟩ => rfl

/-- One chunk's one store: the whole accumulator, at the chunk's payload of what the chunk loaded. -/
theorem tripL0_eq (𝒱 : Variants) (c : Dev nD) (bd : Option 𝒱.V) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole)
    (X2 : BufTy.Contents (Elt F) arg2.view.ty) (X3 : BufTy.Contents (Elt F) arg3.view.ty) (k : Fin k0_t1_loop.trips) (f : BufTy.Contents (Elt F) arg5.view.ty) :
    tripL_k0_t1 (F := F) 𝒱 c bd i arg2 harg2 arg3 harg3 arg4 harg4 arg5 harg5 X2 X3 k f
      = [⟨Rect.unit (s := S1024x128) ![0, 0] S1024x128.size inb_S1024x128_S1024x128_0_0,
          k0_pay2 (View.readAt (Elt F) arg2.view (Rect.unit (s := S10000x128) (k0_off1 k) S2000x128.size (k0_off1_inb k)).toLoadRect X2)
            (View.readAt (Elt F) arg3.view (Rect.unit (s := S10000x1) (k0_off2 k) S2000x1.size (k0_off2_inb k)).toLoadRect X3)
            (View.readAt (Elt F) arg5.view (Rect.unit (s := S1024x128) ![0, 0] S1024x128.size inb_S1024x128_S1024x128_0_0).toLoadRect f)⟩] := by
  show (trip_k0_t1 (F := F) 𝒱 c bd i arg2 harg2 arg3 harg3 arg4 harg4 arg5 harg5 X2 X3 k).1 f = _
  unfold trip_k0_t1; rfl

/-- The accumulator read back after the first `k` chunks' stores over contents `G`. -/
theorem pb0_read (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (x0 : Vec F S10000x128 .f32) (x1 : Vec F S10000x1 .i32)
    (G : BufTy.Contents (Elt F) arg5.view.ty) :
    ∀ k, k ≤ k0_t1_loop.trips →
      arg5.view.read (Elt F) (arg5.view.writes (Elt F) G (pb_k0_t1 (F := F) Variants.none c none i arg2 harg2 arg3 harg3 arg4 harg4 arg5 harg5 (harg2.unread x0) (harg3.unread x1) G k))
        = loopAcc0 x0 x1 (arg5.view.read (Elt F) G) k
  | 0, _ => rfl
  | k + 1, hk => by
    have hk' : k < k0_t1_loop.trips := hk
    have ih := pb0_read c i arg2 harg2 arg3 harg3 arg4 harg4 arg5 harg5 x0 x1 G k (le_of_lt hk')
    rw [show pb_k0_t1 (F := F) Variants.none c none i arg2 harg2 arg3 harg3 arg4 harg4 arg5 harg5 (harg2.unread x0) (harg3.unread x1) G (k + 1) = _ from
      pb_k0_t1_succ (F := F) Variants.none c none i arg2 harg2 arg3 harg3 arg4 harg4 arg5 harg5 (harg2.unread x0) (harg3.unread x1) G ⟨k, hk'⟩]
    rw [tripL0_eq, List.singleton_append]
    rw [View.read_writes_eq_canon _ _ _ (fun y => ⟨_, List.mem_cons_self, View.mem_set_unit_zero hzS0 inb_S1024x128_S1024x128_0_0 y⟩), View.canon_cons_unit_zero hzS0]
    rw [loopAcc0_succ x0 x1 _ k hk']
    rw [View.readAt_eq_ld, View.readAt_eq_ld, View.readAt_eq_ld, harg2.read_unread, harg3.read_unread]
    dsimp only at ih
    rw [ih, View.ld_unit_zero hzS0]

theorem sout0_B_eq (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S10000x128 .f32) (x1 : Vec F S10000x1 .i32) (xs0 : Vec F S1024x128 .f32) :
    sout0_B_0 c i arg2 harg2 arg3 harg3 arg4 harg4 arg5 harg5 hc0 hc1 x0 x1 xs0 = loopAcc0 x0 x1 xs0 k0_t1_loop.trips := by
  have e : (kernelRun0_B c i arg2 harg2 arg3 harg3 arg4 harg4 arg5 harg5 hc0 hc1 x0 x1 xs0).1
      = pb_k0_t1 (F := F) Variants.none c none i arg2 harg2 arg3 harg3 arg4 harg4 arg5 harg5 (harg2.unread x0) (harg3.unread x1) (harg5.unread xs0) k0_t1_loop.trips := by
    unfold kernelRun0_B; rfl
  have h := pb0_read c i arg2 harg2 arg3 harg3 arg4 harg4 arg5 harg5 x0 x1 (harg5.unread xs0) k0_t1_loop.trips le_rfl
  rw [← e, harg5.read_unread, View.read_writes_eq_canon _ _ _ (fun y => scover0_B_0 c i arg2 harg2 arg3 harg3 arg4 harg4 arg5 harg5 hc0 hc1 x0 x1 xs0 y)] at h
  unfold sout0_B_0; rw [View.read_writes_junk_eq_canon]; exact h

theorem sout0_C_eq (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) :
    sout0_C_0 c i arg2 harg2 arg3 harg3 arg4 harg4 arg5 harg5 hc0 hc1 x0 x1 xs0 = loopAcc0 x0 x1 xs0 k0_t1_loop.trips := by
  have e : (kernelRun0_C c i arg2 harg2 arg3 harg3 arg4 harg4 arg5 harg5 hc0 hc1 x0 x1 xs0).2.1
      = pb_k0_t1 (F := F) Variants.none c none i arg2 harg2 arg3 harg3 arg4 harg4 arg5 harg5 (harg2.unread x0) (harg3.unread x1) (harg5.unread xs0) k0_t1_loop.trips := by
    unfold kernelRun0_C; rfl
  have h := pb0_read c i arg2 harg2 arg3 harg3 arg4 harg4 arg5 harg5 x0 x1 (harg5.unread xs0) k0_t1_loop.trips le_rfl
  rw [← e, harg5.read_unread, View.read_writes_eq_canon _ _ _ (fun y => scover0_C_0 c i arg2 harg2 arg3 harg3 arg4 harg4 arg5 harg5 hc0 hc1 x0 x1 xs0 y)] at h
  unfold sout0_C_0; rw [View.read_writes_junk_eq_canon]; exact h

/-- The copying step leaves in the output block the accumulator's final contents, with a unit axis in front. -/
theorem out0_C_eq (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S10000x128 .f32) (x1 : Vec F S10000x1 .i32) (xs0 : Vec F S1024x128 .f32) :
    out0_C_2 c i arg2 harg2 arg3 harg3 arg4 harg4 arg5 harg5 hc0 hc1 x0 x1 xs0 = k0_pay3 (loopAcc0 x0 x1 xs0 k0_t1_loop.trips) := by
  have e : (kernelRun0_C c i arg2 harg2 arg3 harg3 arg4 harg4 arg5 harg5 hc0 hc1 x0 x1 xs0).1
      = [⟨Rect.unit (s := S1x1024x128) ![0, 0, 0] S1x1024x128.size inb_S1x1024x128_S1x1024x128_0_0_0,
          k0_pay3 (kernelRun0_C.sl.v8 c i arg2 harg2 arg3 harg3 arg4 harg4 arg5 harg5 x0 x1 xs0)⟩] := by
    unfold kernelRun0_C; rfl
  have hv : kernelRun0_C.sl.v8 c i arg2 harg2 arg3 harg3 arg4 harg4 arg5 harg5 x0 x1 xs0 = loopAcc0 x0 x1 xs0 k0_t1_loop.trips := by
    unfold kernelRun0_C.sl.v8
    have h := pb0_read c i arg2 harg2 arg3 harg3 arg4 harg4 arg5 harg5 x0 x1 (harg5.unread xs0) k0_t1_loop.trips le_rfl
    rw [harg5.read_unread] at h
    rw [View.readAt_eq_ld]
    exact (congrArg (fun X => View.ld X _) h).trans (View.ld_unit_zero hzS0 _ _)
  unfold out0_C_2
  rw [View.read_writes_junk_eq_canon, e, View.canon_unit_zero hzO0, hv]

theorem sout0_A_eq (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S10000x128 .f32) (x1 : Vec F S10000x1 .i32) :
    sout0_A_0 c i arg2 harg2 arg3 harg3 arg4 harg4 arg5 harg5 hc0 hc1 x0 x1 = loopAcc0 x0 x1 (k0_pay1 (F := F)) k0_t1_loop.trips := by
  have e : (kernelRun0_A c i arg2 harg2 arg3 harg3 arg4 harg4 arg5 harg5 hc0 hc1 x0 x1).1
      = pb_k0_t1 (F := F) Variants.none c none i arg2 harg2 arg3 harg3 arg4 harg4 arg5 harg5 (harg2.unread x0) (harg3.unread x1)
            (arg5.view.writes (Elt F) arg5.view.junk [⟨Rect.unit (s := S1024x128) ![0, 0] S1024x128.size inb_S1024x128_S1024x128_0_0, k0_pay1 (F := F)⟩]) k0_t1_loop.trips
          ++ [⟨Rect.unit (s := S1024x128) ![0, 0] S1024x128.size inb_S1024x128_S1024x128_0_0, k0_pay1 (F := F)⟩] := by
    unfold kernelRun0_A kernelRun0_A.sl.HS0_1; rfl
  have h := pb0_read c i arg2 harg2 arg3 harg3 arg4 harg4 arg5 harg5 x0 x1 (arg5.view.writes (Elt F) arg5.view.junk [⟨Rect.unit (s := S1024x128) ![0, 0] S1024x128.size inb_S1024x128_S1024x128_0_0, k0_pay1 (F := F)⟩]) k0_t1_loop.trips le_rfl
  rw [View.read_writes_junk_eq_canon arg5.view, View.canon_unit_zero hzS0, ← View.writes_append, ← e, View.read_writes_junk_eq_canon] at h
  unfold sout0_A_0; rw [View.read_writes_junk_eq_canon]; exact h

end Cert.KernelIdeal.Gen

end
-- ==== Proof.KI.SegPayload.lean ====
/- The payloads of the two segment-sum kernels read at an index, at the ideal float family.

   Each kernel keeps a [1024,128] accumulator.  Its first store writes the zero array; its per-trip store writes the
   accumulator plus the product of a one-hot matrix with the trip's [2000,128] block of rows, where the one-hot matrix
   has, at row r and column g, the entry 1 when the segment word of row r is the word of g and 0 otherwise; the product
   contracts the row axis of both operands, so its entry at (g, d) is the sum over the 2000 rows r of the one-hot entry
   at (r, g) times the block's entry at (r, d).  Its last store writes the accumulator viewed with a leading unit axis.
   The two kernels (nodes, edges) have the same payload text, so every fact is stated twice. -/
import proofs.«428993_j12077448036507_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.SegPayload

open Cert.KernelIdeal Cert.KernelIdeal.Gen Idealize.ShloMosaic Idealize.ShloMosaic.ValueIdx Idealize.SL.Sem

/-! ## The product's operand indices

The product contracts axis 0 of both operands: at the result index (g, d) and the contraction index r the left
operand is read at (r, g) and the right operand at (r, d). -/

theorem lhs_dot_0 (i : S1024x128.Idx) (q : dot_S2000x1024_S2000x128_S1024x128_0_0_1_1_n_n.contr.Idx) :
    (dot_S2000x1024_S2000x128_S1024x128_0_0_1_1_n_n.lhsIdx i q 0).val = (q ⟨0, by decide⟩).val :=
  dot_S2000x1024_S2000x128_S1024x128_0_0_1_1_n_n.lhsIdx_val_of_single rfl i q
theorem lhs_dot_1 (i : S1024x128.Idx) (q : dot_S2000x1024_S2000x128_S1024x128_0_0_1_1_n_n.contr.Idx) :
    (dot_S2000x1024_S2000x128_S1024x128_0_0_1_1_n_n.lhsIdx i q 1).val = (i 0).val := by
  unfold DotDims.lhsIdx
  rw [dif_neg (show ¬(1 : Fin S2000x1024.rank) ∈ dot_S2000x1024_S2000x128_S1024x128_0_0_1_1_n_n.lhsBatch by decide),
    dif_pos (show (1 : Fin S2000x1024.rank) ∈ dot_S2000x1024_S2000x128_S1024x128_0_0_1_1_n_n.lhsNonContracting by decide)]
  rfl
theorem rhs_dot_0 (i : S1024x128.Idx) (q : dot_S2000x1024_S2000x128_S1024x128_0_0_1_1_n_n.contr.Idx) :
    (dot_S2000x1024_S2000x128_S1024x128_0_0_1_1_n_n.rhsIdx i q 0).val = (q ⟨0, by decide⟩).val :=
  dot_S2000x1024_S2000x128_S1024x128_0_0_1_1_n_n.rhsIdx_val_of_single rfl i q
theorem rhs_dot_1 (i : S1024x128.Idx) (q : dot_S2000x1024_S2000x128_S1024x128_0_0_1_1_n_n.contr.Idx) :
    (dot_S2000x1024_S2000x128_S1024x128_0_0_1_1_n_n.rhsIdx i q 1).val = (i 1).val := by
  unfold DotDims.rhsIdx
  rw [dif_neg (show ¬(1 : Fin S2000x128.rank) ∈ dot_S2000x1024_S2000x128_S1024x128_0_0_1_1_n_n.rhsBatch by decide),
    dif_pos (show (1 : Fin S2000x128.rank) ∈ dot_S2000x1024_S2000x128_S1024x128_0_0_1_1_n_n.rhsNonContracting by decide)]
  rfl

/-- The left operand's index at result index (g, d) and row r is (r, g). -/
theorem lhsIdx_eq (g : Fin 1024) (d : Fin 128) (r : Fin 2000) :
    dot_S2000x1024_S2000x128_S1024x128_0_0_1_1_n_n.lhsIdx (ix2 g d)
        ((contrEquiv1 dot_S2000x1024_S2000x128_S1024x128_0_0_1_1_n_n 2000 rfl rfl).symm r) = ix2 r g := by
  have hk := contrEquiv1_symm_val dot_S2000x1024_S2000x128_S1024x128_0_0_1_1_n_n 2000 rfl rfl r
  exact funext fun a => Fin.ext (by
    match a with
    | ⟨0, _⟩ => exact (lhs_dot_0 _ _).trans hk
    | ⟨1, _⟩ => exact lhs_dot_1 _ _)

/-- The right operand's index at result index (g, d) and row r is (r, d). -/
theorem rhsIdx_eq (g : Fin 1024) (d : Fin 128) (r : Fin 2000) :
    dot_S2000x1024_S2000x128_S1024x128_0_0_1_1_n_n.rhsIdx (ix2 g d)
        ((contrEquiv1 dot_S2000x1024_S2000x128_S1024x128_0_0_1_1_n_n 2000 rfl rfl).symm r) = ix2 r d := by
  have hk := contrEquiv1_symm_val dot_S2000x1024_S2000x128_S1024x128_0_0_1_1_n_n 2000 rfl rfl r
  exact funext fun a => Fin.ext (by
    match a with
    | ⟨0, _⟩ => exact (rhs_dot_0 _ _).trans hk
    | ⟨1, _⟩ => exact rhs_dot_1 _ _)

/-! ## The one-hot matrix's entry

The segment column [2000,1] is laid along 1024 columns, the row of column numbers [1,1024] along 2000 rows; the two are
compared for equality, the bit is widened to a word and the word read as a signed integer: 1 where the segment word of
row r is the word of column g, 0 elsewhere. -/

/-- An [a,1] column broadcast to [a,b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A word compared for equality with another, widened and read as a signed integer, is 1 or 0 as an extended real. -/
theorem onehot_word (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · rw [if_pos h, h]
    simp [IntOp.cmpi]
  · rw [if_neg h]
    have hb : (x == y) = false := beq_eq_false_iff_ne.mpr h
    simp [IntOp.cmpi, hb]

/-! ## The node kernel's payloads -/

/-- The first store's payload is the zero array. -/
theorem pay1_apply (g : Fin 1024) (d : Fin 128) :
    (Cert.KernelIdeal.Gen.k0_pay1 (F := Ideal) : S1024x128.Idx → EReal) (ix2 g d) = 0 := by
  unfold Cert.KernelIdeal.Gen.k0_pay1
  rw [shapeCast_self]
  exact Ideal.ofBits_zero_f32

/-- The last store's payload is the accumulator under a leading unit axis. -/
theorem pay3_apply (v8 : Vec Ideal S1024x128 .f32) (g : Fin 1024) (d : Fin 128) :
    (Cert.KernelIdeal.Gen.k0_pay3 (F := Ideal) v8 : S1x1024x128.Idx → EReal) (ix3 (0 : Fin 1) g d) = v8 (ix2 g d) := by
  unfold Cert.KernelIdeal.Gen.k0_pay3
  exact shapeCast_ab_1ab_apply v8 _ (0 : Fin 1) g d

/-- The per-trip store's payload at (g, d): the accumulator there plus the sum, over the block's 2000 rows, of the
    one-hot entry of the row's segment word against g times the row's entry in column d. -/
theorem pay2_apply (v13 : Vec Ideal S2000x128 .f32) (v16 : Vec Ideal S2000x1 .i32) (v25 : Vec Ideal S1024x128 .f32)
    (g : Fin 1024) (d : Fin 128) :
    (Cert.KernelIdeal.Gen.k0_pay2 (F := Ideal) v13 v16 v25 : S1024x128.Idx → EReal) (ix2 g d)
      = v25 (ix2 g d) + ∑ r : Fin 2000,
          (if v16 (ix2 r (0 : Fin 1)) = BitVec.ofNat 32 g.val then (1 : EReal) else 0) * v13 (ix2 r d) := by
  unfold Cert.KernelIdeal.Gen.k0_pay2
  rw [shapeCast_self, addf_apply]
  congr 1
  refine (Ideal.matmul_constant_zero_apply dot_S2000x1024_S2000x128_S1024x128_0_0_1_1_n_n none _ _ _).trans ?_
  rw [← Equiv.sum_comp (contrEquiv1 dot_S2000x1024_S2000x128_S1024x128_0_0_1_1_n_n 2000 rfl rfl).symm]
  refine Finset.sum_congr rfl fun r _ => ?_
  rw [lhsIdx_eq, rhsIdx_eq, truncf_apply, truncf_apply, sitofp_apply, extui_apply]
  congr 1
  show FloatOps.sitofp (F := Ideal) .f32 ((IntOp.cmpi .eq _ _).setWidth 32) = _
  rw [broadcastTo_a1_ab_apply, broadcastTo_1b_ab_apply, shapeCast_self, iota_single_apply]
  exact onehot_word _ _

/-! ## The edge kernel's payloads (the same text) -/

/-- The first store's payload is the zero array. -/
theorem pay1_apply' (g : Fin 1024) (d : Fin 128) :
    (Cert.KernelIdeal.Gen.k1_pay1 (F := Ideal) : S1024x128.Idx → EReal) (ix2 g d) = 0 := by
  unfold Cert.KernelIdeal.Gen.k1_pay1
  rw [shapeCast_self]
  exact Ideal.ofBits_zero_f32

/-- The last store's payload is the accumulator under a leading unit axis. -/
theorem pay3_apply' (v8 : Vec Ideal S1024x128 .f32) (g : Fin 1024) (d : Fin 128) :
    (Cert.KernelIdeal.Gen.k1_pay3 (F := Ideal) v8 : S1x1024x128.Idx → EReal) (ix3 (0 : Fin 1) g d) = v8 (ix2 g d) := by
  unfold Cert.KernelIdeal.Gen.k1_pay3
  exact shapeCast_ab_1ab_apply v8 _ (0 : Fin 1) g d

/-- The per-trip store's payload at (g, d): the accumulator there plus the sum, over the block's 2000 rows, of the
    one-hot entry of the row's segment word against g times the row's entry in column d. -/
theorem pay2_apply' (v13 : Vec Ideal S2000x128 .f32) (v16 : Vec Ideal S2000x1 .i32) (v25 : Vec Ideal S1024x128 .f32)
    (g : Fin 1024) (d : Fin 128) :
    (Cert.KernelIdeal.Gen.k1_pay2 (F := Ideal) v13 v16 v25 : S1024x128.Idx → EReal) (ix2 g d)
      = v25 (ix2 g d) + ∑ r : Fin 2000,
          (if v16 (ix2 r (0 : Fin 1)) = BitVec.ofNat 32 g.val then (1 : EReal) else 0) * v13 (ix2 r d) := by
  unfold Cert.KernelIdeal.Gen.k1_pay2
  rw [shapeCast_self, addf_apply]
  congr 1
  refine (Ideal.matmul_constant_zero_apply dot_S2000x1024_S2000x128_S1024x128_0_0_1_1_n_n none _ _ _).trans ?_
  rw [← Equiv.sum_comp (contrEquiv1 dot_S2000x1024_S2000x128_S1024x128_0_0_1_1_n_n 2000 rfl rfl).symm]
  refine Finset.sum_congr rfl fun r _ => ?_
  rw [lhsIdx_eq, rhsIdx_eq, truncf_apply, truncf_apply, sitofp_apply, extui_apply]
  congr 1
  show FloatOps.sitofp (F := Ideal) .f32 ((IntOp.cmpi .eq _ _).setWidth 32) = _
  rw [broadcastTo_a1_ab_apply, broadcastTo_1b_ab_apply, shapeCast_self, iota_single_apply]
  exact onehot_word _ _

end Cert.KernelIdeal.SegPayload

end
-- ==== Proof.KI.Seg1Value.lean ====
/- Region 1 (the edge segment sum): the accumulator scratch and the output block after each control case, in closed
   form over the blocks the case was handed.  One step adds, chunk after chunk, the chunk's one-hot product to the
   accumulator: `loopAcc1 x0 x1 a k` is the accumulator after the first `k` chunks of the row block `x0` and the
   segment-word block `x1`, started from `a`.  A resetting step starts from the zero fill, any other step from what
   it found, and the copying step leaves the accumulator's final contents in the output block too. -/
import proofs.«428993_j12077448036507_2_alg».proof.Proof.KI.Seg1Dat
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Chunk `k` of a row block: its 2000 rows from row `2000 * k` on. -/
abbrev xchunk1 (x0 : Vec F S10000x128 .f32) (k : Fin k1_t1_loop.trips) : Vec F S2000x128 .f32 :=
  View.ld x0 (Rect.unit (s := S10000x128) (k1_off1 k) S2000x128.size (k1_off1_inb k))
/-- Chunk `k` of a segment-word block. -/
abbrev schunk1 (x1 : Vec F S10000x1 .i32) (k : Fin k1_t1_loop.trips) : Vec F S2000x1 .i32 :=
  View.ld x1 (Rect.unit (s := S10000x1) (k1_off2 k) S2000x1.size (k1_off2_inb k))

/-- The accumulator after the first `k` chunks, started from `a`. -/
def loopAcc1 (x0 : Vec F S10000x128 .f32) (x1 : Vec F S10000x1 .i32) (a : Vec F S1024x128 .f32) : ℕ → Vec F S1024x128 .f32
  | 0 => a
  | k + 1 => if h : k < k1_t1_loop.trips then k1_pay2 (xchunk1 x0 ⟨k, h⟩) (schunk1 x1 ⟨k, h⟩) (loopAcc1 x0 x1 a k) else loopAcc1 x0 x1 a k

theorem loopAcc1_succ (x0 : Vec F S10000x128 .f32) (x1 : Vec F S10000x1 .i32) (a : Vec F S1024x128 .f32) (k : ℕ) (h : k < k1_t1_loop.trips) :
    loopAcc1 x0 x1 a (k + 1) = k1_pay2 (xchunk1 x0 ⟨k, h⟩) (schunk1 x1 ⟨k, h⟩) (loopAcc1 x0 x1 a k) := by
  rw [loopAcc1]; exact dif_pos h

theorem hzS1 : (![0, 0] : Fin S1024x128.rank → ℕ) = fun _ => 0 := by
  funext a; match a with | ⟨0, _⟩ => rfl | ⟨1, _⟩ => rfl
theorem hzO1 : (![0, 0, 0] : Fin S1x1024x128.rank → ℕ) = fun _ => 0 := by
  funext a; match a with | ⟨0, _⟩ => rfl | ⟨1, _⟩ => rfl | ⟨2, _⟩ => rfl

/-- One chunk's one store: the whole accumulator, at the chunk's payload of what the chunk loaded. -/
theorem tripL1_eq (𝒱 : Variants) (c : Dev nD) (bd : Option 𝒱.V) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole)
    (X2 : BufTy.Contents (Elt F) arg2.view.ty) (X3 : BufTy.Contents (Elt F) arg3.view.ty) (k : Fin k1_t1_loop.trips) (f : BufTy.Contents (Elt F) arg5.view.ty) :
    tripL_k1_t1 (F := F) 𝒱 c bd i arg2 harg2 arg3 harg3 arg4 harg4 arg5 harg5 X2 X3 k f
      = [⟨Rect.unit (s := S1024x128) ![0, 0] S1024x128.size inb_S1024x128_S1024x128_0_0,
          k1_pay2 (View.readAt (Elt F) arg2.view (Rect.unit (s := S10000x128) (k1_off1 k) S2000x128.size (k1_off1_inb k)).toLoadRect X2)
            (View.readAt (Elt F) arg3.view (Rect.unit (s := S10000x1) (k1_off2 k) S2000x1.size (k1_off2_inb k)).toLoadRect X3)
            (View.readAt (Elt F) arg5.view (Rect.unit (s := S1024x128) ![0, 0] S1024x128.size inb_S1024x128_S1024x128_0_0).toLoadRect f)⟩] := by
  show (trip_k1_t1 (F := F) 𝒱 c bd i arg2 harg2 arg3 harg3 arg4 harg4 arg5 harg5 X2 X3 k).1 f = _
  unfold trip_k1_t1; rfl

/-- The accumulator read back after the first `k` chunks' stores over contents `G`. -/
theorem pb1_read (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (x0 : Vec F S10000x128 .f32) (x1 : Vec F S10000x1 .i32)
    (G : BufTy.Contents (Elt F) arg5.view.ty) :
    ∀ k, k ≤ k1_t1_loop.trips →
      arg5.view.read (Elt F) (arg5.view.writes (Elt F) G (pb_k1_t1 (F := F) Variants.none c none i arg2 harg2 arg3 harg3 arg4 harg4 arg5 harg5 (harg2.unread x0) (harg3.unread x1) G k))
        = loopAcc1 x0 x1 (arg5.view.read (Elt F) G) k
  | 0, _ => rfl
  | k + 1, hk => by
    have hk' : k < k1_t1_loop.trips := hk
    have ih := pb1_read c i arg2 harg2 arg3 harg3 arg4 harg4 arg5 harg5 x0 x1 G k (le_of_lt hk')
    rw [show pb_k1_t1 (F := F) Variants.none c none i arg2 harg2 arg3 harg3 arg4 harg4 arg5 harg5 (harg2.unread x0) (harg3.unread x1) G (k + 1) = _ from
      pb_k1_t1_succ (F := F) Variants.none c none i arg2 harg2 arg3 harg3 arg4 harg4 arg5 harg5 (harg2.unread x0) (harg3.unread x1) G ⟨k, hk'⟩]
    rw [tripL1_eq, List.singleton_append]
    rw [View.read_writes_eq_canon _ _ _ (fun y => ⟨_, List.mem_cons_self, View.mem_set_unit_zero hzS1 inb_S1024x128_S1024x128_0_0 y⟩), View.canon_cons_unit_zero hzS1]
    rw [loopAcc1_succ x0 x1 _ k hk']
    rw [View.readAt_eq_ld, View.readAt_eq_ld, View.readAt_eq_ld, harg2.read_unread, harg3.read_unread]
    dsimp only at ih
    rw [ih, View.ld_unit_zero hzS1]

theorem sout1_B_eq (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : ¬cond1_1 i)
    (x0 : Vec F S10000x128 .f32) (x1 : Vec F S10000x1 .i32) (xs0 : Vec F S1024x128 .f32) :
    sout1_B_0 c i arg2 harg2 arg3 harg3 arg4 harg4 arg5 harg5 hc0 hc1 x0 x1 xs0 = loopAcc1 x0 x1 xs0 k1_t1_loop.trips := by
  have e : (kernelRun1_B c i arg2 harg2 arg3 harg3 arg4 harg4 arg5 harg5 hc0 hc1 x0 x1 xs0).1
      = pb_k1_t1 (F := F) Variants.none c none i arg2 harg2 arg3 harg3 arg4 harg4 arg5 harg5 (harg2.unread x0) (harg3.unread x1) (harg5.unread xs0) k1_t1_loop.trips := by
    unfold kernelRun1_B; rfl
  have h := pb1_read c i arg2 harg2 arg3 harg3 arg4 harg4 arg5 harg5 x0 x1 (harg5.unread xs0) k1_t1_loop.trips le_rfl
  rw [← e, harg5.read_unread, View.read_writes_eq_canon _ _ _ (fun y => scover1_B_0 c i arg2 harg2 arg3 harg3 arg4 harg4 arg5 harg5 hc0 hc1 x0 x1 xs0 y)] at h
  unfold sout1_B_0; rw [View.read_writes_junk_eq_canon]; exact h

theorem sout1_C_eq (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) :
    sout1_C_0 c i arg2 harg2 arg3 harg3 arg4 harg4 arg5 harg5 hc0 hc1 x0 x1 xs0 = loopAcc1 x0 x1 xs0 k1_t1_loop.trips := by
  have e : (kernelRun1_C c i arg2 harg2 arg3 harg3 arg4 harg4 arg5 harg5 hc0 hc1 x0 x1 xs0).2.1
      = pb_k1_t1 (F := F) Variants.none c none i arg2 harg2 arg3 harg3 arg4 harg4 arg5 harg5 (harg2.unread x0) (harg3.unread x1) (harg5.unread xs0) k1_t1_loop.trips := by
    unfold kernelRun1_C; rfl
  have h := pb1_read c i arg2 harg2 arg3 harg3 arg4 harg4 arg5 harg5 x0 x1 (harg5.unread xs0) k1_t1_loop.trips le_rfl
  rw [← e, harg5.read_unread, View.read_writes_eq_canon _ _ _ (fun y => scover1_C_0 c i arg2 harg2 arg3 harg3 arg4 harg4 arg5 harg5 hc0 hc1 x0 x1 xs0 y)] at h
  unfold sout1_C_0; rw [View.read_writes_junk_eq_canon]; exact h

/-- The copying step leaves in the output block the accumulator's final contents, with a unit axis in front. -/
theorem out1_C_eq (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond1_0 i) (hc1 : cond1_1 i)
    (x0 : Vec F S10000x128 .f32) (x1 : Vec F S10000x1 .i32) (xs0 : Vec F S1024x128 .f32) :
    out1_C_2 c i arg2 harg2 arg3 harg3 arg4 harg4 arg5 harg5 hc0 hc1 x0 x1 xs0 = k1_pay3 (loopAcc1 x0 x1 xs0 k1_t1_loop.trips) := by
  have e : (kernelRun1_C c i arg2 harg2 arg3 harg3 arg4 harg4 arg5 harg5 hc0 hc1 x0 x1 xs0).1
      = [⟨Rect.unit (s := S1x1024x128) ![0, 0, 0] S1x1024x128.size inb_S1x1024x128_S1x1024x128_0_0_0,
          k1_pay3 (kernelRun1_C.sl.v8 c i arg2 harg2 arg3 harg3 arg4 harg4 arg5 harg5 x0 x1 xs0)⟩] := by
    unfold kernelRun1_C; rfl
  have hv : kernelRun1_C.sl.v8 c i arg2 harg2 arg3 harg3 arg4 harg4 arg5 harg5 x0 x1 xs0 = loopAcc1 x0 x1 xs0 k1_t1_loop.trips := by
    unfold kernelRun1_C.sl.v8
    have h := pb1_read c i arg2 harg2 arg3 harg3 arg4 harg4 arg5 harg5 x0 x1 (harg5.unread xs0) k1_t1_loop.trips le_rfl
    rw [harg5.read_unread] at h
    rw [View.readAt_eq_ld]
    exact (congrArg (fun X => View.ld X _) h).trans (View.ld_unit_zero hzS1 _ _)
  unfold out1_C_2
  rw [View.read_writes_junk_eq_canon, e, View.canon_unit_zero hzO1, hv]

theorem sout1_A_eq (c : Dev nD) (i : grid1.Coords) (arg2 : Memref sig .tc .vmem S10000x128 .f32) (harg2 : arg2.IsWhole) (arg3 : Memref sig .tc .vmem S10000x1 .i32) (harg3 : arg3.IsWhole) (arg4 : Memref sig .tc .vmem S1x1024x128 .f32) (harg4 : arg4.IsWhole) (arg5 : Memref sig .tc .vmem S1024x128 .f32) (harg5 : arg5.IsWhole) (hc0 : cond1_0 i) (hc1 : ¬cond1_1 i)
    (x0 : Vec F S10000x128 .f32) (x1 : Vec F S10000x1 .i32) :
    sout1_A_0 c i arg2 harg2 arg3 harg3 arg4 harg4 arg5 harg5 hc0 hc1 x0 x1 = loopAcc1 x0 x1 (k1_pay1 (F := F)) k1_t1_loop.trips := by
  have e : (kernelRun1_A c i arg2 harg2 arg3 harg3 arg4 harg4 arg5 harg5 hc0 hc1 x0 x1).1
      = pb_k1_t1 (F := F) Variants.none c none i arg2 harg2 arg3 harg3 arg4 harg4 arg5 harg5 (harg2.unread x0) (harg3.unread x1)
            (arg5.view.writes (Elt F) arg5.view.junk [⟨Rect.unit (s := S1024x128) ![0, 0] S1024x128.size inb_S1024x128_S1024x128_0_0, k1_pay1 (F := F)⟩]) k1_t1_loop.trips
          ++ [⟨Rect.unit (s := S1024x128) ![0, 0] S1024x128.size inb_S1024x128_S1024x128_0_0, k1_pay1 (F := F)⟩] := by
    unfold kernelRun1_A kernelRun1_A.sl.HS0_1; rfl
  have h := pb1_read c i arg2 harg2 arg3 harg3 arg4 harg4 arg5 harg5 x0 x1 (arg5.view.writes (Elt F) arg5.view.junk [⟨Rect.unit (s := S1024x128) ![0, 0] S1024x128.size inb_S1024x128_S1024x128_0_0, k1_pay1 (F := F)⟩]) k1_t1_loop.trips le_rfl
  rw [View.read_writes_junk_eq_canon arg5.view, View.canon_unit_zero hzS1, ← View.writes_append, ← e, View.read_writes_junk_eq_canon] at h
  unfold sout1_A_0; rw [View.read_writes_junk_eq_canon]; exact h

end Cert.KernelIdeal.Gen

end
-- ==== Proof.KI.SegBlocks.lean ====
/- The windows' blocks of the two segment-sum regions read at an index, and the partial-sum arrays after each region.

   A region's two input windows walk their arrays in blocks of 10000 rows, the block at a grid point being the point's
   own number: row r of the block at point t is row 10000·t + r of the array.  The output window holds one [1,1024,128]
   slab per core and is written back only at a core's last step, to the slab numbered by the core; the two cores' last
   steps together write both slabs, so after the region the [2,1024,128] array is whatever function of (core, g, d)
   those two write-backs agree with.  Inside a step the body walks a block in chunks of 2000 rows: row r of chunk k is
   row 2000·k + r of the block.  Everything is generic in the float family and stated at a parameter V, the buffer
   contents when the region is entered. -/
import proofs.«428993_j12077448036507_2_alg».proof.Proof.KI.Seg0Dat
import proofs.«428993_j12077448036507_2_alg».proof.Proof.KI.Seg1Dat
import proofs.«428993_j12077448036507_2_alg».proof.Proof.KI.Seg0Value
import proofs.«428993_j12077448036507_2_alg».proof.Proof.KI.Seg1Value
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Region 0 -/

/-- Region 0's index maps over the grid: the input windows' block is the point's own number on the row axis and 0 on
    the column axis; the output window's block is the core, point / 25, on the slab axis and 0 on the others. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 25 ∧ win0_2.index t (1 : Fin 3) = 0 ∧ win0_2.index t (2 : Fin 3) = 0 :=
  (by decide +kernel : ∀ t : Fin grid0.N, _)

section
variable (V : (c : Dev nD) → (b : Ref sig .tc) → Buf (Elt F) ((c : Thread nD τ).loc b))

/-- Row r, column d of the feature window's block at point t is row 10000·t + r, column d of the feature array. -/
theorem iblk0_0_apply (c : Dev nD) (t : Fin cfg0.N) (r : Fin 10000) (d : Fin 128) :
    (iblk0 V c 0 t : S10000x128.Idx → Elt F .f32) (ix2 r d)
      = (V c main_arg0 : S500000x128.Idx → Elt F .f32)
          (ix2 ⟨10000 * t.val + r.val, by have := t.isLt; have h : cfg0.N = 50 := N_0; have := r.isLt; omega⟩ d) := by
  obtain ⟨e0, e1, -⟩ := index_facts0 t
  unfold iblk0
  rw [View.read_apply]
  show V c main_arg0 (((cfg0.win 0).blk t).view.emb (ix2 r d)) = _
  congr 1
  funext a; apply Fin.ext
  match a with
  | ⟨0, _⟩ => show win0_0.index t (0 : Fin 2) * 10000 + 1 * r.val = 10000 * t.val + r.val; omega
  | ⟨1, _⟩ => show win0_0.index t (1 : Fin 2) * 128 + 1 * d.val = d.val; omega

/-- Row r of the segment window's block at point t is row 10000·t + r of the segment column. -/
theorem iblk0_1_apply (c : Dev nD) (t : Fin cfg0.N) (r : Fin 10000) :
    (iblk0 V c 1 t : S10000x1.Idx → Elt F .i32) (ix2 r (0 : Fin 1))
      = (V c main_v0 : S500000x1.Idx → Elt F .i32)
          (ix2 ⟨10000 * t.val + r.val, by have := t.isLt; have h : cfg0.N = 50 := N_0; have := r.isLt; omega⟩ (0 : Fin 1)) := by
  obtain ⟨-, -, e0, e1, -⟩ := index_facts0 t
  unfold iblk0
  rw [View.read_apply]
  show V c main_v0 (((cfg0.win 1).blk t).view.emb (ix2 r (0 : Fin 1))) = _
  congr 1
  funext a; apply Fin.ext
  match a with
  | ⟨0, _⟩ => show win0_1.index t (0 : Fin 2) * 10000 + 1 * r.val = 10000 * t.val + r.val; omega
  | ⟨1, _⟩ => show win0_1.index t (1 : Fin 2) * 1 + 1 * 0 = 0; omega

/-- An index of the partial-sum array is in point t's block iff each coordinate is in the block's range on its axis. -/
theorem mem_blk0_2 (t : Fin cfg0.N) (i : S2x1024x128.Idx) :
    i ∈ ((cfg0.win 2).blk t).view.set ↔ ∀ a : Fin 3, win0_2.index t a * S1x1024x128.size a ≤ (i a).val ∧ (i a).val < win0_2.index t a * S1x1024x128.size a + S1x1024x128.size a := by
  show i ∈ ((View.whole main_v5).slice (win0_2.rect t)).set ↔ _
  rw [View.set_slice_whole, Rect.mem_set_unit]
  exact Iff.rfl

/-- The partial-sum array after the region: any G that each core's last step's output block agrees with, slab by slab. -/
theorem arr0_2_of (c : Dev nD) (G : S2x1024x128.Idx → Elt F .f32)
    (hG : ∀ (t : Fin cfg0.N), t.val % 25 = 24 → ∀ (g : Fin 1024) (d : Fin 128),
      ((dat0 V c).after 2 t : S1x1024x128.Idx → Elt F .f32) (ix3 (0 : Fin 1) g d)
        = G (ix3 ⟨t.val / 25, by have := t.isLt; have h : cfg0.N = 50 := N_0; omega⟩ g d)) :
    (dat0 V c).arrAt 2 cfg0.N = G := by
  refine (dat0 V c).arrAt_eq_of_cover 2 G (fun t hf => ?_) (fun i => ?_)
  · have ht := (flush0_2 t).mp hf
    obtain ⟨-, -, -, -, e0, e1, e2⟩ := index_facts0 t
    funext y
    obtain ⟨u, g, d, rfl⟩ : ∃ (u : Fin 1) (g : Fin 1024) (d : Fin 128), y = ix3 u g d := ⟨y 0, y 1, y 2, eq_ix3 y⟩
    obtain rfl : u = 0 := Subsingleton.elim _ _
    rw [View.read_apply]
    show ((dat0 V c).after 2 t : S1x1024x128.Idx → Elt F .f32) (ix3 (0 : Fin 1) g d) = G (((cfg0.win 2).blk t).view.emb (ix3 (0 : Fin 1) g d))
    rw [hG t ht g d]
    congr 1
    funext a; apply Fin.ext
    match a with
    | ⟨0, _⟩ => show t.val / 25 = win0_2.index t (0 : Fin 3) * 1 + 1 * 0; omega
    | ⟨1, _⟩ => show g.val = win0_2.index t (1 : Fin 3) * 1024 + 1 * g.val; omega
    | ⟨2, _⟩ => show d.val = win0_2.index t (2 : Fin 3) * 128 + 1 * d.val; omega
  · have hi0 : (i 0).val < 2 := (i 0).isLt
    have hi1 : (i 1).val < 1024 := (i 1).isLt
    have hi2 : (i 2).val < 128 := (i 2).isLt
    have hN : cfg0.N = 50 := N_0
    let t : Fin cfg0.N := ⟨25 * (i 0).val + 24, by omega⟩
    have htv : t.val = 25 * (i 0).val + 24 := rfl
    obtain ⟨-, -, -, -, e0, e1, e2⟩ := index_facts0 t
    refine ⟨t, (flush0_2 t).mpr (by omega), ?_⟩
    rw [mem_blk0_2]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1024 ≤ (i 1).val ∧ (i 1).val < win0_2.index t (1 : Fin 3) * 1024 + 1024; omega
    | ⟨2, _⟩ => show win0_2.index t (2 : Fin 3) * 128 ≤ (i 2).val ∧ (i 2).val < win0_2.index t (2 : Fin 3) * 128 + 128; omega

end

/-! ## Region 0: the chunks of a block -/

/-- Row r, column d of chunk k of a row block is row 2000·k + r, column d of the block. -/
theorem xchunk0_apply (x0 : Vec F S10000x128 .f32) (k : Fin k0_t1_loop.trips) (r : Fin 2000) (d : Fin 128) :
    (xchunk0 x0 k : S2000x128.Idx → Elt F .f32) (ix2 r d)
      = x0 (ix2 ⟨2000 * k.val + r.val, by have := Nat.lt_of_lt_of_le k.isLt k0_t1_abs.2.1; have := r.isLt; omega⟩ d) := by
  have e0 : k0_off1 k (0 : Fin 2) = 2000 * k.val := by rw [k0_off1_eq]; rfl
  have e1 : k0_off1 k (1 : Fin 2) = 0 := by rw [k0_off1_eq]; rfl
  show x0 ((Rect.unit (s := S10000x128) (k0_off1 k) S2000x128.size (k0_off1_inb k)).idx (ix2 r d)) = _
  congr 1
  funext a; apply Fin.ext
  match a with
  | ⟨0, _⟩ => show k0_off1 k (0 : Fin 2) + 1 * r.val = 2000 * k.val + r.val; omega
  | ⟨1, _⟩ => show k0_off1 k (1 : Fin 2) + 1 * d.val = d.val; omega

/-- Row r of chunk k of a segment-word block is row 2000·k + r of the block. -/
theorem schunk0_apply (x1 : Vec F S10000x1 .i32) (k : Fin k0_t1_loop.trips) (r : Fin 2000) :
    (schunk0 x1 k : S2000x1.Idx → Elt F .i32) (ix2 r (0 : Fin 1))
      = x1 (ix2 ⟨2000 * k.val + r.val, by have := Nat.lt_of_lt_of_le k.isLt k0_t1_abs.2.1; have := r.isLt; omega⟩ (0 : Fin 1)) := by
  have e0 : k0_off2 k (0 : Fin 2) = 2000 * k.val := by rw [k0_off2_eq]; rfl
  have e1 : k0_off2 k (1 : Fin 2) = 0 := by rw [k0_off2_eq]; rfl
  show x1 ((Rect.unit (s := S10000x1) (k0_off2 k) S2000x1.size (k0_off2_inb k)).idx (ix2 r (0 : Fin 1))) = _
  congr 1
  funext a; apply Fin.ext
  match a with
  | ⟨0, _⟩ => show k0_off2 k (0 : Fin 2) + 1 * r.val = 2000 * k.val + r.val; omega
  | ⟨1, _⟩ => show k0_off2 k (1 : Fin 2) + 1 * 0 = 0; omega

/-! ## Region 1 -/

/-- Region 1's index maps over the grid: the input windows' block is the point's own number on the row axis and 0 on
    the column axis; the output window's block is the core, point / 30, on the slab axis and 0 on the others. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 30 ∧ win1_2.index t (1 : Fin 3) = 0 ∧ win1_2.index t (2 : Fin 3) = 0 :=
  (by decide +kernel : ∀ t : Fin grid1.N, _)

section
variable (V : (c : Dev nD) → (b : Ref sig .tc) → Buf (Elt F) ((c : Thread nD τ).loc b))

/-- Row r, column d of the feature window's block at point t is row 10000·t + r, column d of the feature array. -/
theorem iblk1_0_apply (c : Dev nD) (t : Fin cfg1.N) (r : Fin 10000) (d : Fin 128) :
    (iblk1 V c 0 t : S10000x128.Idx → Elt F .f32) (ix2 r d)
      = (V c main_arg2 : S600000x128.Idx → Elt F .f32)
          (ix2 ⟨10000 * t.val + r.val, by have := t.isLt; have h : cfg1.N = 60 := N_1; have := r.isLt; omega⟩ d) := by
  obtain ⟨e0, e1, -⟩ := index_facts1 t
  unfold iblk1
  rw [View.read_apply]
  show V c main_arg2 (((cfg1.win 0).blk t).view.emb (ix2 r d)) = _
  congr 1
  funext a; apply Fin.ext
  match a with
  | ⟨0, _⟩ => show win1_0.index t (0 : Fin 2) * 10000 + 1 * r.val = 10000 * t.val + r.val; omega
  | ⟨1, _⟩ => show win1_0.index t (1 : Fin 2) * 128 + 1 * d.val = d.val; omega

/-- Row r of the segment window's block at point t is row 10000·t + r of the segment column. -/
theorem iblk1_1_apply (c : Dev nD) (t : Fin cfg1.N) (r : Fin 10000) :
    (iblk1 V c 1 t : S10000x1.Idx → Elt F .i32) (ix2 r (0 : Fin 1))
      = (V c main_v4 : S600000x1.Idx → Elt F .i32)
          (ix2 ⟨10000 * t.val + r.val, by have := t.isLt; have h : cfg1.N = 60 := N_1; have := r.isLt; omega⟩ (0 : Fin 1)) := by
  obtain ⟨-, -, e0, e1, -⟩ := index_facts1 t
  unfold iblk1
  rw [View.read_apply]
  show V c main_v4 (((cfg1.win 1).blk t).view.emb (ix2 r (0 : Fin 1))) = _
  congr 1
  funext a; apply Fin.ext
  match a with
  | ⟨0, _⟩ => show win1_1.index t (0 : Fin 2) * 10000 + 1 * r.val = 10000 * t.val + r.val; omega
  | ⟨1, _⟩ => show win1_1.index t (1 : Fin 2) * 1 + 1 * 0 = 0; omega

/-- An index of the partial-sum array is in point t's block iff each coordinate is in the block's range on its axis. -/
theorem mem_blk1_2 (t : Fin cfg1.N) (i : S2x1024x128.Idx) :
    i ∈ ((cfg1.win 2).blk t).view.set ↔ ∀ a : Fin 3, win1_2.index t a * S1x1024x128.size a ≤ (i a).val ∧ (i a).val < win1_2.index t a * S1x1024x128.size a + S1x1024x128.size a := by
  show i ∈ ((View.whole main_v6).slice (win1_2.rect t)).set ↔ _
  rw [View.set_slice_whole, Rect.mem_set_unit]
  exact Iff.rfl

/-- The partial-sum array after the region: any G that each core's last step's output block agrees with, slab by slab. -/
theorem arr1_2_of (c : Dev nD) (G : S2x1024x128.Idx → Elt F .f32)
    (hG : ∀ (t : Fin cfg1.N), t.val % 30 = 29 → ∀ (g : Fin 1024) (d : Fin 128),
      ((dat1 V c).after 2 t : S1x1024x128.Idx → Elt F .f32) (ix3 (0 : Fin 1) g d)
        = G (ix3 ⟨t.val / 30, by have := t.isLt; have h : cfg1.N = 60 := N_1; omega⟩ g d)) :
    (dat1 V c).arrAt 2 cfg1.N = G := by
  refine (dat1 V c).arrAt_eq_of_cover 2 G (fun t hf => ?_) (fun i => ?_)
  · have ht := (flush1_2 t).mp hf
    obtain ⟨-, -, -, -, e0, e1, e2⟩ := index_facts1 t
    funext y
    obtain ⟨u, g, d, rfl⟩ : ∃ (u : Fin 1) (g : Fin 1024) (d : Fin 128), y = ix3 u g d := ⟨y 0, y 1, y 2, eq_ix3 y⟩
    obtain rfl : u = 0 := Subsingleton.elim _ _
    rw [View.read_apply]
    show ((dat1 V c).after 2 t : S1x1024x128.Idx → Elt F .f32) (ix3 (0 : Fin 1) g d) = G (((cfg1.win 2).blk t).view.emb (ix3 (0 : Fin 1) g d))
    rw [hG t ht g d]
    congr 1
    funext a; apply Fin.ext
    match a with
    | ⟨0, _⟩ => show t.val / 30 = win1_2.index t (0 : Fin 3) * 1 + 1 * 0; omega
    | ⟨1, _⟩ => show g.val = win1_2.index t (1 : Fin 3) * 1024 + 1 * g.val; omega
    | ⟨2, _⟩ => show d.val = win1_2.index t (2 : Fin 3) * 128 + 1 * d.val; omega
  · have hi0 : (i 0).val < 2 := (i 0).isLt
    have hi1 : (i 1).val < 1024 := (i 1).isLt
    have hi2 : (i 2).val < 128 := (i 2).isLt
    have hN : cfg1.N = 60 := N_1
    let t : Fin cfg1.N := ⟨30 * (i 0).val + 29, by omega⟩
    have htv : t.val = 30 * (i 0).val + 29 := rfl
    obtain ⟨-, -, -, -, e0, e1, e2⟩ := index_facts1 t
    refine ⟨t, (flush1_2 t).mpr (by omega), ?_⟩
    rw [mem_blk1_2]
    intro a
    match a with
    | ⟨0, _⟩ => show win1_2.index t (0 : Fin 3) * 1 ≤ (i 0).val ∧ (i 0).val < win1_2.index t (0 : Fin 3) * 1 + 1; omega
    | ⟨1, _⟩ => show win1_2.index t (1 : Fin 3) * 1024 ≤ (i 1).val ∧ (i 1).val < win1_2.index t (1 : Fin 3) * 1024 + 1024; omega
    | ⟨2, _⟩ => show win1_2.index t (2 : Fin 3) * 128 ≤ (i 2).val ∧ (i 2).val < win1_2.index t (2 : Fin 3) * 128 + 128; omega

end

/-! ## Region 1: the chunks of a block -/

/-- Row r, column d of chunk k of a row block is row 2000·k + r, column d of the block. -/
theorem xchunk1_apply (x0 : Vec F S10000x128 .f32) (k : Fin k1_t1_loop.trips) (r : Fin 2000) (d : Fin 128) :
    (xchunk1 x0 k : S2000x128.Idx → Elt F .f32) (ix2 r d)
      = x0 (ix2 ⟨2000 * k.val + r.val, by have := Nat.lt_of_lt_of_le k.isLt k1_t1_abs.2.1; have := r.isLt; omega⟩ d) := by
  have e0 : k1_off1 k (0 : Fin 2) = 2000 * k.val := by rw [k1_off1_eq]; rfl
  have e1 : k1_off1 k (1 : Fin 2) = 0 := by rw [k1_off1_eq]; rfl
  show x0 ((Rect.unit (s := S10000x128) (k1_off1 k) S2000x128.size (k1_off1_inb k)).idx (ix2 r d)) = _
  congr 1
  funext a; apply Fin.ext
  match a with
  | ⟨0, _⟩ => show k1_off1 k (0 : Fin 2) + 1 * r.val = 2000 * k.val + r.val; omega
  | ⟨1, _⟩ => show k1_off1 k (1 : Fin 2) + 1 * d.val = d.val; omega

/-- Row r of chunk k of a segment-word block is row 2000·k + r of the block. -/
theorem schunk1_apply (x1 : Vec F S10000x1 .i32) (k : Fin k1_t1_loop.trips) (r : Fin 2000) :
    (schunk1 x1 k : S2000x1.Idx → Elt F .i32) (ix2 r (0 : Fin 1))
      = x1 (ix2 ⟨2000 * k.val + r.val, by have := Nat.lt_of_lt_of_le k.isLt k1_t1_abs.2.1; have := r.isLt; omega⟩ (0 : Fin 1)) := by
  have e0 : k1_off2 k (0 : Fin 2) = 2000 * k.val := by rw [k1_off2_eq]; rfl
  have e1 : k1_off2 k (1 : Fin 2) = 0 := by rw [k1_off2_eq]; rfl
  show x1 ((Rect.unit (s := S10000x1) (k1_off2 k) S2000x1.size (k1_off2_inb k)).idx (ix2 r (0 : Fin 1))) = _
  congr 1
  funext a; apply Fin.ext
  match a with
  | ⟨0, _⟩ => show k1_off2 k (0 : Fin 2) + 1 * r.val = 2000 * k.val + r.val; omega
  | ⟨1, _⟩ => show k1_off2 k (1 : Fin 2) + 1 * 0 = 0; omega

end Cert.KernelIdeal.Gen

end
-- ==== Proof.Spec.lean ====
/- The result both programs compute, as one function of the seven argument arrays, over the extended reals.
   A segment sum adds, for segment g, the rows whose 32-bit segment word, read signed, is g (a word outside [0, 1024)
   belongs to no segment).  The output row of graph g is the rectified affine image of the three concatenated 128-wide
   feature rows (node sum, edge sum, global feature) under the 128 x 384 weight matrix, written as three 128-term dot
   products added in the order node, edge, global, then the bias. -/
import Idealize.ShloMosaic.PureOps.Ideal
import Idealize.ShloMosaic.Lib.ValueIdx

noncomputable section

namespace Cert.Spec

open Idealize.ShloMosaic Idealize.ShloMosaic.ValueIdx
open scoped BigOperators

/-- The sum of the rows `v e` over the rows `e` whose segment word, read signed, is `g`. -/
def segsum {E : Nat} (seg : Fin E → BitVec 32) (v : Fin E → Fin 128 → EReal) (g : Fin 1024) (d : Fin 128) : EReal :=
  ∑ e ∈ Finset.univ.filter (fun e : Fin E => (seg e).toInt = (g.val : ℤ)), v e d

/-- Column `p * 128 + k` of a 384-wide row, for the part `p < 3`. -/
def col (p : Fin 3) (k : Fin 128) : Fin 384 := ⟨p.val * 128 + k.val, by have := p.isLt; have := k.isLt; omega⟩

/-- The affine map before the rectifier: node part, plus edge part, plus global part, plus bias. -/
def lin (node edge uu : Fin 1024 → Fin 128 → EReal) (W : Fin 128 → Fin 384 → EReal) (b : Fin 128 → EReal)
    (g : Fin 1024) (j : Fin 128) : EReal :=
  ((∑ k : Fin 128, node g k * W j (col 0 k) + ∑ k : Fin 128, edge g k * W j (col 1 k))
      + ∑ k : Fin 128, uu g k * W j (col 2 k)) + b j

/-- The segment word of edge `e`: the node segment word at the edge's first end point `ei0 e` (an in-range node index). -/
def eseg (batch : Fin 500000 → BitVec 32) (ei0 : Fin 600000 → Fin 500000) (e : Fin 600000) : BitVec 32 := batch (ei0 e)

/-- The result array: for graph `i 0` and output feature `i 1`, the rectified affine image of the node segment sum
    of `x` by `batch`, the edge segment sum of `ea` by the node segment word at each edge's first end point, and `u`. -/
def result (x : (⟨2, ![500000, 128]⟩ : Shape).Idx → EReal) (ea : (⟨2, ![600000, 128]⟩ : Shape).Idx → EReal)
    (u : (⟨2, ![1024, 128]⟩ : Shape).Idx → EReal) (batch : (⟨1, ![500000]⟩ : Shape).Idx → BitVec 32)
    (W : (⟨2, ![128, 384]⟩ : Shape).Idx → EReal) (b : (⟨1, ![128]⟩ : Shape).Idx → EReal)
    (ei0 : Fin 600000 → Fin 500000) : (⟨2, ![1024, 128]⟩ : Shape).Idx → EReal :=
  fun i => max (lin (segsum (fun r : Fin 500000 => batch (ix1 r)) (fun r d => x (ix2 r d)))
      (segsum (eseg (fun r : Fin 500000 => batch (ix1 r)) ei0) (fun e d => ea (ix2 e d)))
      (fun g k => u (ix2 g k)) (fun j k => W (ix2 j k)) (fun j => b (ix1 j)) (i 0) (i 1)) 0

end Cert.Spec

end
-- ==== Proof.LibSegmentSum.lean ====
import Mathlib.Data.EReal.Inv
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

/-!
# Segment sums and gathers written as one-hot matrix products

A gather `h[src e]` can be computed as the product of a one-hot row `(src e = k)_k` with `h`,
and a scatter-add (segment sum) `∑_{e : dst e = n} m e` as the product of the transposed
one-hot matrix `(n = dst e)_e` with `m`; either product can be accumulated block by block.
The lemmas of this file say that these products are the plain gather and the plain segment sum,
over the extended reals (where `0 * x = 0` for every `x`, infinite ones included) and with
node identifiers read as 32-bit two's complement words.
-/

namespace Cert.LibSegmentSum

open Finset

/-! ## Sums read block by block -/

/-- The position `a * B + b` of the `b`-th entry of the `a`-th block lies below `A * B`. -/
theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

/-- A sum over `A * B` positions is the sum over the `A` blocks of the sums over the `B`
positions `a * B + b` of each block. -/
theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

/-- An accumulator that starts at `0` and adds `g a` at step `a` holds `∑ a < A, g a`
after `A` steps. -/
theorem acc_eq_sum {M : Type*} [AddCommMonoid M] (A : ℕ) (g : ℕ → M) (acc : ℕ → M)
    (h0 : acc 0 = 0) (hs : ∀ a, a < A → acc (a + 1) = acc a + g a) :
    acc A = ∑ a : Fin A, g a.val := by
  induction A with
  | zero => simpa using h0
  | succ A ih =>
    rw [hs A (Nat.lt_succ_self A), ih (fun a ha => hs a (Nat.lt_succ_of_lt ha)),
      Fin.sum_univ_castSucc]
    rfl

/-- The accumulator recursion of a blocked sum: starting at `0` and adding at step `a` the
partial sum `0 + ∑ b, f (a * B + b)` of block `a` gives, after `A` steps, the whole sum. -/
theorem acc_blocks {M : Type*} [AddCommMonoid M] (A B : ℕ) (f : Fin (A * B) → M) (acc : ℕ → M)
    (h0 : acc 0 = 0)
    (hs : ∀ a (ha : a < A), acc (a + 1)
      = acc a + (0 + ∑ b : Fin B, f ⟨a * B + b.val, blk_lt ⟨a, ha⟩ b⟩)) :
    acc A = ∑ n : Fin (A * B), f n := by
  have h := acc_eq_sum A
    (fun a => if ha : a < A then (0 + ∑ b : Fin B, f ⟨a * B + b.val, blk_lt ⟨a, ha⟩ b⟩) else 0)
    acc h0 (fun a ha => by rw [hs a ha, dif_pos ha])
  rw [h, ← sum_blocks]
  refine Fintype.sum_congr _ _ fun a => ?_
  rw [dif_pos a.isLt, zero_add]

/-- `sum_blocks` at `125` blocks of `800`: a sum over `100000` positions. -/
theorem sum_blocks_125_800 {M : Type*} [AddCommMonoid M] (f : Fin 100000 → M) :
    ∑ a : Fin 125, ∑ b : Fin 800, f ⟨a.val * 800 + b.val, blk_lt (A := 125) a b⟩
      = ∑ n : Fin 100000, f n :=
  sum_blocks 125 800 f

/-- `sum_blocks` at `208` blocks of `8192`: a sum over `1703936` positions. -/
theorem sum_blocks_208_8192 {M : Type*} [AddCommMonoid M] (f : Fin 1703936 → M) :
    ∑ a : Fin 208, ∑ b : Fin 8192, f ⟨a.val * 8192 + b.val, blk_lt (A := 208) a b⟩
      = ∑ n : Fin 1703936, f n :=
  sum_blocks 208 8192 f

/-- `acc_blocks` at `125` blocks of `800`. -/
theorem acc_blocks_125_800 {M : Type*} [AddCommMonoid M] (f : Fin 100000 → M) (acc : ℕ → M)
    (h0 : acc 0 = 0)
    (hs : ∀ a (ha : a < 125), acc (a + 1)
      = acc a + (0 + ∑ b : Fin 800, f ⟨a * 800 + b.val, blk_lt (A := 125) ⟨a, ha⟩ b⟩)) :
    acc 125 = ∑ n : Fin 100000, f n :=
  acc_blocks 125 800 f acc h0 hs

/-- `acc_blocks` at `208` blocks of `8192`. -/
theorem acc_blocks_208_8192 {M : Type*} [AddCommMonoid M] (f : Fin 1703936 → M) (acc : ℕ → M)
    (h0 : acc 0 = 0)
    (hs : ∀ a (ha : a < 208), acc (a + 1)
      = acc a + (0 + ∑ b : Fin 8192, f ⟨a * 8192 + b.val, blk_lt (A := 208) ⟨a, ha⟩ b⟩)) :
    acc 208 = ∑ n : Fin 1703936, f n :=
  acc_blocks 208 8192 f acc h0 hs

/-! ## Node identifiers as 32-bit words -/

/-- A natural number below `2^31`, written as a 32-bit word, reads back as itself in two's
complement. -/
theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

/-- A word whose two's complement value lies in `[0, N)` has a natural value below `N`. -/
theorem toNat_lt_of_range {s : BitVec 32} {N : ℕ} (hs : 0 ≤ s.toInt ∧ s.toInt < (N : ℤ)) :
    s.toInt.toNat < N := by
  obtain ⟨h0, h1⟩ := hs
  omega

/-- For `n < 2^31`, a word equals the word of `n` exactly when its two's complement value
is `n`. -/
theorem eq_ofNat_iff (s : BitVec 32) (n : ℕ) (hn : n < 2 ^ 31) :
    s = BitVec.ofNat 32 n ↔ s.toInt = (n : ℤ) := by
  rw [← BitVec.toInt_inj, toInt_ofNat_small n hn]

/-- The same with the two sides of the equation exchanged. -/
theorem ofNat_eq_iff (s : BitVec 32) (n : ℕ) (hn : n < 2 ^ 31) :
    BitVec.ofNat 32 n = s ↔ s.toInt = (n : ℤ) := by
  rw [eq_comm]; exact eq_ofNat_iff s n hn

/-! ## One-hot selection -/

/-- The product of the one-hot row of an in-range identifier `s` with a column `h` is the
entry `h s`: a gather. -/
theorem onehot_select (N : ℕ) (hN : N ≤ 2 ^ 31) (s : BitVec 32) (h : Fin N → EReal)
    (hs : 0 ≤ s.toInt ∧ s.toInt < (N : ℤ)) :
    ∑ n : Fin N, (if s = BitVec.ofNat 32 n.val then (1 : EReal) else 0) * h n
      = h ⟨s.toInt.toNat, toNat_lt_of_range hs⟩ := by
  have key : ∀ n : Fin N, s = BitVec.ofNat 32 n.val ↔ n = ⟨s.toInt.toNat, toNat_lt_of_range hs⟩ := by
    intro n
    have hn := n.isLt
    rw [eq_ofNat_iff s n.val (by omega), Fin.ext_iff]
    show s.toInt = (n.val : ℤ) ↔ n.val = s.toInt.toNat
    obtain ⟨h0, h1⟩ := hs
    omega
  simp only [key, ite_mul, one_mul, zero_mul]
  rw [Finset.sum_ite_eq']
  exact if_pos (mem_univ _)

/-- The one-hot row of an identifier that is negative or not below `N` is zero, and so is its
product with any column. -/
theorem onehot_select_out (N : ℕ) (hN : N ≤ 2 ^ 31) (s : BitVec 32) (h : Fin N → EReal)
    (hs : s.toInt < 0 ∨ (N : ℤ) ≤ s.toInt) :
    ∑ n : Fin N, (if s = BitVec.ofNat 32 n.val then (1 : EReal) else 0) * h n = 0 := by
  refine Finset.sum_eq_zero fun n _ => ?_
  have hn := n.isLt
  have hne : ¬ s = BitVec.ofNat 32 n.val := by
    rw [eq_ofNat_iff s n.val (by omega)]
    omega
  rw [if_neg hne, zero_mul]

/-! ## A message-passing layer with zero padding -/

/-- Gather, weight and scatter-add as two one-hot products over a zero-padded edge list:
for `E` edges `(src e, dst e)` with weights `nrm e`, every `src e` in `[0, N)`, extended by
`P` padding edges of weight `0` (whatever their end points), the product of the transposed
one-hot matrix of the destinations with the weighted gathered rows is the segment sum
`∑_{e : dst e = n} nrm e * h (src e)`.  Nothing is asked of `dst`: a destination that is
negative or not below `N` matches no `n` on either side. -/
theorem layer_padded (N E P : ℕ) (hN : N ≤ 2 ^ 31)
    (src dst : Fin E → BitVec 32) (nrm : Fin E → EReal) (h : Fin N → EReal)
    (hsrc : ∀ e, 0 ≤ (src e).toInt ∧ (src e).toInt < (N : ℤ))
    (srcP dstP : Fin (E + P) → BitVec 32) (nrmP : Fin (E + P) → EReal)
    (hsrcP : ∀ (e : Fin (E + P)) (he : e.val < E), srcP e = src ⟨e.val, he⟩)
    (hdstP : ∀ (e : Fin (E + P)) (he : e.val < E), dstP e = dst ⟨e.val, he⟩)
    (hnrmP : ∀ (e : Fin (E + P)) (he : e.val < E), nrmP e = nrm ⟨e.val, he⟩)
    (hnrm0 : ∀ e : Fin (E + P), E ≤ e.val → nrmP e = 0)
    (n : Fin N) :
    ∑ e : Fin (E + P), (if BitVec.ofNat 32 n.val = dstP e then (1 : EReal) else 0)
        * ((∑ k : Fin N, (if srcP e = BitVec.ofNat 32 k.val then (1 : EReal) else 0) * h k)
            * nrmP e)
      = ∑ e ∈ Finset.univ.filter (fun e : Fin E => (dst e).toInt = (n.val : ℤ)),
          nrm e * h ⟨(src e).toInt.toNat, toNat_lt_of_range (hsrc e)⟩ := by
  have hn : n.val < 2 ^ 31 := lt_of_lt_of_le n.isLt hN
  rw [Fin.sum_univ_add]
  -- the padding edges carry weight zero
  have hpad : ∑ i : Fin P, (if BitVec.ofNat 32 n.val = dstP (Fin.natAdd E i) then (1 : EReal) else 0)
        * ((∑ k : Fin N, (if srcP (Fin.natAdd E i) = BitVec.ofNat 32 k.val then (1 : EReal) else 0)
              * h k) * nrmP (Fin.natAdd E i)) = 0 :=
    Finset.sum_eq_zero fun i _ => by
      rw [hnrm0 (Fin.natAdd E i) (Nat.le_add_right E i.val), mul_zero, mul_zero]
  rw [hpad, add_zero, Finset.sum_filter]
  refine Fintype.sum_congr _ _ fun e => ?_
  have he : (Fin.castAdd P e).val < E := e.isLt
  rw [hsrcP _ he, hdstP _ he, hnrmP _ he]
  show (if BitVec.ofNat 32 n.val = dst e then (1 : EReal) else 0)
      * ((∑ k : Fin N, (if src e = BitVec.ofNat 32 k.val then (1 : EReal) else 0) * h k) * nrm e)
    = if (dst e).toInt = (n.val : ℤ) then
        nrm e * h ⟨(src e).toInt.toNat, toNat_lt_of_range (hsrc e)⟩ else 0
  rw [onehot_select N hN (src e) h (hsrc e)]
  by_cases hd : (dst e).toInt = (n.val : ℤ)
  · rw [if_pos hd, if_pos ((ofNat_eq_iff (dst e) n.val hn).2 hd), one_mul, mul_comm]
  · rw [if_neg hd, if_neg (fun h' => hd ((ofNat_eq_iff (dst e) n.val hn).1 h')), zero_mul]

/-- `layer_padded` at `100000` nodes and `1700000` edges padded to `1703936`. -/
theorem layer_padded_100000
    (src dst : Fin 1700000 → BitVec 32) (nrm : Fin 1700000 → EReal) (h : Fin 100000 → EReal)
    (hsrc : ∀ e, 0 ≤ (src e).toInt ∧ (src e).toInt < ((100000 : ℕ) : ℤ))
    (srcP dstP : Fin 1703936 → BitVec 32) (nrmP : Fin 1703936 → EReal)
    (hsrcP : ∀ (e : Fin 1703936) (he : e.val < 1700000), srcP e = src ⟨e.val, he⟩)
    (hdstP : ∀ (e : Fin 1703936) (he : e.val < 1700000), dstP e = dst ⟨e.val, he⟩)
    (hnrmP : ∀ (e : Fin 1703936) (he : e.val < 1700000), nrmP e = nrm ⟨e.val, he⟩)
    (hnrm0 : ∀ e : Fin 1703936, 1700000 ≤ e.val → nrmP e = 0)
    (n : Fin 100000) :
    ∑ e : Fin 1703936, (if BitVec.ofNat 32 n.val = dstP e then (1 : EReal) else 0)
        * ((∑ k : Fin 100000, (if srcP e = BitVec.ofNat 32 k.val then (1 : EReal) else 0) * h k)
            * nrmP e)
      = ∑ e ∈ Finset.univ.filter (fun e : Fin 1700000 => (dst e).toInt = (n.val : ℤ)),
          nrm e * h ⟨(src e).toInt.toNat, toNat_lt_of_range (hsrc e)⟩ :=
  layer_padded 100000 1700000 3936 (by norm_num) src dst nrm h hsrc srcP dstP nrmP
    hsrcP hdstP hnrmP hnrm0 n

end Cert.LibSegmentSum
-- ==== Proof.SegMath.lean ====
/- A segment sum accumulated by two cores, each in `T` steps of `K` chunks of `R` rows, through one-hot products,
   is the plain segment sum.  Pure mathematics over the extended reals: only `0 * x = 0`, `1 * x = x` and the
   commutative monoid laws of addition are used, so no finiteness is needed.

   The rows are numbered `n * (K * R) + k * R + r` for the global step `n < 2 * T` (core `n / T`), the chunk `k < K`
   and the row `r < R` of the chunk.  The one-hot weight of a row for segment `g` is `1` when the row's 32-bit
   segment word is the word of `g` and `0` otherwise; since `g < 1024 < 2^31` that is the test "the word, read
   signed, is `g`" of the plain segment sum.  The proof extends the weighted rows by zero to all natural numbers and
   reads the accumulator, by induction on the chunk and then on the step, as a sum over an initial range of rows of
   its core; the two cores' ranges laid end to end are all the rows. -/
import proofs.«428993_j12077448036507_2_alg».proof.Proof.Spec
import proofs.«428993_j12077448036507_2_alg».proof.Proof.LibSegmentSum
import Mathlib.Data.EReal.Basic
import Mathlib.Algebra.BigOperators.Fin
import Mathlib.Algebra.BigOperators.Group.Finset.Basic

namespace Cert.SegMath

open Finset

/-- Row `r` of chunk `k` of the global step `n`, as one of the `N = 2 * (T * (K * R))` rows. -/
def row {N : ℕ} (T K R : ℕ) (hN : N = 2 * (T * (K * R))) (n : ℕ) (hn : n < 2 * T) (k : ℕ) (hk : k < K)
    (r : Fin R) : Fin N :=
  ⟨n * (K * R) + k * R + r.val, by
    have h1 : k * R + r.val < K * R := Cert.LibSegmentSum.blk_lt ⟨k, hk⟩ r
    have h2 : n * (K * R) + (k * R + r.val) < (2 * T) * (K * R) :=
      Cert.LibSegmentSum.blk_lt ⟨n, hn⟩ ⟨k * R + r.val, h1⟩
    rw [hN, Nat.add_assoc, ← Nat.mul_assoc 2 T (K * R)]
    exact h2⟩

theorem row_val {N : ℕ} (T K R : ℕ) (hN : N = 2 * (T * (K * R))) (n : ℕ) (hn : n < 2 * T) (k : ℕ) (hk : k < K)
    (r : Fin R) : (row T K R hN n hn k hk r).val = n * (K * R) + k * R + r.val := rfl

/-- The one-hot weighted entry of row `i` for segment `g` and feature `d`, extended by zero past the last row. -/
noncomputable def term {N : ℕ} (seg : Fin N → BitVec 32) (x : Fin N → Fin 128 → EReal) (g : Fin 1024) (d : Fin 128)
    (i : ℕ) : EReal :=
  if h : i < N then (if seg ⟨i, h⟩ = BitVec.ofNat 32 g.val then (1 : EReal) else 0) * x ⟨i, h⟩ d else 0

/-- The sum of the weighted entries over all rows is the plain segment sum. -/
theorem sum_term {N : ℕ} (seg : Fin N → BitVec 32) (x : Fin N → Fin 128 → EReal) (g : Fin 1024) (d : Fin 128) :
    ∑ i ∈ range N, term seg x g d i = Cert.Spec.segsum seg x g d := by
  have hg : g.val < 2 ^ 31 := lt_trans g.isLt (by norm_num)
  rw [Finset.sum_range, Cert.Spec.segsum, Finset.sum_filter]
  refine Fintype.sum_congr _ _ fun e => ?_
  rw [term, dif_pos e.isLt]
  show (if seg e = BitVec.ofNat 32 g.val then (1 : EReal) else 0) * x e d
    = if (seg e).toInt = (g.val : ℤ) then x e d else 0
  by_cases h : (seg e).toInt = (g.val : ℤ)
  · rw [if_pos h, if_pos ((Cert.LibSegmentSum.eq_ofNat_iff (seg e) g.val hg).2 h), one_mul]
  · rw [if_neg h, if_neg (fun h' => h ((Cert.LibSegmentSum.eq_ofNat_iff (seg e) g.val hg).1 h')), zero_mul]

/-- What one chunk adds is the sum of the weighted entries over the chunk's `R` consecutive rows. -/
theorem chunk_eq {N : ℕ} (T K R : ℕ) (hN : N = 2 * (T * (K * R))) (seg : Fin N → BitVec 32)
    (x : Fin N → Fin 128 → EReal) (g : Fin 1024) (d : Fin 128) (n : ℕ) (hn : n < 2 * T) (k : ℕ) (hk : k < K) :
    ∑ r : Fin R, (if seg (row T K R hN n hn k hk r) = BitVec.ofNat 32 g.val then (1 : EReal) else 0)
        * x (row T K R hN n hn k hk r) d
      = ∑ i ∈ range R, term seg x g d (n * (K * R) + (k * R + i)) := by
  rw [Finset.sum_range]
  refine Fintype.sum_congr _ _ fun r => ?_
  have hlt : n * (K * R) + (k * R + r.val) < N := by
    rw [← Nat.add_assoc]; exact (row T K R hN n hn k hk r).isLt
  rw [term, dif_pos hlt]
  have hrow : row T K R hN n hn k hk r = ⟨n * (K * R) + (k * R + r.val), hlt⟩ :=
    Fin.ext (by rw [row_val, Nat.add_assoc])
  rw [hrow]

/-- After `k` chunks of step `n` the accumulator has added the first `k * R` rows of the step. -/
theorem acc_chunks {N : ℕ} (T K R : ℕ) (hN : N = 2 * (T * (K * R))) (seg : Fin N → BitVec 32)
    (x : Fin N → Fin 128 → EReal) (A : ℕ → ℕ → Fin 1024 → Fin 128 → EReal)
    (hstep : ∀ n (hn : n < 2 * T) k (hk : k < K) (g : Fin 1024) (d : Fin 128), A n (k + 1) g d = A n k g d
      + ∑ r : Fin R, (if seg (row T K R hN n hn k hk r) = BitVec.ofNat 32 g.val then (1 : EReal) else 0)
          * x (row T K R hN n hn k hk r) d)
    (g : Fin 1024) (d : Fin 128) (n : ℕ) (hn : n < 2 * T) (k : ℕ) (hk : k ≤ K) :
    A n k g d = A n 0 g d + ∑ i ∈ range (k * R), term seg x g d (n * (K * R) + i) := by
  induction k with
  | zero => rw [Nat.zero_mul, Finset.range_zero, Finset.sum_empty, add_zero]
  | succ k ih =>
    rw [hstep n hn k hk g d, ih (Nat.le_of_succ_le hk), chunk_eq T K R hN seg x g d n hn k hk, Nat.succ_mul,
      Finset.sum_range_add, add_assoc]

/-- At the end of step `n₀ + t` of the core whose first step is `n₀`, the accumulator holds the first
`(t + 1) * (K * R)` rows of the core. -/
theorem acc_steps {N : ℕ} (T K R : ℕ) (hN : N = 2 * (T * (K * R))) (seg : Fin N → BitVec 32)
    (x : Fin N → Fin 128 → EReal) (A : ℕ → ℕ → Fin 1024 → Fin 128 → EReal)
    (hreset : ∀ n, n < 2 * T → n % T = 0 → A n 0 = fun _ _ => 0)
    (hcont : ∀ n, n < 2 * T → n % T ≠ 0 → A n 0 = A (n - 1) K)
    (hstep : ∀ n (hn : n < 2 * T) k (hk : k < K) (g : Fin 1024) (d : Fin 128), A n (k + 1) g d = A n k g d
      + ∑ r : Fin R, (if seg (row T K R hN n hn k hk r) = BitVec.ofNat 32 g.val then (1 : EReal) else 0)
          * x (row T K R hN n hn k hk r) d)
    (g : Fin 1024) (d : Fin 128) (n₀ : ℕ) (h₀ : n₀ % T = 0) (hn₀ : n₀ + T ≤ 2 * T) (t : ℕ) (ht : t < T) :
    A (n₀ + t) K g d = ∑ i ∈ range ((t + 1) * (K * R)), term seg x g d (n₀ * (K * R) + i) := by
  have hmod : ∀ s, s < T → (n₀ + s) % T = s := fun s hs => by
    rw [Nat.add_mod, h₀, Nat.zero_add, Nat.mod_mod, Nat.mod_eq_of_lt hs]
  induction t with
  | zero =>
    have hn : n₀ + 0 < 2 * T := by omega
    rw [acc_chunks T K R hN seg x A hstep g d (n₀ + 0) hn K (Nat.le_refl K),
      hreset (n₀ + 0) hn (by rw [Nat.add_zero]; exact h₀), zero_add, Nat.zero_add, Nat.one_mul, Nat.add_zero]
  | succ t ih =>
    have hn : n₀ + (t + 1) < 2 * T := by omega
    have hne : (n₀ + (t + 1)) % T ≠ 0 := by rw [hmod (t + 1) ht]; exact Nat.succ_ne_zero t
    have hpred : n₀ + (t + 1) - 1 = n₀ + t := rfl
    rw [acc_chunks T K R hN seg x A hstep g d (n₀ + (t + 1)) hn K (Nat.le_refl K),
      hcont (n₀ + (t + 1)) hn hne, hpred, ih (Nat.lt_of_succ_lt ht), Nat.succ_mul (t + 1), Finset.sum_range_add]
    refine congrArg _ (Finset.sum_congr rfl fun i _ => ?_)
    rw [Nat.add_mul, Nat.add_assoc]

/-- The two cores' final accumulators add up to the plain segment sum. -/
theorem segsum_of_acc {N : ℕ} (T K R : ℕ) (hT : 0 < T) (hN : N = 2 * (T * (K * R))) (seg : Fin N → BitVec 32)
    (x : Fin N → Fin 128 → EReal) (A : ℕ → ℕ → Fin 1024 → Fin 128 → EReal)
    (hreset : ∀ n, n < 2 * T → n % T = 0 → A n 0 = fun _ _ => 0)
    (hcont : ∀ n, n < 2 * T → n % T ≠ 0 → A n 0 = A (n - 1) K)
    (hstep : ∀ n (hn : n < 2 * T) k (hk : k < K) (g : Fin 1024) (d : Fin 128), A n (k + 1) g d = A n k g d
      + ∑ r : Fin R, (if seg (row T K R hN n hn k hk r) = BitVec.ofNat 32 g.val then (1 : EReal) else 0)
          * x (row T K R hN n hn k hk r) d)
    (g : Fin 1024) (d : Fin 128) :
    A (T - 1) K g d + A (2 * T - 1) K g d = Cert.Spec.segsum seg x g d := by
  have h0 := acc_steps T K R hN seg x A hreset hcont hstep g d 0 (Nat.zero_mod T) (by omega) (T - 1) (by omega)
  have h1 := acc_steps T K R hN seg x A hreset hcont hstep g d T (Nat.mod_self T) (by omega) (T - 1) (by omega)
  have e0 : 0 + (T - 1) = T - 1 := Nat.zero_add _
  have e1 : T + (T - 1) = 2 * T - 1 := by omega
  have e2 : T - 1 + 1 = T := by omega
  rw [e0, e2] at h0
  rw [e1, e2] at h1
  have hr : range N = range (T * (K * R) + T * (K * R)) := by rw [hN, Nat.two_mul]
  rw [h0, h1, ← sum_term seg x g d, hr, Finset.sum_range_add]
  refine congrArg₂ _ (Finset.sum_congr rfl fun i _ => ?_) rfl
  rw [Nat.zero_mul, Nat.zero_add]

/-- The node segment sum: two cores, 25 steps each, 5 chunks of 2000 rows a step, 500000 rows. -/
theorem segsum_of_acc_node (seg : Fin 500000 → BitVec 32) (x : Fin 500000 → Fin 128 → EReal)
    (A : ℕ → ℕ → Fin 1024 → Fin 128 → EReal)
    (hreset : ∀ n, n < 2 * 25 → n % 25 = 0 → A n 0 = fun _ _ => 0)
    (hcont : ∀ n, n < 2 * 25 → n % 25 ≠ 0 → A n 0 = A (n - 1) 5)
    (hstep : ∀ n (hn : n < 2 * 25) k (hk : k < 5) (g : Fin 1024) (d : Fin 128), A n (k + 1) g d = A n k g d
      + ∑ r : Fin 2000,
          (if seg (row (N := 500000) 25 5 2000 (by norm_num) n hn k hk r) = BitVec.ofNat 32 g.val then (1 : EReal)
            else 0) * x (row (N := 500000) 25 5 2000 (by norm_num) n hn k hk r) d)
    (g : Fin 1024) (d : Fin 128) :
    A (25 - 1) 5 g d + A (2 * 25 - 1) 5 g d = Cert.Spec.segsum seg x g d :=
  segsum_of_acc (N := 500000) 25 5 2000 (by norm_num) (by norm_num) seg x A hreset hcont hstep g d

/-- The edge segment sum: two cores, 30 steps each, 5 chunks of 2000 rows a step, 600000 rows. -/
theorem segsum_of_acc_edge (seg : Fin 600000 → BitVec 32) (x : Fin 600000 → Fin 128 → EReal)
    (A : ℕ → ℕ → Fin 1024 → Fin 128 → EReal)
    (hreset : ∀ n, n < 2 * 30 → n % 30 = 0 → A n 0 = fun _ _ => 0)
    (hcont : ∀ n, n < 2 * 30 → n % 30 ≠ 0 → A n 0 = A (n - 1) 5)
    (hstep : ∀ n (hn : n < 2 * 30) k (hk : k < 5) (g : Fin 1024) (d : Fin 128), A n (k + 1) g d = A n k g d
      + ∑ r : Fin 2000,
          (if seg (row (N := 600000) 30 5 2000 (by norm_num) n hn k hk r) = BitVec.ofNat 32 g.val then (1 : EReal)
            else 0) * x (row (N := 600000) 30 5 2000 (by norm_num) n hn k hk r) d)
    (g : Fin 1024) (d : Fin 128) :
    A (30 - 1) 5 g d + A (2 * 30 - 1) 5 g d = Cert.Spec.segsum seg x g d :=
  segsum_of_acc (N := 600000) 30 5 2000 (by norm_num) (by norm_num) seg x A hreset hcont hstep g d

end Cert.SegMath
-- ==== Proof.KI.Seg0Chain.lean ====
/- Region 0 (the node segment sum): the chain of the accumulator over a core's 25 steps, and the result.  Every
   step's accumulator is the chunk-by-chunk sum started from zero at a core's first step and from the step before
   otherwise; the output slab of a core is the accumulator after its last step.  Read at an index over the extended
   reals, each chunk adds the one-hot product of its 2000 rows, so the two slabs together hold the plain segment sum of
   the 500000 rows. -/
import proofs.«428993_j12077448036507_2_alg».proof.Proof.KI.Seg0Value
import proofs.«428993_j12077448036507_2_alg».proof.Proof.KI.SegPayload
import proofs.«428993_j12077448036507_2_alg».proof.Proof.KI.SegBlocks
import proofs.«428993_j12077448036507_2_alg».proof.Proof.SegMath

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b))

/-- What a step's accumulator starts from: the zero fill at a core's first step, else what the step before left. -/
def start0 (c : Dev nD) (n : ℕ) (hn : n < cfg0.N) : Vec F S1024x128 .f32 :=
  if n % 25 = 0 then k0_pay1 (F := F) else (outsAt0 V c (n - 1) (Nat.lt_of_le_of_lt (Nat.sub_le _ _) hn)).2

theorem acc0_eq (c : Dev nD) (t : Fin cfg0.N) :
    (outsAt0 V c t.val t.isLt).2 = loopAcc0 (iblk0 V c 0 t) (iblk0 V c 1 t) (start0 V c t.val t.isLt) k0_t1_loop.trips := by
  by_cases h0 : t.val % 25 = 0
  · have h1 : ¬t.val % 25 = 24 := by omega
    rw [outsAt0_A V c t h0 h1]; dsimp only; rw [sout0_A_eq]; unfold start0; rw [if_pos h0]
  · by_cases h1 : t.val % 25 = 24
    · rw [outsAt0_C V c t h0 h1]; dsimp only; rw [sout0_C_eq]; unfold start0; rw [if_neg h0]
    · rw [outsAt0_B V c t h0 h1]; dsimp only; rw [sout0_B_eq]; unfold start0; rw [if_neg h0]

theorem out0_eq (c : Dev nD) (t : Fin cfg0.N) (h1 : t.val % 25 = 24) :
    (outsAt0 V c t.val t.isLt).1 = k0_pay3 ((outsAt0 V c t.val t.isLt).2) := by
  have h0 : ¬t.val % 25 = 0 := by omega
  rw [outsAt0_C V c t h0 h1]; dsimp only; rw [out0_C_eq, sout0_C_eq]

end

section
variable (V : (c : Dev nD) → (b : Ref sig .tc) → Buf (Elt Ideal) ((c : Thread nD τ).loc b))

theorem trips0 : k0_t1_loop.trips = 5 := by decide

/-- The accumulator of step `n` after `k` chunks, at segment `g` and feature `d`. -/
def accG0 (c : Dev nD) (n k : ℕ) (g : Fin 1024) (d : Fin 128) : EReal :=
  if hn : n < cfg0.N then
    (loopAcc0 (iblk0 V c 0 ⟨n, hn⟩) (iblk0 V c 1 ⟨n, hn⟩) (start0 V c n hn) k : S1024x128.Idx → EReal) (ix2 g d)
  else 0

theorem acc0_apply (c : Dev nD) (t : Fin cfg0.N) (g : Fin 1024) (d : Fin 128) :
    ((outsAt0 V c t.val t.isLt).2 : S1024x128.Idx → EReal) (ix2 g d) = accG0 V c t.val 5 g d := by
  unfold accG0; rw [dif_pos t.isLt]
  exact congrFun ((acc0_eq V c t).trans (congrArg (fun k => loopAcc0 (iblk0 V c 0 t) (iblk0 V c 1 t) (start0 V c t.val t.isLt) k) trips0)) (ix2 g d)

/-- The region's result array, as a function of its three coordinates. -/
def res0 (c : Dev nD) : S2x1024x128.Idx → EReal := (dat0 V c).arrAt 2 cfg0.N

/-- The two slabs of the result together: the segment sum of all the rows. -/
theorem node_total (c : Dev nD) (g : Fin 1024) (d : Fin 128) :
    res0 V c (ix3 (0 : Fin 2) g d) + res0 V c (ix3 (1 : Fin 2) g d)
      = Cert.Spec.segsum (fun e : Fin 500000 => (V c main_v0 : S500000x1.Idx → BitVec 32) (ix2 e (0 : Fin 1)))
          (fun (e : Fin 500000) (d : Fin 128) => (V c main_arg0 : S500000x128.Idx → EReal) (ix2 e d)) g d := by
  have hN : cfg0.N = 50 := N_0
  have harr := arr0_2_of V c (fun i : S2x1024x128.Idx => accG0 V c (25 * (i 0).val + 24) 5 ⟨(i 1).val, (i 1).isLt⟩ ⟨(i 2).val, (i 2).isLt⟩)
    (fun t ht g d => by
      rw [after0_2, out0_eq V c t ht, Cert.KernelIdeal.SegPayload.pay3_apply, acc0_apply]
      show accG0 V c t.val 5 g d = accG0 V c (25 * (t.val / 25) + 24) 5 g d
      rw [show 25 * (t.val / 25) + 24 = t.val by omega])
  unfold res0
  rw [harr]
  show accG0 V c (25 * 0 + 24) 5 g d + accG0 V c (25 * 1 + 24) 5 g d = _
  refine Cert.SegMath.segsum_of_acc_node _ _ (accG0 V c) ?_ ?_ ?_ g d
  · intro n hn h
    funext g d
    have hn' : n < cfg0.N := by omega
    unfold accG0; rw [dif_pos hn']
    show (start0 V c n hn' : S1024x128.Idx → EReal) (ix2 g d) = 0
    unfold start0; rw [if_pos h]; exact Cert.KernelIdeal.SegPayload.pay1_apply g d
  · intro n hn h
    funext g d
    have hn' : n < cfg0.N := by omega
    have hn1 : n - 1 < cfg0.N := by omega
    rw [← acc0_apply V c ⟨n - 1, hn1⟩ g d]
    unfold accG0; rw [dif_pos hn']
    show (start0 V c n hn' : S1024x128.Idx → EReal) (ix2 g d) = _
    unfold start0; rw [if_neg h]
  · intro n hn k hk g d
    have hn' : n < cfg0.N := by omega
    have hk' : k < k0_t1_loop.trips := by rw [trips0]; exact hk
    unfold accG0; rw [dif_pos hn', dif_pos hn', loopAcc0_succ _ _ _ k hk', Cert.KernelIdeal.SegPayload.pay2_apply]
    congr 1
    refine Finset.sum_congr rfl fun r _ => ?_
    rw [schunk0_apply, xchunk0_apply, iblk0_1_apply, iblk0_0_apply]
    have e : ∀ h, (⟨10000 * n + (2000 * k + r.val), h⟩ : Fin 500000) = Cert.SegMath.row (N := 500000) 25 5 2000 (by norm_num) n hn k hk r :=
      fun h => Fin.ext (by show 10000 * n + (2000 * k + r.val) = n * (5 * 2000) + k * 2000 + r.val; omega)
    simp only [e]

end

end Cert.KernelIdeal.Gen

end
-- ==== Proof.KI.Seg1Chain.lean ====
/- Region 1 (the edge segment sum): the chain of the accumulator over a core's 30 steps, and the result.  Every
   step's accumulator is the chunk-by-chunk sum started from zero at a core's first step and from the step before
   otherwise; the output slab of a core is the accumulator after its last step.  Read at an index over the extended
   reals, each chunk adds the one-hot product of its 2000 rows, so the two slabs together hold the plain segment sum of
   the 600000 rows. -/
import proofs.«428993_j12077448036507_2_alg».proof.Proof.KI.Seg1Value
import proofs.«428993_j12077448036507_2_alg».proof.Proof.KI.SegPayload
import proofs.«428993_j12077448036507_2_alg».proof.Proof.KI.SegBlocks
import proofs.«428993_j12077448036507_2_alg».proof.Proof.SegMath

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b))

/-- What a step's accumulator starts from: the zero fill at a core's first step, else what the step before left. -/
def start1 (c : Dev nD) (n : ℕ) (hn : n < cfg1.N) : Vec F S1024x128 .f32 :=
  if n % 30 = 0 then k1_pay1 (F := F) else (outsAt1 V c (n - 1) (Nat.lt_of_le_of_lt (Nat.sub_le _ _) hn)).2

theorem acc1_eq (c : Dev nD) (t : Fin cfg1.N) :
    (outsAt1 V c t.val t.isLt).2 = loopAcc1 (iblk1 V c 0 t) (iblk1 V c 1 t) (start1 V c t.val t.isLt) k1_t1_loop.trips := by
  by_cases h0 : t.val % 30 = 0
  · have h1 : ¬t.val % 30 = 29 := by omega
    rw [outsAt1_A V c t h0 h1]; dsimp only; rw [sout1_A_eq]; unfold start1; rw [if_pos h0]
  · by_cases h1 : t.val % 30 = 29
    · rw [outsAt1_C V c t h0 h1]; dsimp only; rw [sout1_C_eq]; unfold start1; rw [if_neg h0]
    · rw [outsAt1_B V c t h0 h1]; dsimp only; rw [sout1_B_eq]; unfold start1; rw [if_neg h0]

theorem out1_eq (c : Dev nD) (t : Fin cfg1.N) (h1 : t.val % 30 = 29) :
    (outsAt1 V c t.val t.isLt).1 = k1_pay3 ((outsAt1 V c t.val t.isLt).2) := by
  have h0 : ¬t.val % 30 = 0 := by omega
  rw [outsAt1_C V c t h0 h1]; dsimp only; rw [out1_C_eq, sout1_C_eq]

end

section
variable (V : (c : Dev nD) → (b : Ref sig .tc) → Buf (Elt Ideal) ((c : Thread nD τ).loc b))

theorem trips1 : k1_t1_loop.trips = 5 := by decide

/-- The accumulator of step `n` after `k` chunks, at segment `g` and feature `d`. -/
def accG1 (c : Dev nD) (n k : ℕ) (g : Fin 1024) (d : Fin 128) : EReal :=
  if hn : n < cfg1.N then
    (loopAcc1 (iblk1 V c 0 ⟨n, hn⟩) (iblk1 V c 1 ⟨n, hn⟩) (start1 V c n hn) k : S1024x128.Idx → EReal) (ix2 g d)
  else 0

theorem acc1_apply (c : Dev nD) (t : Fin cfg1.N) (g : Fin 1024) (d : Fin 128) :
    ((outsAt1 V c t.val t.isLt).2 : S1024x128.Idx → EReal) (ix2 g d) = accG1 V c t.val 5 g d := by
  unfold accG1; rw [dif_pos t.isLt]
  exact congrFun ((acc1_eq V c t).trans (congrArg (fun k => loopAcc1 (iblk1 V c 0 t) (iblk1 V c 1 t) (start1 V c t.val t.isLt) k) trips1)) (ix2 g d)

/-- The region's result array, as a function of its three coordinates. -/
def res1 (c : Dev nD) : S2x1024x128.Idx → EReal := (dat1 V c).arrAt 2 cfg1.N

/-- The two slabs of the result together: the segment sum of all the rows. -/
theorem edge_total (c : Dev nD) (g : Fin 1024) (d : Fin 128) :
    res1 V c (ix3 (0 : Fin 2) g d) + res1 V c (ix3 (1 : Fin 2) g d)
      = Cert.Spec.segsum (fun e : Fin 600000 => (V c main_v4 : S600000x1.Idx → BitVec 32) (ix2 e (0 : Fin 1)))
          (fun (e : Fin 600000) (d : Fin 128) => (V c main_arg2 : S600000x128.Idx → EReal) (ix2 e d)) g d := by
  have hN : cfg1.N = 60 := N_1
  have harr := arr1_2_of V c (fun i : S2x1024x128.Idx => accG1 V c (30 * (i 0).val + 29) 5 ⟨(i 1).val, (i 1).isLt⟩ ⟨(i 2).val, (i 2).isLt⟩)
    (fun t ht g d => by
      rw [after1_2, out1_eq V c t ht, Cert.KernelIdeal.SegPayload.pay3_apply', acc1_apply]
      show accG1 V c t.val 5 g d = accG1 V c (30 * (t.val / 30) + 29) 5 g d
      rw [show 30 * (t.val / 30) + 29 = t.val by omega])
  unfold res1
  rw [harr]
  show accG1 V c (30 * 0 + 29) 5 g d + accG1 V c (30 * 1 + 29) 5 g d = _
  refine Cert.SegMath.segsum_of_acc_edge _ _ (accG1 V c) ?_ ?_ ?_ g d
  · intro n hn h
    funext g d
    have hn' : n < cfg1.N := by omega
    unfold accG1; rw [dif_pos hn']
    show (start1 V c n hn' : S1024x128.Idx → EReal) (ix2 g d) = 0
    unfold start1; rw [if_pos h]; exact Cert.KernelIdeal.SegPayload.pay1_apply' g d
  · intro n hn h
    funext g d
    have hn' : n < cfg1.N := by omega
    have hn1 : n - 1 < cfg1.N := by omega
    rw [← acc1_apply V c ⟨n - 1, hn1⟩ g d]
    unfold accG1; rw [dif_pos hn']
    show (start1 V c n hn' : S1024x128.Idx → EReal) (ix2 g d) = _
    unfold start1; rw [if_neg h]
  · intro n hn k hk g d
    have hn' : n < cfg1.N := by omega
    have hk' : k < k1_t1_loop.trips := by rw [trips1]; exact hk
    unfold accG1; rw [dif_pos hn', dif_pos hn', loopAcc1_succ _ _ _ k hk', Cert.KernelIdeal.SegPayload.pay2_apply']
    congr 1
    refine Finset.sum_congr rfl fun r _ => ?_
    rw [schunk1_apply, xchunk1_apply, iblk1_1_apply, iblk1_0_apply]
    have e : ∀ h, (⟨10000 * n + (2000 * k + r.val), h⟩ : Fin 600000) = Cert.SegMath.row (N := 600000) 30 5 2000 (by norm_num) n hn k hk r :=
      fun h => Fin.ext (by show 10000 * n + (2000 * k + r.val) = n * (5 * 2000) + k * 2000 + r.val; omega)
    simp only [e]

end

end Cert.KernelIdeal.Gen

end
-- ==== Proof.KI.KernelValue.lean ====
/- The kernel program's result is the specified function of the launched argument arrays.  The result array at the end
   of the run is what the final kernel's one write-back leaves: at row g and column j, the maximum of zero and the sum
   of three 128-term products and the bias, over the buffers as the final kernel finds them.  Walking the fold of the
   run back: the two slabs of the node segment sum's result together are the segment sum of the launched node features
   by the launched segment ids (the reshaped column holds the ids row by row); the two slabs of the edge segment sum's
   result together are the segment sum of the launched edge features by the launched segment id of each edge's first
   end point (the looked-up column holds it edge by edge, for first end points that are node indices); the global
   features are as launched; the three column blocks of the weight matrix read the launched matrix at columns
   128 p + k, and the bias row reads the launched bias. -/
import proofs.«428993_j12077448036507_2_alg».proof.Proof.KI.Run
import proofs.«428993_j12077448036507_2_alg».proof.Proof.KI.Fin2Value
import proofs.«428993_j12077448036507_2_alg».proof.Proof.KI.Seg0Chain
import proofs.«428993_j12077448036507_2_alg».proof.Proof.KI.Seg1Chain
import proofs.«428993_j12077448036507_2_alg».proof.Proof.KI.HostVals
import proofs.«428993_j12077448036507_2_alg».proof.Proof.Spec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

/-! ## The fold at the buffers the value reads, walked back to the launch memory -/

/-- The node features reach the node segment sum as launched. -/
theorem V3_main_arg0 (c : Dev nD) : V3 m ρ c main_arg0 = m ((c : Thread nD τ).loc main_arg0) :=
  (W3_of m ρ c main_arg0 (by decide)).trans <| (W2_of m ρ c main_arg0 (by decide)).trans <| (W1_of m ρ c main_arg0 (by decide)).trans rfl
/-- The reshaped segment ids the node segment sum reads hold, row by row, the launched segment ids. -/
theorem V3_main_v0_apply (c : Dev nD) (e : Fin 500000) :
    (V3 m ρ c main_v0 : S500000x1.Idx → BitVec 32) (ix2 e (0 : Fin 1)) = (m ((c : Thread nD τ).loc main_arg4) : S500000.Idx → BitVec 32) (ix1 e) := by
  rw [show V3 m ρ c main_v0 = StableHlo.after hostOps0 (W0 m ρ c) (Proc.devRef .tc main_v0) from
    (W3_of m ρ c main_v0 (by decide)).trans (W2_of m ρ c main_v0 (by decide))]
  exact Cert.KernelIdeal.HostVals.v0_apply (W0 m ρ c) e
/-- The edge features reach the edge segment sum as launched. -/
theorem V4_main_arg2 (c : Dev nD) : V4 m ρ c main_arg2 = m ((c : Thread nD τ).loc main_arg2) :=
  (W4_of_ne m ρ c main_arg2 (by decide)).trans <| (W3_of m ρ c main_arg2 (by decide)).trans <| (W2_of m ρ c main_arg2 (by decide)).trans <| (W1_of m ρ c main_arg2 (by decide)).trans rfl
/-- The edges' segment ids the edge segment sum reads hold, edge by edge, the launched segment id of the edge's first
    end point. -/
theorem V4_main_v4_apply (c : Dev nD) (ei0 : Fin 600000 → Fin 500000)
    (hei : ∀ e : Fin 600000, ((m ((c : Thread nD τ).loc main_arg1) : S2x600000.Idx → BitVec 32) (ix2 (0 : Fin 2) e)).toInt = ((ei0 e).val : ℤ))
    (e : Fin 600000) :
    (V4 m ρ c main_v4 : S600000x1.Idx → BitVec 32) (ix2 e (0 : Fin 1)) = (m ((c : Thread nD τ).loc main_arg4) : S500000.Idx → BitVec 32) (ix1 (ei0 e)) := by
  rw [show V4 m ρ c main_v4 = StableHlo.after hostOps0_2 (StableHlo.after hostOps0_1 (StableHlo.after hostOps0 (W0 m ρ c))) (Proc.devRef .tc main_v4) from
    W4_of_ne m ρ c main_v4 (by decide)]
  exact Cert.KernelIdeal.HostVals.v4_apply (W0 m ρ c) ei0 hei e
/-- The node segment sum's result reaches the final kernel as the region left it. -/
theorem V6_main_v5 (c : Dev nD) : V6 m ρ c main_v5 = res0 (V3 m ρ) c :=
  (W6_of m ρ c main_v5 (by decide)).trans <| (W5_of_ne m ρ c main_v5 (by decide)).trans (W4_main_v5 m ρ c)
/-- The edge segment sum's result reaches the final kernel as the region left it. -/
theorem V6_main_v6 (c : Dev nD) : V6 m ρ c main_v6 = res1 (V4 m ρ) c :=
  (W6_of m ρ c main_v6 (by decide)).trans (W5_main_v6 m ρ c)
/-- The global features reach the final kernel as launched. -/
theorem V6_main_arg3 (c : Dev nD) : V6 m ρ c main_arg3 = m ((c : Thread nD τ).loc main_arg3) :=
  (W6_of m ρ c main_arg3 (by decide)).trans <| (W5_of_ne m ρ c main_arg3 (by decide)).trans <| (W4_of_ne m ρ c main_arg3 (by decide)).trans <|
    (W3_of m ρ c main_arg3 (by decide)).trans <| (W2_of m ρ c main_arg3 (by decide)).trans <| (W1_of m ρ c main_arg3 (by decide)).trans rfl
/-- The weight matrix and the bias reach the last host stretch as launched. -/
theorem W5_main_arg5 (c : Dev nD) : W5 m ρ c (Proc.devRef .tc main_arg5) = m ((c : Thread nD τ).loc main_arg5) :=
  (W5_of_ne m ρ c main_arg5 (by decide)).trans <| (W4_of_ne m ρ c main_arg5 (by decide)).trans <|
    (W3_of m ρ c main_arg5 (by decide)).trans <| (W2_of m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of_ne m ρ c main_arg6 (by decide)).trans <| (W4_of_ne m ρ c main_arg6 (by decide)).trans <|
    (W3_of m ρ c main_arg6 (by decide)).trans <| (W2_of m ρ c main_arg6 (by decide)).trans <| (W1_of m ρ c main_arg6 (by decide)).trans rfl
/-- The three column blocks of the weight matrix the final kernel reads: block `p` at (j, k) is the launched matrix
    at row j, column 128 p + k. -/
theorem V6_main_v7_apply (c : Dev nD) (j k : Fin 128) :
    (V6 m ρ c main_v7 : S128x128.Idx → EReal) (ix2 j k) = (m ((c : Thread nD τ).loc main_arg5) : S128x384.Idx → EReal) (ix2 j (Cert.Spec.col 0 k)) := by
  rw [show V6 m ρ c main_v7 = StableHlo.after hostOps2 (W5 m ρ c) (Proc.devRef .tc main_v7) from rfl,
    Cert.KernelIdeal.HostVals.v7_apply (W5 m ρ c) j k, W5_main_arg5]
  exact congrArg _ (congrArg (ix2 j) (Fin.ext (by simp only [Cert.Spec.col]; omega)))
theorem V6_main_v8_apply (c : Dev nD) (j k : Fin 128) :
    (V6 m ρ c main_v8 : S128x128.Idx → EReal) (ix2 j k) = (m ((c : Thread nD τ).loc main_arg5) : S128x384.Idx → EReal) (ix2 j (Cert.Spec.col 1 k)) := by
  rw [show V6 m ρ c main_v8 = StableHlo.after hostOps2 (W5 m ρ c) (Proc.devRef .tc main_v8) from rfl,
    Cert.KernelIdeal.HostVals.v8_apply (W5 m ρ c) j k, W5_main_arg5]
  exact congrArg _ (congrArg (ix2 j) (Fin.ext (by simp only [Cert.Spec.col]; omega)))
theorem V6_main_v9_apply (c : Dev nD) (j k : Fin 128) :
    (V6 m ρ c main_v9 : S128x128.Idx → EReal) (ix2 j k) = (m ((c : Thread nD τ).loc main_arg5) : S128x384.Idx → EReal) (ix2 j (Cert.Spec.col 2 k)) := by
  rw [show V6 m ρ c main_v9 = StableHlo.after hostOps2 (W5 m ρ c) (Proc.devRef .tc main_v9) from rfl,
    Cert.KernelIdeal.HostVals.v9_apply (W5 m ρ c) j k, W5_main_arg5]
  exact congrArg _ (congrArg (ix2 j) (Fin.ext (by simp only [Cert.Spec.col]; omega)))
/-- The bias row the final kernel reads holds the launched bias. -/
theorem V6_main_v10_apply (c : Dev nD) (j : Fin 128) :
    (V6 m ρ c main_v10 : S1x128.Idx → EReal) (ix2 (0 : Fin 1) j) = (m ((c : Thread nD τ).loc main_arg6) : S128.Idx → EReal) (ix1 j) := by
  rw [show V6 m ρ c main_v10 = StableHlo.after hostOps2 (W5 m ρ c) (Proc.devRef .tc main_v10) from rfl,
    Cert.KernelIdeal.HostVals.v10_apply (W5 m ρ c) j, W5_main_arg6]

/-! ## The result -/

/-- The two slabs of the node segment sum's result together, as the final kernel finds them: the segment sum of the
    launched node features by the launched segment ids. -/
theorem node_sum (c : Dev nD) (g : Fin 1024) (k : Fin 128) :
    res0 (V3 m ρ) c (ix3 (0 : Fin 2) g k) + res0 (V3 m ρ) c (ix3 (1 : Fin 2) g k)
      = Cert.Spec.segsum (fun r : Fin 500000 => (m ((c : Thread nD τ).loc main_arg4) : S500000.Idx → BitVec 32) (ix1 r))
          (fun r d => (m ((c : Thread nD τ).loc main_arg0) : S500000x128.Idx → EReal) (ix2 r d)) g k := by
  refine (node_total (V3 m ρ) c g k).trans ?_
  exact congrArg₂ (fun a b => Cert.Spec.segsum a b g k) (funext fun e => V3_main_v0_apply m ρ c e)
    (funext fun e => funext fun d => congrFun (V3_main_arg0 m ρ c) (ix2 e d))
/-- The two slabs of the edge segment sum's result together: the segment sum of the launched edge features by the
    launched segment id of each edge's first end point. -/
theorem edge_sum (c : Dev nD) (ei0 : Fin 600000 → Fin 500000)
    (hei : ∀ e : Fin 600000, ((m ((c : Thread nD τ).loc main_arg1) : S2x600000.Idx → BitVec 32) (ix2 (0 : Fin 2) e)).toInt = ((ei0 e).val : ℤ))
    (g : Fin 1024) (k : Fin 128) :
    res1 (V4 m ρ) c (ix3 (0 : Fin 2) g k) + res1 (V4 m ρ) c (ix3 (1 : Fin 2) g k)
      = Cert.Spec.segsum (Cert.Spec.eseg (fun r : Fin 500000 => (m ((c : Thread nD τ).loc main_arg4) : S500000.Idx → BitVec 32) (ix1 r)) ei0)
          (fun e d => (m ((c : Thread nD τ).loc main_arg2) : S600000x128.Idx → EReal) (ix2 e d)) g k := by
  refine (edge_total (V4 m ρ) c g k).trans ?_
  exact congrArg₂ (fun a b => Cert.Spec.segsum a b g k) (funext fun e => V4_main_v4_apply m ρ c ei0 hei e)
    (funext fun e => funext fun d => congrFun (V4_main_arg2 m ρ c) (ix2 e d))

/-- The program's result array at the end is the specified function of the launched argument arrays, for node indices
    `ei0` that the first row of the launched edge index holds. -/
theorem kernel_value (c : Dev nD) (ei0 : Fin 600000 → Fin 500000)
    (hei : ∀ e : Fin 600000, ((m ((c : Thread nD τ).loc main_arg1) : S2x600000.Idx → BitVec 32) (ix2 (0 : Fin 2) e)).toInt = ((ei0 e).val : ℤ)) :
    (W7 m ρ c (Proc.devRef .tc main_v11) : S1024x128.Idx → EReal)
      = Cert.Spec.result (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) ei0 := by
  funext i
  obtain ⟨g, j, rfl⟩ : ∃ g j, i = ix2 g j := ⟨i 0, i 1, eq_ix2 i⟩
  rw [W7_main_v11, arr2_7 (V6 m ρ) c, out2_7_apply]
  unfold Cert.Spec.result Cert.Spec.lin
  refine congrArg (fun x : EReal => max x 0) (congrArg₂ (fun a b : EReal => a + b) (congrArg₂ (fun a b : EReal => a + b)
    (congrArg₂ (fun a b : EReal => a + b) (Finset.sum_congr rfl fun k _ => ?_) (Finset.sum_congr rfl fun k _ => ?_))
    (Finset.sum_congr rfl fun k _ => ?_)) ?_)
  · rw [V6_main_v5, node_sum, V6_main_v7_apply]
  · rw [V6_main_v6, edge_sum m ρ c ei0 hei, V6_main_v8_apply]
  · rw [V6_main_arg3, V6_main_v9_apply]
  · exact V6_main_v10_apply m ρ c j

/-- info: 'Cert.KernelIdeal.Gen.kernel_value' depends on axioms: [propext, Classical.choice, Quot.sound] -/
#guard_msgs in #print axioms kernel_value

end Cert.KernelIdeal.Gen

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.RefSpec.lean ====
/-
  THE REFERENCE COMPUTES THE SPECIFIED RESULT. The reference program adds the node feature rows into their segments,
  looks up for every edge the segment word of its first end point and adds the edge feature rows into those segments,
  lays the node sums, the edge sums and the global features side by side as 384-wide rows, multiplies by the transposed
  weight matrix, adds the bias and rectifies. Read at one index, on the extended reals:

  * an accumulating scatter from a zero array is, at segment g and column k, the plain sum of the update rows whose
    segment word read signed is g (a word outside the segment range lands nowhere);
  * the edge's segment word: the end-point word e_w is first wrapped (e_w + 500000 where e_w < 0) and the lookup then
    clamps it into [0, 499999]; for a word that reads as a node index n in range neither does anything, so the lookup
    returns the node segment word at n;
  * column p * 128 + k of the 384-wide row is column k of part p, and the 384-term dot product is the sum of the three
    128-term ones (only associativity and commutativity of addition are used);
  * the bias row is broadcast down the rows, and the rectifier is the maximum with zero.

  Last, the reference's run ends with its result array at that specified result and its arguments unchanged.
-/
import proofs.«428993_j12077448036507_2_alg».proof.Proof.RefImports
import proofs.«428993_j12077448036507_2_alg».proof.Proof.Spec
import proofs.«428993_j12077448036507_2_alg».proof.Proof.LibScatterSum
import Idealize.ShloMosaic.Lib.ValueIdx
import Idealize.ShloMosaic.Lib.Pipeline.Value
import Idealize.ShloMosaic.PureOps.Ideal.Laws
import Idealize.ShloMosaic.Lib.StableHlo.Predicate
import Mathlib.Algebra.BigOperators.Fin
import Mathlib.Data.Fintype.BigOperators

noncomputable section

namespace Cert.RefSpec

open Cert.ReferenceIdeal Cert.ReferenceIdeal.Gen Cert.ReferenceIdeal.Read
open Idealize.ShloMosaic Idealize.ShloMosaic.ValueIdx Idealize.SL.Sem Idealize.ShloMosaic.TcCoe
open scoped BigOperators

/-! ## The two accumulating scatters and the segment-word gather, read at an index -/

/-- At the ideal values the host's accumulating scatter is the exact sum. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The node scatter's dimension numbers, spelt out. -/
theorem nodeDims_eq : scatter_S1024x128_S500000x1_S500000x128_1_0_0_1
    = (⟨[1], [0], [0], 1, scatter_S1024x128_S500000x1_S500000x128_1_0_0_1_wf⟩ : ScatterDims S1024x128 S500000x1 S500000x128) := rfl

/-- The edge scatter's dimension numbers, spelt out. -/
theorem edgeDims_eq : scatter_S1024x128_S600000x1_S600000x128_1_0_0_1
    = (⟨[1], [0], [0], 1, scatter_S1024x128_S600000x1_S600000x128_1_0_0_1_wf⟩ : ScatterDims S1024x128 S600000x1 S600000x128) := rfl

/-- The node segment words as a column: row `e` of the column is entry `e` of the vector. -/
theorem col_of_batch (x4 : (⟨S500000, .i32⟩ : BufTy).Contents (Elt Ideal)) (e : Fin 500000) :
    val_main_v1 (F := Ideal) x4 (ix2 e (0 : Fin 1)) = x4 (ix1 e) := by
  rw [val_main_v1_apply]
  exact congrArg x4 (funext fun a => Fin.ext (by match a with | ⟨0, _⟩ => rfl))

/-- The node scatter at `(g, k)`: the sum of the rows of `x` whose segment word is `g`, at column `k`. -/
theorem node_apply (x0 : (⟨S500000x128, .f32⟩ : BufTy).Contents (Elt Ideal)) (x4 : (⟨S500000, .i32⟩ : BufTy).Contents (Elt Ideal))
    (g : Fin 1024) (k : Fin 128) :
    val_main_v2 (F := Ideal) x0 x4 (ix2 g k)
      = Spec.segsum (fun r : Fin 500000 => x4 (ix1 r)) (fun r d => x0 (ix2 r d)) g k := by
  unfold val_main_v2 Spec.segsum
  rw [scatterAdd_ideal, nodeDims_eq, LibScatterSum.scatterAdd_rows, val_main_v0_apply, val_main_cst_apply, Ideal.ofBits_def,
    Ideal.ofBits_zero_f32, zero_add]
  simp only [col_of_batch]

/-- The first-end-point word of edge `e`: row 0 of the edge index array, sliced off and flattened. -/
theorem end_word (x1 : (⟨S2x600000, .i32⟩ : BufTy).Contents (Elt Ideal)) (e : Fin 600000) :
    val_main_v4 (F := Ideal) x1 (ix1 e) = x1 (ix2 (0 : Fin 2) e) := by
  rw [val_main_v4_apply, val_main_v3_apply]
  exact congrArg x1 (funext fun a => Fin.ext (by
    match a with
    | ⟨0, _⟩ => rfl
    | ⟨1, _⟩ => exact Nat.mod_eq_of_lt e.isLt))

/-- A word that reads as a non-negative integer is not below zero. -/
theorem slt_zero_of_nonneg (w : BitVec 32) (h : 0 ≤ w.toInt) : IntOp.cmpi .slt w 0#32 = 0#1 := by
  show BitVec.ofBool (w.slt 0#32) = 0#1
  have : w.slt 0#32 = false := by
    simp only [BitVec.slt, BitVec.toInt_zero, decide_eq_false_iff_not, not_lt]
    exact h
  rw [this]; rfl

/-- The wrap of negative indices leaves a non-negative end-point word alone. -/
theorem wrapped_word (x1 : (⟨S2x600000, .i32⟩ : BufTy).Contents (Elt Ideal)) (e : Fin 600000)
    (h : 0 ≤ (x1 (ix2 (0 : Fin 2) e)).toInt) :
    val_main_v10 (F := Ideal) x1 (ix2 e (0 : Fin 1)) = x1 (ix2 (0 : Fin 2) e) := by
  rw [val_main_v10_apply]
  have hi : idx_main_v10 (ix2 e (0 : Fin 1)) = ix1 e := funext fun a => Fin.ext (by match a with | ⟨0, _⟩ => rfl)
  rw [hi, val_main_v9_apply, val_main_v6_apply, val_main_v5_apply, val_main_c_apply, end_word, slt_zero_of_nonneg _ h, select_zero]

/-- The segment word gathered for edge `e`: the node segment word at the edge's first end point, when that end point's
    word reads as the in-range node index `n` (the gather's clamp into `[0, 499999]` then does nothing). -/
theorem gathered_word (x1 : (⟨S2x600000, .i32⟩ : BufTy).Contents (Elt Ideal)) (x4 : (⟨S500000, .i32⟩ : BufTy).Contents (Elt Ideal))
    (e : Fin 600000) (n : Fin 500000) (h : (x1 (ix2 (0 : Fin 2) e)).toInt = (n.val : ℤ)) :
    val_main_v11 (F := Ideal) x1 x4 (ix1 e) = x4 (ix1 n) := by
  unfold val_main_v11
  have he : (ix1 e : S600000.Idx) = Shape.Idx.ofFin e := funext fun a => Fin.ext (by match a with | ⟨0, _⟩ => rfl)
  have hp : (StableHlo.Predicate.ixP e : S600000x1.Idx) = ix2 e (0 : Fin 1) := funext fun a => Fin.ext (by
    match a with
    | ⟨0, _⟩ => rfl
    | ⟨1, _⟩ => rfl)
  have hw : (val_main_v10 (F := Ideal) x1 (StableHlo.Predicate.ixP e)).toInt = (n.val : ℤ) := by
    rw [hp, wrapped_word x1 e (by rw [h]; exact Int.natCast_nonneg _), h]
  rw [he, StableHlo.Predicate.gather_take gather_S500000_S600000x1_S600000_n_0_n_n_0_1_1 rfl rfl rfl rfl x4
    (val_main_v10 (F := Ideal) x1) e (Nat.succ_pos _)]
  refine congrArg x4 (funext fun a => Fin.ext ?_)
  match a with
  | ⟨0, _⟩ =>
    show min (val_main_v10 (F := Ideal) x1 (StableHlo.Predicate.ixP e)).toInt.toNat (500000 - 1) = n.val
    rw [hw]
    have := n.isLt
    omega

/-- The edge scatter at `(g, k)`: the sum of the rows of the edge features whose edge's first end point lies in
    segment `g`, at column `k`. -/
theorem edge_apply (x1 : (⟨S2x600000, .i32⟩ : BufTy).Contents (Elt Ideal)) (x2 : (⟨S600000x128, .f32⟩ : BufTy).Contents (Elt Ideal))
    (x4 : (⟨S500000, .i32⟩ : BufTy).Contents (Elt Ideal)) (ei0 : Fin 600000 → Fin 500000)
    (h : ∀ e : Fin 600000, (x1 (ix2 (0 : Fin 2) e)).toInt = ((ei0 e).val : ℤ)) (g : Fin 1024) (k : Fin 128) :
    val_main_v14 (F := Ideal) x1 x2 x4 (ix2 g k)
      = Spec.segsum (Spec.eseg (fun r : Fin 500000 => x4 (ix1 r)) ei0) (fun e d => x2 (ix2 e d)) g k := by
  have hw : ∀ e : Fin 600000, val_main_v13 (F := Ideal) x1 x4 (ix2 e (0 : Fin 1)) = x4 (ix1 (ei0 e)) := fun e => by
    rw [val_main_v13_apply]
    have hi : idx_main_v13 (ix2 e (0 : Fin 1)) = ix1 e := funext fun a => Fin.ext (by match a with | ⟨0, _⟩ => rfl)
    rw [hi, gathered_word x1 x4 e (ei0 e) (h e)]
  unfold val_main_v14 Spec.segsum Spec.eseg
  rw [scatterAdd_ideal, edgeDims_eq, LibScatterSum.scatterAdd_rows, val_main_v12_apply, val_main_cst_1_apply, Ideal.ofBits_def,
    Ideal.ofBits_zero_f32, zero_add]
  simp only [hw]

/-! ## The concatenation, the weight and the bias at an index; the 384-term contraction in three parts -/

/-- Three 128-wide pieces laid side by side, read at row `g` and column `p * 128 + k`: piece `p` at `(g, k)`. -/
theorem concat_piece {α : Type} (y0 y1 y2 : S1024x128.Idx → α) (g : Fin 1024) (p : Fin 3) (k : Fin 128) :
    concatenate S1024x384 1 [⟨S1024x128, y0⟩, ⟨S1024x128, y1⟩, ⟨S1024x128, y2⟩]
        concatenates_S1024x128_S1024x128_S1024x128_S1024x384_d1 (ix2 g (Spec.col p k))
      = (match p with | ⟨0, _⟩ => y0 | ⟨1, _⟩ => y1 | ⟨2, _⟩ => y2) (ix2 g k) := by
  have hi : ∀ (q : Fin 3) (b : Fin S1024x128.rank), b.cast (rfl : S1024x128.rank = S1024x384.rank) ≠ (1 : Fin S1024x384.rank) →
      ((ix2 g k : S1024x128.Idx) b).val = ((ix2 g (Spec.col q k) : S1024x384.Idx) (b.cast rfl)).val := fun q b hb => by
    match b, hb with
    | ⟨0, _⟩, _ => rfl
    | ⟨1, _⟩, hb => exact absurd rfl hb
  match p with
  | ⟨0, _⟩ =>
    exact concatenate_apply_piece (1 : Fin S1024x384.rank) _ _ _ 0 (by simp) S1024x128 y0 rfl rfl 0 rfl (ix2 g k) (hi 0)
      (by show 0 + k.val = 0 * 128 + k.val; omega)
  | ⟨1, _⟩ =>
    exact concatenate_apply_piece (1 : Fin S1024x384.rank) _ _ _ 1 (by simp) S1024x128 y1 rfl rfl 128 rfl (ix2 g k) (hi 1)
      (by show 128 + k.val = 1 * 128 + k.val; omega)
  | ⟨2, _⟩ =>
    exact concatenate_apply_piece (1 : Fin S1024x384.rank) _ _ _ 2 (by simp) S1024x128 y2 rfl rfl 256 rfl (ix2 g k) (hi 2)
      (by show 256 + k.val = 2 * 128 + k.val; omega)

/-- Columns `p * 128 + k`, over the three parts `p` and the 128 offsets `k`, are exactly the 384 columns. -/
def colEquiv : Fin 3 × Fin 128 ≃ Fin 384 where
  toFun x := Spec.col x.1 x.2
  invFun c := (⟨c.val / 128, by have := c.isLt; omega⟩, ⟨c.val % 128, Nat.mod_lt _ (by decide)⟩)
  left_inv x := by
    obtain ⟨p, k⟩ := x
    have := k.isLt
    refine Prod.ext (Fin.ext ?_) (Fin.ext ?_)
    · show (p.val * 128 + k.val) / 128 = p.val; omega
    · show (p.val * 128 + k.val) % 128 = k.val; omega
  right_inv c := Fin.ext (by show c.val / 128 * 128 + c.val % 128 = c.val; omega)

/-- A sum over the 384 columns is the sum over the first 128, plus that over the next 128, plus that over the last 128. -/
theorem sum_three_parts {M : Type*} [AddCommMonoid M] (f : Fin 384 → M) :
    ∑ c : Fin 384, f c
      = (∑ k : Fin 128, f (Spec.col 0 k) + ∑ k : Fin 128, f (Spec.col 1 k)) + ∑ k : Fin 128, f (Spec.col 2 k) := by
  rw [← Equiv.sum_comp colEquiv f, Fintype.sum_prod_type, Fin.sum_univ_three]
  rfl

/-- The transposed weight at contraction index `c` and output feature `j` is the weight at `(j, c)`. -/
theorem weight_apply (x5 : (⟨S128x384, .f32⟩ : BufTy).Contents (Elt Ideal)) (g : Fin 1024) (j : Fin 128) (c : Fin 384) :
    val_main_v16 (F := Ideal) x5 (ridx_main_v17 (ix2 g j) c) = x5 (ix2 j c) := by
  rw [val_main_v16_apply]
  exact congrArg x5 (funext fun a => Fin.ext (by
    match a with
    | ⟨0, _⟩ => rfl
    | ⟨1, _⟩ => rfl))

/-- The left operand of the contraction is read at row `g`, column `c`. -/
theorem lidx_eq (g : Fin 1024) (j : Fin 128) (c : Fin 384) : lidx_main_v17 (ix2 g j) c = ix2 g c :=
  funext fun a => Fin.ext (by
    match a with
    | ⟨0, _⟩ => rfl
    | ⟨1, _⟩ => rfl)

/-- The bias broadcast down the rows, at `(g, j)`: the bias at output feature `j`. -/
theorem bias_apply (x6 : (⟨S128, .f32⟩ : BufTy).Contents (Elt Ideal)) (g : Fin 1024) (j : Fin 128) :
    val_main_v19 (F := Ideal) x6 (ix2 g j) = x6 (ix1 j) := by
  rw [val_main_v19_apply, val_main_v18_apply]
  exact congrArg x6 (funext fun a => Fin.ext (by match a with | ⟨0, _⟩ => rfl))

/-! ## The reference's result is the specification's, and its run -/

/-- The reference program's result term is the specified result of its arguments, when each edge's first end-point word
    reads as the in-range node index `ei0 e`. -/
theorem ref_eq (x0 : (⟨S500000x128, .f32⟩ : BufTy).Contents (Elt Ideal)) (x1 : (⟨S2x600000, .i32⟩ : BufTy).Contents (Elt Ideal))
    (x2 : (⟨S600000x128, .f32⟩ : BufTy).Contents (Elt Ideal)) (x3 : (⟨S1024x128, .f32⟩ : BufTy).Contents (Elt Ideal))
    (x4 : (⟨S500000, .i32⟩ : BufTy).Contents (Elt Ideal)) (x5 : (⟨S128x384, .f32⟩ : BufTy).Contents (Elt Ideal))
    (x6 : (⟨S128, .f32⟩ : BufTy).Contents (Elt Ideal)) (ei0 : Fin 600000 → Fin 500000)
    (h : ∀ e : Fin 600000, (x1 (ix2 (0 : Fin 2) e)).toInt = ((ei0 e).val : ℤ)) :
    val_main_v21 (F := Ideal) x0 x1 x2 x3 x4 x5 x6 = Spec.result x0 x2 x3 x4 x5 x6 ei0 := by
  funext i
  obtain ⟨g, j, rfl⟩ : ∃ (g : Fin 1024) (j : Fin 128), i = ix2 g j := ⟨i 0, i 1, eq_ix2 i⟩
  rw [val_main_v21_apply, val_main_v20_apply, val_main_call0_v0_apply, val_main_call0_cst_apply, Ideal.maximumf_def, Ideal.addf_def,
    Ideal.ofBits_def, Ideal.ofBits_zero_f32, val_main_v17_apply, bias_apply, sum_three_parts]
  unfold Spec.result
  show _ = max (Spec.lin _ _ _ _ _ g j) 0
  unfold Spec.lin val_main_v15
  simp only [lidx_eq, weight_apply, concat_piece, node_apply, edge_apply x1 x2 x4 ei0 h]

/-- The reference's run: every fair execution ends with the result array at the specified result of the argument
    arrays and the arguments unchanged, when on every device each edge's first end-point word reads as the in-range
    node index `ei0 e`. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) (ei0 : Fin 600000 → Fin 500000)
    (hei : ∀ (c : Dev Cert.ReferenceIdeal.nD) (e : Fin 600000),
      ((m' ((c.tc : Thread Cert.ReferenceIdeal.nD Cert.ReferenceIdeal.τ).loc Cert.ReferenceIdeal.main_arg1)) (ix2 (0 : Fin 2) e)).toInt
        = ((ei0 e).val : ℤ)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v21)
            = Cert.Spec.result (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
                (m' ((c.tc : Thread Cert.ReferenceIdeal.nD Cert.ReferenceIdeal.τ).loc Cert.ReferenceIdeal.main_arg6)) ei0
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono
    (fun _ hr c => ⟨((hr c).1.trans (val_main_v21_eq (F := Ideal) _ _ _ _ _ _ _)).trans (ref_eq _ _ _ _ _ _ _ ei0 (hei c)), (hr c).2⟩)
    (Cert.ReferenceIdeal.Value.run (F := Ideal) m' ρ')

end Cert.RefSpec

end
-- ==== Proof.lean ====
/- The kernel computes, per graph, the node segment sum and the edge segment sum as one-hot matrix products
   accumulated block by block over two cores, and a final kernel adds the two cores' partial sums and applies the linear
   layer part by part with a rectifier.  The reference computes the same segment sums by scatter-add, concatenates, and
   applies the layer as one product.  Over the extended reals both are the function `Cert.Spec.result` of the arguments:
   a one-hot product is a segment sum because 0 * x = 0 and 1 * x = x for every extended real x, and the block and core
   regrouping and the three-way split of the 384-term product only reorder sums.  The edge segment word is the node
   segment word at the edge's first end point, which both programs read the same way once that end point is an in-range
   node index: the precondition says so.  Each program's frame is its run with the result dropped. -/
import proofs.«428993_j12077448036507_2_alg».proof.Defs
import proofs.«428993_j12077448036507_2_alg».proof.Proof.Gen.Kernel
import proofs.«428993_j12077448036507_2_alg».proof.Proof.Gen.KernelIdeal
import proofs.«428993_j12077448036507_2_alg».proof.Proof.Gen.ReferenceIdeal
import proofs.«428993_j12077448036507_2_alg».proof.Proof.Gen.Pre_finite_inputs
import proofs.«428993_j12077448036507_2_alg».proof.Proof.K.Run
import proofs.«428993_j12077448036507_2_alg».proof.Proof.KI.Run
import proofs.«428993_j12077448036507_2_alg».proof.Proof.RefImports
import proofs.«428993_j12077448036507_2_alg».proof.Proof.KI.HostVals
import proofs.«428993_j12077448036507_2_alg».proof.Proof.KI.KernelValue
import proofs.«428993_j12077448036507_2_alg».proof.Proof.RefSpec
import Idealize.ShloMosaic.Adequacy
import Idealize.ShloMosaic.Init

noncomputable section

namespace Cert.Proof

open Idealize.ShloMosaic Idealize.SL.Sem

theorem frame_Kernel [hK : Cert.Kernel.Facts] [hP : Cert.Pre_finite_inputs.Facts] : Cert.frame_Kernel :=
  fun m ρ _ => (θ_run (Cert.Kernel.defs) _ _).mono (fun _ h c => ⟨(h c _ (Cert.Kernel.Gen.mem_uc Cert.Kernel.main_arg0 (by decide))).trans (Cert.Kernel.Gen.W7_main_arg0 m ρ c),
      (h c _ (Cert.Kernel.Gen.mem_uc Cert.Kernel.main_arg1 (by decide))).trans (Cert.Kernel.Gen.W7_main_arg1 m ρ c),
      (h c _ (Cert.Kernel.Gen.mem_uc Cert.Kernel.main_arg2 (by decide))).trans (Cert.Kernel.Gen.W7_main_arg2 m ρ c),
      (h c _ (Cert.Kernel.Gen.mem_uc Cert.Kernel.main_arg3 (by decide))).trans (Cert.Kernel.Gen.W7_main_arg3 m ρ c),
      (h c _ (Cert.Kernel.Gen.mem_uc Cert.Kernel.main_arg4 (by decide))).trans (Cert.Kernel.Gen.W7_main_arg4 m ρ c),
      (h c _ (Cert.Kernel.Gen.mem_uc Cert.Kernel.main_arg5 (by decide))).trans (Cert.Kernel.Gen.W7_main_arg5 m ρ c),
      (h c _ (Cert.Kernel.Gen.mem_uc Cert.Kernel.main_arg6 (by decide))).trans (Cert.Kernel.Gen.W7_main_arg6 m ρ c)⟩) (Cert.Kernel.Gen.run_all m ρ)

theorem frame_KernelIdeal [hK : Cert.KernelIdeal.Facts] [hP : Cert.Pre_finite_inputs.Facts] : Cert.frame_KernelIdeal :=
  fun m ρ _ => (θ_run (Cert.KernelIdeal.defs) _ _).mono (fun _ h c => ⟨(h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c)⟩) (Cert.KernelIdeal.Gen.run_all m ρ)

theorem frame_ReferenceIdeal [hR : Cert.ReferenceIdeal.Facts] [hP : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- There is one device. -/
theorem dev_eq (c c' : Dev Cert.KernelIdeal.nD) : c = c' := Subsingleton.elim _ _

theorem algebraic [hK : Cert.KernelIdeal.Facts] [hR : Cert.ReferenceIdeal.Facts] [hP : Cert.Pre_finite_inputs.Facts] :
    Cert.algebraic_KernelIdeal_ReferenceIdeal :=
  fun m ρ m' ρ' hpre hagree =>
    ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (Cert.KernelIdeal.HostVals.ei0 m hpre c),
      (θ_run (Cert.KernelIdeal.defs) _ _).mono (fun _ h c =>
        ⟨(h c _ (Cert.KernelIdeal.Gen.mem_uc Cert.KernelIdeal.main_v11 (by decide))).trans
            (Cert.KernelIdeal.Gen.kernel_value m ρ c (Cert.KernelIdeal.HostVals.ei0 m hpre c) (Cert.KernelIdeal.HostVals.ei0_spec m hpre c)),
          (h c _ (Cert.KernelIdeal.Gen.mem_uc Cert.KernelIdeal.main_arg0 (by decide))).trans (Cert.KernelIdeal.Gen.W7_main_arg0 m ρ c),
          (h c _ (Cert.KernelIdeal.Gen.mem_uc Cert.KernelIdeal.main_arg1 (by decide))).trans (Cert.KernelIdeal.Gen.W7_main_arg1 m ρ c),
          (h c _ (Cert.KernelIdeal.Gen.mem_uc Cert.KernelIdeal.main_arg2 (by decide))).trans (Cert.KernelIdeal.Gen.W7_main_arg2 m ρ c),
          (h c _ (Cert.KernelIdeal.Gen.mem_uc Cert.KernelIdeal.main_arg3 (by decide))).trans (Cert.KernelIdeal.Gen.W7_main_arg3 m ρ c),
          (h c _ (Cert.KernelIdeal.Gen.mem_uc Cert.KernelIdeal.main_arg4 (by decide))).trans (Cert.KernelIdeal.Gen.W7_main_arg4 m ρ c),
          (h c _ (Cert.KernelIdeal.Gen.mem_uc Cert.KernelIdeal.main_arg5 (by decide))).trans (Cert.KernelIdeal.Gen.W7_main_arg5 m ρ c),
          (h c _ (Cert.KernelIdeal.Gen.mem_uc Cert.KernelIdeal.main_arg6 (by decide))).trans (Cert.KernelIdeal.Gen.W7_main_arg6 m ρ c)⟩)
        (Cert.KernelIdeal.Gen.run_all m ρ),
      (θ_run (Cert.ReferenceIdeal.defs) _ _).mono (fun _ h c => by
          obtain rfl : c = 0 := dev_eq c 0
          refine ⟨?_, (h 0).2⟩
          have hc := (h 0).1
          rw [(hagree 0).1, (hagree 0).2.2.1, (hagree 0).2.2.2.1, (hagree 0).2.2.2.2.1, (hagree 0).2.2.2.2.2.1, (hagree 0).2.2.2.2.2.2] at hc
          exact hc)
        (Cert.RefSpec.ref_run m' ρ' (Cert.KernelIdeal.HostVals.ei0 m hpre 0) (fun c e => by
          rw [(hagree c).2.1, dev_eq c 0]
          exact Cert.KernelIdeal.HostVals.ei0_spec m hpre 0 e))⟩

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
